-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S512x4096 : Shape := ⟨2, ![512, 4096]⟩
abbrev S32x4096 : Shape := ⟨2, ![32, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S32x4096 : S_.BroadcastsInDim S32x4096 (![] : Fin 0 → Fin S32x4096.rank)
  reducesTo_S32x4096_S_d0_1 : S32x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : IVec S512x4096 32) (main_arg2 : FVec F S32x4096 .f32) (main_arg3 : FVec F S32x4096 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S32x4096 .f32 := Host.absf main_arg2
  let main_cst_0 : FVec F S_ .f32 := constant S_ .f32 0x7F800000#32
  let main_v5 : FVec F S32x4096 .f32 := broadcastInDim S32x4096 ![] bcast_S_S32x4096 main_cst_0
  let main_v6 : IVec S32x4096 1 := cmpf .olt main_v4 main_v5
  let main_c_1 : IVec S_ 1 := constantI S_ 1 1#1
  let main_v7 : IVec S_ 1 := (fun x v => Host.reduce IntOp.andi x v reducesTo_S32x4096_S_d0_1 h_S_) main_v6 main_c_1
  let main_v8 : IVec S_ 1 := andi main_v3 main_v7
  let main_v9 : FVec F S32x4096 .f32 := Host.absf main_arg3
  let main_cst_2 : FVec F S_ .f32 := constant S_ .f32 0x7F800000#32
  let main_v10 : FVec F S32x4096 .f32 := broadcastInDim S32x4096 ![] bcast_S_S32x4096 main_cst_2
  let main_v11 : IVec S32x4096 1 := cmpf .olt main_v9 main_v10
  let main_c_3 : IVec S_ 1 := constantI S_ 1 1#1
  let main_v12 : IVec S_ 1 := (fun x v => Host.reduce IntOp.andi x v reducesTo_S32x4096_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S512x4096 : Shape := ⟨2, ![512, 4096]⟩
abbrev S32x4096 : Shape := ⟨2, ![32, 4096]⟩
abbrev S4096 : Shape := ⟨1, ![4096]⟩
abbrev S8192x4096 : Shape := ⟨2, ![8192, 4096]⟩
abbrev S1x4096 : Shape := ⟨2, ![1, 4096]⟩
abbrev S512x1024 : Shape := ⟨2, ![512, 1024]⟩
abbrev S32x2048 : Shape := ⟨2, ![32, 2048]⟩
abbrev S1x2048 : Shape := ⟨2, ![1, 2048]⟩
abbrev S512x2048 : Shape := ⟨2, ![512, 2048]⟩
abbrev S4096x2048 : Shape := ⟨2, ![4096, 2048]⟩
abbrev S128x2048 : Shape := ⟨2, ![128, 2048]⟩
abbrev S_ : Shape := ⟨0, ![]⟩
abbrev S8x2048 : Shape := ⟨2, ![8, 2048]⟩
abbrev S16x8x2048 : Shape := ⟨3, ![16, 8, 2048]⟩
abbrev S16x2048 : Shape := ⟨2, ![16, 2048]⟩
abbrev S16x1x2048 : Shape := ⟨3, ![16, 1, 2048]⟩
abbrev S1024x2048 : Shape := ⟨2, ![1024, 2048]⟩

abbrev nBuf : Space → Nat
  | .hbm => 9
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S512x4096, .i32⟩
  | .hbm, ⟨2, _⟩ => ⟨S32x4096, .f32⟩
  | .hbm, ⟨3, _⟩ => ⟨S32x4096, .f32⟩
  | .hbm, ⟨4, _⟩ => ⟨S4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S4x2048x4096, .f32⟩
  | .local _ .vmem, ⟨0, _⟩ => ⟨S512x1024, .f32⟩
  | .local _ .vmem, ⟨1, _⟩ => ⟨S512x1024, .f32⟩
  | .local _ .vmem, ⟨2, _⟩ => ⟨S32x2048, .f32⟩
  | .local _ .vmem, ⟨3, _⟩ => ⟨S32x2048, .f32⟩
  | .local _ .vmem, ⟨4, _⟩ => ⟨S32x2048, .f32⟩
  | .local _ .vmem, ⟨5, _⟩ => ⟨S32x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S4096x2048, .bf16⟩
  | .local _ .vmem, ⟨12, _⟩ => ⟨S128x2048, .i32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 16, 4], ![false, false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_mult1 (i : grid0.Coords) : BitVec 32 :=
  let arg2 : BitVec 32 := BitVec.ofNat 32 (i 2).val
  let c128_i32 : BitVec 32 := 128#32
  let v22 : BitVec 32 := Scalar.muli arg2 c128_i32
  v22
def k0_mult2 (i : grid0.Coords) : BitVec 32 :=
  let arg0 : BitVec 32 := BitVec.ofNat 32 (i 0).val
  let c2048_i32 : BitVec 32 := 2048#32
  let v24 : BitVec 32 := Scalar.muli arg0 c2048_i32
  v24
def k0_off1 (i : grid0.Coords) : Fin 2 → Nat :=
  let arg2 : BitVec 32 := BitVec.ofNat 32 (i 2).val
  let c128_i32 : BitVec 32 := 128#32
  let v22 : BitVec 32 := Scalar.muli arg2 c128_i32
  let v23 : BitVec 32 := v22
  let arg0 : BitVec 32 := BitVec.ofNat 32 (i 0).val
  let c2048_i32 : BitVec 32 := 2048#32
  let v24 : BitVec 32 := Scalar.muli arg0 c2048_i32
  let v25 : BitVec 32 := v24
  ![v23.toNat, v25.toNat]
def k0_mult3 (i : grid0.Coords) : BitVec 32 :=
  let arg2 : BitVec 32 := BitVec.ofNat 32 (i 2).val
  let c8_i32 : BitVec 32 := 8#32
  let v29 : BitVec 32 := Scalar.muli arg2 c8_i32
  v29
def k0_off2 (i : grid0.Coords) : Fin 2 → Nat :=
  let arg2 : BitVec 32 := BitVec.ofNat 32 (i 2).val
  let c8_i32 : BitVec 32 := 8#32
  let v29 : BitVec 32 := Scalar.muli arg2 c8_i32
  let v30 : BitVec 32 := v29
  let v31 : Index := Scalar.indexCast v30
  let c0_12 : Index := 0#32
  ![v31.toNat, 0]
def k0_mult4 (i : grid0.Coords) : BitVec 32 :=
  let arg2 : BitVec 32 := BitVec.ofNat 32 (i 2).val
  let c1024_i32_14 : BitVec 32 := 1024#32
  let v53 : BitVec 32 := Scalar.muli arg2 c1024_i32_14
  let c0_i32_15 : BitVec 32 := 0#32
  let v54 : BitVec 32 := Scalar.addi v53 c0_i32_15
  v54
def k0_off3 (i : grid0.Coords) (c0_i32_15 : BitVec 32) : Fin 2 → Nat :=
  let arg2 : BitVec 32 := BitVec.ofNat 32 (i 2).val
  let c1024_i32_14 : BitVec 32 := 1024#32
  let v53 : BitVec 32 := Scalar.muli arg2 c1024_i32_14
  let v54 : BitVec 32 := Scalar.addi v53 c0_i32_15
  let v55 : BitVec 32 := v54
  let v56 : Index := Scalar.indexCast v55
  let c0_16 : Index := 0#32
  ![v56.toNat, 0]
def k0_mult5 (i : grid0.Coords) : BitVec 32 :=
  let arg2 : BitVec 32 := BitVec.ofNat 32 (i 2).val
  let c1024_i32_18 : BitVec 32 := 1024#32
  let v75 : BitVec 32 := Scalar.muli arg2 c1024_i32_18
  let c128_i32_19 : BitVec 32 := 128#32
  let v76 : BitVec 32 := Scalar.addi v75 c128_i32_19
  v76
def k0_mult6 (i : grid0.Coords) : BitVec 32 :=
  let arg2 : BitVec 32 := BitVec.ofNat 32 (i 2).val
  let c1024_i32_22 : BitVec 32 := 1024#32
  let v97 : BitVec 32 := Scalar.muli arg2 c1024_i32_22
  let c256_i32 : BitVec 32 := 256#32
  let v98 : BitVec 32 := Scalar.addi v97 c256_i32
  v98
def k0_mult7 (i : grid0.Coords) : BitVec 32 :=
  let arg2 : BitVec 32 := BitVec.ofNat 32 (i 2).val
  let c1024_i32_25 : BitVec 32 := 1024#32
  let v119 : BitVec 32 := Scalar.muli arg2 c1024_i32_25
  let c384_i32 : BitVec 32 := 384#32
  let v120 : BitVec 32 := Scalar.addi v119 c384_i32
  v120
def k0_mult8 (i : grid0.Coords) : BitVec 32 :=
  let arg2 : BitVec 32 := BitVec.ofNat 32 (i 2).val
  let c1024_i32_28 : BitVec 32 := 1024#32
  let v141 : BitVec 32 := Scalar.muli arg2 c1024_i32_28
  let c512_i32 : BitVec 32 := 512#32
  let v142 : BitVec 32 := Scalar.addi v141 c512_i32
  v142
def k0_mult9 (i : grid0.Coords) : BitVec 32 :=
  let arg2 : BitVec 32 := BitVec.ofNat 32 (i 2).val
  let c1024_i32_31 : BitVec 32 := 1024#32
  let v163 : BitVec 32 := Scalar.muli arg2 c1024_i32_31
  let c640_i32 : BitVec 32 := 640#32
  let v164 : BitVec 32 := Scalar.addi v163 c640_i32
  v164
def k0_mult10 (i : grid0.Coords) : BitVec 32 :=
  let arg2 : BitVec 32 := BitVec.ofNat 32 (i 2).val
  let c1024_i32_34 : BitVec 32 := 1024#32
  let v185 : BitVec 32 := Scalar.muli arg2 c1024_i32_34
  let c768_i32 : BitVec 32 := 768#32
  let v186 : BitVec 32 := Scalar.addi v185 c768_i32
  v186
def k0_mult11 (i : grid0.Coords) : BitVec 32 :=
  let arg2 : BitVec 32 := BitVec.ofNat 32 (i 2).val
  let c1024_i32_37 : BitVec 32 := 1024#32
  let v207 : BitVec 32 := Scalar.muli arg2 c1024_i32_37
  let c896_i32 : BitVec 32 := 896#32
  let v208 : BitVec 32 := Scalar.addi v207 c896_i32
  v208
def k0_mult12 (i : grid0.Coords) : BitVec 32 :=
  let arg2 : BitVec 32 := BitVec.ofNat 32 (i 2).val
  let c1024_i32 : BitVec 32 := 1024#32
  let v6 : BitVec 32 := Scalar.muli arg2 c1024_i32
  v6
def k0_off4 (i : grid0.Coords) : Fin 2 → Nat :=
  let arg2 : BitVec 32 := BitVec.ofNat 32 (i 2).val
  let c1024_i32 : BitVec 32 := 1024#32
  let v6 : BitVec 32 := Scalar.muli arg2 c1024_i32
  let v7 : BitVec 32 := v6
  let v8 : Index := Scalar.indexCast v7
  let c0 : Index := 0#32
  ![v8.toNat, 0]
def k0_cond3 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_9 : BitVec 32 := 0#32
  let v21 : BitVec 1 := Scalar.cmpi .ne v20 c0_i32_9
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  shapeCasts_S4096_S1x4096 : S4096.ShapeCasts S1x4096
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S128x2048_S128x2048_0_0 : ∀ a, (![0, 0] : Fin 2 → Nat) a + S128x2048.size a ≤ S128x2048.size a
  h_S128x2048 : 0 < S128x2048.numel
  h_S8x2048 : 0 < S8x2048.numel
  iota_S16x8x2048_d1_w32 : S16x8x2048.Iotas .tc 32 [1]
  slices_S128x2048_o0_0_S16x2048 : S128x2048.Slices ![0, 0] S16x2048
  shapeCasts_S16x2048_S16x1x2048 : S16x2048.ShapeCasts S16x1x2048
  broadcasts_S16x1x2048_S16x8x2048 : S16x1x2048.Broadcasts S16x8x2048
  shapeCasts_S16x8x2048_S128x2048 : S16x8x2048.ShapeCasts S128x2048
  slices_S8x2048_o0_0_S1x2048 : S8x2048.Slices ![0, 0] S1x2048
  broadcasts_S1x2048_S128x2048 : S1x2048.Broadcasts S128x2048
  bitsLt_bf16_f32 : FTy.bits .bf16 < FTy.bits .f32
  shapeCasts_S128x2048_S128x2048 : S128x2048.ShapeCasts S128x2048
  slices_S128x2048_o16_0_S16x2048 : S128x2048.Slices ![16, 0] S16x2048
  slices_S8x2048_o1_0_S1x2048 : S8x2048.Slices ![1, 0] S1x2048
  slices_S128x2048_o32_0_S16x2048 : S128x2048.Slices ![32, 0] S16x2048
  slices_S8x2048_o2_0_S1x2048 : S8x2048.Slices ![2, 0] S1x2048
  slices_S128x2048_o48_0_S16x2048 : S128x2048.Slices ![48, 0] S16x2048
  slices_S8x2048_o3_0_S1x2048 : S8x2048.Slices ![3, 0] S1x2048
  slices_S128x2048_o64_0_S16x2048 : S128x2048.Slices ![64, 0] S16x2048
  slices_S8x2048_o4_0_S1x2048 : S8x2048.Slices ![4, 0] S1x2048
  slices_S128x2048_o80_0_S16x2048 : S128x2048.Slices ![80, 0] S16x2048
  slices_S8x2048_o5_0_S1x2048 : S8x2048.Slices ![5, 0] S1x2048
  slices_S128x2048_o96_0_S16x2048 : S128x2048.Slices ![96, 0] S16x2048
  slices_S8x2048_o6_0_S1x2048 : S8x2048.Slices ![6, 0] S1x2048
  slices_S128x2048_o112_0_S16x2048 : S128x2048.Slices ![112, 0] S16x2048
  slices_S8x2048_o7_0_S1x2048 : S8x2048.Slices ![7, 0] S1x2048
  h_S1024x2048 : 0 < S1024x2048.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S8192x4096_S4x2048x4096 : S8192x4096.ShapeCasts S4x2048x4096
  dot_S512x1024_S1024x2048_S512x2048_1_0_0_1_n_n_wf : DotDims.WF S512x1024 S1024x2048 S512x2048 [1] [0] [0] [1] [] []
  hcc0_scratch3 : 10 + S_.numel ≤ 11
  hrank0 : 0 < grid0.rank
  k0_mult1_dvd : ∀ i : grid0.Coords, ∀ (k0_h2 : k0_cond2 i = 1#1), 128 ∣ (k0_mult1 i).toNat
  k0_mult2_dvd : ∀ i : grid0.Coords, ∀ (k0_h2 : k0_cond2 i = 1#1), 2048 ∣ (k0_mult2 i).toNat
  k0_off1_inb : ∀ i : grid0.Coords, ∀ (k0_h2 : k0_cond2 i = 1#1), ∀ a, (k0_off1 i) a + S128x2048.size a ≤ S512x4096.size a
  k0_mult3_dvd : ∀ i : grid0.Coords, ∀ (k0_h2 : k0_cond2 i = 1#1), 8 ∣ (k0_mult3 i).toNat
  k0_off2_inb : ∀ i : grid0.Coords, ∀ (k0_h2 : k0_cond2 i = 1#1), ∀ a, (k0_off2 i) a + S8x2048.size a ≤ S32x2048.size a
  k0_mult4_dvd : ∀ i : grid0.Coords, ∀ (k0_h2 : k0_cond2 i = 1#1), 128 ∣ (k0_mult4 i).toNat
  k0_off3_inb : ∀ i : grid0.Coords, ∀ (k0_h2 : k0_cond2 i = 1#1), ∀ (r : Fin 8), ∀ a, (k0_off3 i (BitVec.ofNat 32 (128 * r.val))) a + S128x2048.size a ≤ S4096x2048.size a
  k0_off3_packedbf16 : ∀ i : grid0.Coords, ∀ (k0_h2 : k0_cond2 i = 1#1), ∀ (r : Fin 8), (Rect.unit (s := S4096x2048) (k0_off3 i (BitVec.ofNat 32 (128 * r.val))) S128x2048.size (k0_off3_inb i k0_h2 r)).PackedRows (EltTy.packing .bf16)
  k0_mult5_dvd : ∀ i : grid0.Coords, ∀ (k0_h2 : k0_cond2 i = 1#1), 128 ∣ (k0_mult5 i).toNat
  k0_mult6_dvd : ∀ i : grid0.Coords, ∀ (k0_h2 : k0_cond2 i = 1#1), 128 ∣ (k0_mult6 i).toNat
  k0_mult7_dvd : ∀ i : grid0.Coords, ∀ (k0_h2 : k0_cond2 i = 1#1), 128 ∣ (k0_mult7 i).toNat
  k0_mult8_dvd : ∀ i : grid0.Coords, ∀ (k0_h2 : k0_cond2 i = 1#1), 128 ∣ (k0_mult8 i).toNat
  k0_mult9_dvd : ∀ i : grid0.Coords, ∀ (k0_h2 : k0_cond2 i = 1#1), 128 ∣ (k0_mult9 i).toNat
  k0_mult10_dvd : ∀ i : grid0.Coords, ∀ (k0_h2 : k0_cond2 i = 1#1), 128 ∣ (k0_mult10 i).toNat
  k0_mult11_dvd : ∀ i : grid0.Coords, ∀ (k0_h2 : k0_cond2 i = 1#1), 128 ∣ (k0_mult11 i).toNat
  k0_mult12_dvd : ∀ i : grid0.Coords, 1024 ∣ (k0_mult12 i).toNat
  k0_off4_inb : ∀ i : grid0.Coords, ∀ a, (k0_off4 i) a + S1024x2048.size a ≤ S4096x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .f32 = 32 ∨ (Rect.block (s := S8192x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hinb0_1 : ∀ (i : grid0.Coords) a, (cc0_transform_2 i a + 1) * S32x2048.size a ≤ S32x4096.size a
  hwx0_1 : ∀ i : grid0.Coords, EltTy.bits .f32 = 32 ∨ (Rect.block (s := S32x4096) S32x2048.size (cc0_transform_2 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_3 i = cc0_transform_3 i'
  hinb0_2 : ∀ (i : grid0.Coords) a, (cc0_transform_3 i a + 1) * S32x2048.size a ≤ S32x4096.size a
  hwx0_2 : ∀ i : grid0.Coords, EltTy.bits .f32 = 32 ∨ (Rect.block (s := S32x4096) S32x2048.size (cc0_transform_3 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_4 i = cc0_transform_4 i'
  hinb0_3 : ∀ (i : grid0.Coords) a, (cc0_transform_4 i a + 1) * S1x2048.size a ≤ S1x4096.size a
  hwx0_3 : ∀ i : grid0.Coords, EltTy.bits .f32 = 32 ∨ (Rect.block (s := S1x4096) S1x2048.size (cc0_transform_4 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_5 i = cc0_transform_5 i'
  hinb0_4 : ∀ (i : grid0.Coords) a, (cc0_transform_5 i a + 1) * S512x2048.size a ≤ S8192x4096.size a
  hwx0_4 : ∀ i : grid0.Coords, EltTy.bits .f32 = 32 ∨ (Rect.block (s := S8192x4096) S512x2048.size (cc0_transform_5 i) (hinb0_4 i)).WholeWords (EltTy.packing .f32)

variable [Facts₀]

abbrev cc0_scratch3 : DmaSems sig S_ := SemArray.consecutive 10 S_ hcc0_scratch3
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x2048.size cc0_transform_2 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32x2048.size cc0_transform_3 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2048.size cc0_transform_4 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x2048.size cc0_transform_5 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond3 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S512x4096 : Shape := ⟨2, ![512, 4096]⟩
abbrev S32x4096 : Shape := ⟨2, ![32, 4096]⟩
abbrev S4096 : Shape := ⟨1, ![4096]⟩
abbrev S8 : Shape := ⟨1, ![8]⟩
abbrev S_ : Shape := ⟨0, ![]⟩
abbrev S512x1x4096 : Shape := ⟨3, ![512, 1, 4096]⟩
abbrev S1x8x1 : Shape := ⟨3, ![1, 8, 1]⟩
abbrev S512x8x4096 : Shape := ⟨3, ![512, 8, 4096]⟩
abbrev S4096x4096 : Shape := ⟨2, ![4096, 4096]⟩
abbrev S32x128x4096 : Shape := ⟨3, ![32, 128, 4096]⟩
abbrev S1x1x4096 : Shape := ⟨3, ![1, 1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S512x4096, .i32⟩
  | .hbm, ⟨2, _⟩ => ⟨S32x4096, .f32⟩
  | .hbm, ⟨3, _⟩ => ⟨S32x4096, .f32⟩
  | .hbm, ⟨4, _⟩ => ⟨S4096, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S512x1x4096, .i32⟩
  | .hbm, ⟨10, _⟩ => ⟨S1x8x1, .i32⟩
  | .hbm, ⟨11, _⟩ => ⟨S512x8x4096, .i32⟩
  | .hbm, ⟨12, _⟩ => ⟨S512x8x4096, .i32⟩
  | .hbm, ⟨13, _⟩ => ⟨S512x8x4096, .i32⟩
  | .hbm, ⟨14, _⟩ => ⟨S_, .i32⟩
  | .hbm, ⟨15, _⟩ => ⟨S512x8x4096, .i32⟩
  | .hbm, ⟨16, _⟩ => ⟨S512x8x4096, .i32⟩
  | .hbm, ⟨17, _⟩ => ⟨S4096x4096, .i32⟩
  | .hbm, ⟨18, _⟩ => ⟨S4096x4096, .f32⟩
  | .hbm, ⟨19, _⟩ => ⟨S32x128x4096, .f32⟩
  | .hbm, ⟨20, _⟩ => ⟨S4096x4096, .f32⟩
  | .hbm, ⟨21, _⟩ => ⟨S32x128x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4x2048x4096, .f32⟩
  | .hbm, ⟨26, _⟩ => ⟨S1x1x4096, .f32⟩
  | .hbm, ⟨27, _⟩ => ⟨S4x2048x4096, .f32⟩
  | .hbm, ⟨28, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S512x4096_S512x1x4096_0_2 : S512x4096.BroadcastsInDim S512x1x4096 (![0, 2] : Fin 2 → Fin S512x1x4096.rank)
  bcast_S8_S1x8x1_1 : S8.BroadcastsInDim S1x8x1 (![1] : Fin 1 → Fin S1x8x1.rank)
  bcast_S512x1x4096_S512x8x4096_0_1_2 : S512x1x4096.BroadcastsInDim S512x8x4096 (![0, 1, 2] : Fin 3 → Fin S512x8x4096.rank)
  bcast_S1x8x1_S512x8x4096_0_1_2 : S1x8x1.BroadcastsInDim S512x8x4096 (![0, 1, 2] : Fin 3 → Fin S512x8x4096.rank)
  bcast_S_S512x8x4096 : S_.BroadcastsInDim S512x8x4096 (![] : Fin 0 → Fin S512x8x4096.rank)
  shapeCasts_S512x8x4096_S4096x4096 : S512x8x4096.ShapeCasts S4096x4096
  bcast_S32x4096_S32x128x4096_0_2 : S32x4096.BroadcastsInDim S32x128x4096 (![0, 2] : Fin 2 → Fin S32x128x4096.rank)
  shapeCasts_S32x128x4096_S4096x4096 : S32x128x4096.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_0_01_1_n_n_wf : DotDims.WF S4x2048x4096 S4096x4096 S4x2048x4096 [2] [0] [0, 1] [1] [] []

variable [Facts₀]

def dot_S4x2048x4096_S4096x4096_S4x2048x4096_2_0_01_1_n_n : DotDims S4x2048x4096 S4096x4096 S4x2048x4096 where
  lhsContracting := [2]
  rhsContracting := [0]
  lhsNonContracting := [0, 1]
  rhsNonContracting := [1]
  lhsBatch := []
  rhsBatch := []
  wf := dot_S4x2048x4096_S4096x4096_S4x2048x4096_2_0_01_1_n_n_wf

class Facts : Prop extends Facts₀ where

variable [Facts]
-- ==== Proof.KitBits.lean ====
/-
  @main around the one region, and what every run of the kernel body is stated over.

  The body copies a block of the packed weights out of HBM by a transfer of its own and waits for it
  inside the same grid point, so the region's resources are described over the algebra that also
  counts transfers. Here are, over that algebra: @main as the host lines before the region, the
  region, and the host line after it; each argument array found unchanged after that last line; each
  staged input found at its block at every point; and the frame's statement read off a run of the
  whole program.

  Then the vocabulary of the runs. The grid is (n, m, k) = (2, 16, 4), k fastest, so point t has
  k = t % 4 and m = (t / 4) % 16. Three branches: "k = 0" (the accumulator is reset), "m = 0" (the
  weight block is fetched and dequantized into the cache) and "k = 3" (the accumulator plus the bias is
  stored to the output block). The output window is written back exactly at the points with k = 3
  and is idle at the others.
-/
import proofs.«405182_j16458314678409_3_alg».proof.Proof.Gen.Kernel.Frame
import proofs.«405182_j16458314678409_3_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region -/

/-- @main is the two reshapes, the region, and the reshape of the result. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operand the body copies out of HBM itself: the packed weights. -/
def H0 : Finset (Ref sig .tc) := {main_arg1}
theorem H0_sub : H0 ⊆ Pipeline.restRefs sig spec0 := by decide

/-- The reshape after the region touches the result arrays only, not the packed weights. -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl
    all_goals intro b hb; simp only [H0, Finset.mem_insert, Finset.mem_singleton] at hb
    all_goals rcases hb with rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)

/-- The reshape after the region writes no argument: each ends as launched. -/
theorem W_main_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg4 (dats : (p : Fin _) → (c : Dev nD) → Dat τ (Elt F) Unit ℕ (Pipeline.UD sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## Each staged input is found at its block -/

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame's statement from a run -/

/-- If the whole program runs to the state in which every array of the region holds what the proof
    data says and every other unscoped buffer is as the last host line leaves it, then every argument
    array ends as it was launched. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      (((h c).2 main_arg4 (Pipeline.mem_restRefs_of main_arg4 (by decide) (by decide))).trans (W_main_arg4 m dats c))⟩) h

/-! ## The three branches, decided over the 128 points -/

/-- "k = 0": the accumulator is reset. -/
abbrev condK0 (i : grid0.Coords) : Prop := (Scalar.cmpi .ne (Scalar.extui (Scalar.cmpi .eq (BitVec.ofNat 32 (i 2).val) 0#32)) 0#32) = 1#1
theorem hcondK0 : ∀ t : Fin cfg0.N, condK0 (grid0.coords t) ↔ t.val % 4 = 0 :=
  (by decide +kernel : ∀ t : Fin grid0.N, condK0 (grid0.coords t) ↔ t.val % 4 = 0)
/-- "m = 0": the weight block is fetched and dequantized. -/
abbrev condM0 (i : grid0.Coords) : Prop := k0_cond2 i = 1#1
theorem hcondM0 : ∀ t : Fin cfg0.N, condM0 (grid0.coords t) ↔ t.val % 64 < 4 :=
  (by decide +kernel : ∀ t : Fin grid0.N, condM0 (grid0.coords t) ↔ t.val % 64 < 4)
/-- "k = 3": the output block is stored. -/
abbrev condK3 (i : grid0.Coords) : Prop := k0_cond3 i = 1#1
theorem hcondK3 : ∀ t : Fin cfg0.N, condK3 (grid0.coords t) ↔ t.val % 4 = 3 :=
  (by decide +kernel : ∀ t : Fin grid0.N, condK3 (grid0.coords t) ↔ t.val % 4 = 3)

/-- The staged inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from k = 3 the output window is idle and is not written back. -/
theorem idleAt0_4 : ∀ t : Fin cfg0.N, ¬condK3 (grid0.coords t) → cfg0.idle 4 (grid0.coords t) = true := by decide +kernel
theorem noFlush0_4 : ∀ t : Fin cfg0.N, ¬condK3 (grid0.coords t) → (cfg0.win 4).flush t = false := by decide +kernel
/-- At k = 3 it is live. -/
theorem liveAt0_4 : ∀ t : Fin cfg0.N, condK3 (grid0.coords t) → cfg0.idle 4 (grid0.coords t) = false := by decide +kernel

/-! ## What the runs are stated over -/

/-- One staging buffer of the output window, through which its contents are stated. -/
abbrev VO0_4 : View sig .tc .vmem S512x2048 .f32 := (Memref.whole cc0_stg4_0 : Memref sig .tc .vmem S512x2048 .f32).view
/-- Each window's current staging memref at point `t`, and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x2048 .f32 := win0_4.stage (cfg0.slots t 4)
abbrev hs0_4 (t : Fin cfg0.N) : (ms0_4 t).IsWhole := hstage0_4 ((cfg0.slots t 4).cast nbuf0_4)
/-- The scratch buffers: the accumulator, the dequantized-weight cache, the landing buffer of the copy. -/
abbrev scAcc : Memref sig .tc .vmem S512x2048 .f32 := Memref.whole cc0_scratch0
abbrev scW : Memref sig .tc .vmem S4096x2048 .bf16 := Memref.whole cc0_scratch1
abbrev scQ : Memref sig .tc .vmem S128x2048 .i32 := Memref.whole cc0_scratch2
/-- The packed weights in HBM, whole. -/
abbrev hbQ : Memref sig .tc .hbm S512x4096 .i32 := Memref.whole main_arg1
/-- A memref's buffer on core `c`: its contents type, and it held whole at `f`. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own transfer semaphore: cell 10 of the pool, no window's. -/
abbrev osem0 : Fin 1 → SemLoc sig := fun j => (![SemLoc.dma 10] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0) := by
  rw [Pipeline.ownSems0_eq_of_list c osem0 [0] (by decide) (by decide)]; rfl
theorem hbmPts0_eq (c : Dev nD) :
    (bigSep H0 (fun b => ((c : Thread nD τ).loc b) ↦{fullShare} V m c b) : sProp 𝕄) = iprop(hbPt0 c hbQ (V m c main_arg1)) := by
  rw [BI.bigSep_eq_bigSepL_of_eq [main_arg1] (by decide) (by decide)]; rfl

/-- The region's invariant, conjunct by conjunct: the three scratch buffers at some contents, the
    generator register at some state, the transfer semaphore at zero, the packed weights in HBM as
    launched. -/
theorem PhiD0_eq (c : Dev nD) :
    (Pipeline.ΦD osem0 spec0 H0 (V m) c : sProp 𝕄)
      = iprop(iprop((∃ d, owns (c : Thread nD τ) scAcc fullShare d) ∗ (∃ d, owns (c : Thread nD τ) scW fullShare d) ∗ (∃ d, owns (c : Thread nD τ) scQ fullShare d)) ∗ (∃ r, prngReg c r) ∗ iprop(semVal ((c : Thread nD τ), SemLoc.dma 10) 0) ∗ iprop(hbPt0 c hbQ (V m c main_arg1))) := by
  rw [Pipeline.ΦD_eq, scopedRest0_eq, ownSems00_eq, hbmPts0_eq]; simp only [scAcc, scW, scQ, owns_whole]; try rfl

end Cert.Kernel.Hand

end
-- ==== Proof.GroupsBits.lean ====
/-
  The eight groups of a weight block, named as one function of the group number.

  A block of the dequantized-weight cache is 1024 rows: eight groups of 128. The body computes group
  `g` from rows `16 g … 16 g + 15` of the fetched packed words (each word giving eight consecutive
  rows), row `g` of the eight scale rows and row `g` of the eight zero-point rows that belong to the
  block. The printed body spells the eight computations apart; here they are one function, at any
  float instance.
-/
import proofs.«405182_j16458314678409_3_alg».proof.Proof.Gen.Kernel.Skeleton

noncomputable section

namespace Cert.Kernel.Hand

open Idealize.ShloMosaic Cert.Kernel Cert.Kernel.Gen

variable {F : FTy → Type} [FloatOps F]

/-- Group `g` of a weight block, from the block's packed words `q`, its scale rows `s` and its
    zero-point rows `z`. -/
def grp (g : Fin 8) (q : Vec F S128x2048 .i32) (s z : Vec F S8x2048 .f32) : FVec F S128x2048 .bf16 :=
  match g with
  | ⟨0, _⟩ => k0_pay6 q s z
  | ⟨1, _⟩ => k0_pay8 s z (k0_pay7 (F := F) q)
  | ⟨2, _⟩ => k0_pay9 q s z k0_pay5
  | ⟨3, _⟩ => k0_pay12 (k0_pay10 z) (k0_pay11 q s k0_pay5)
  | ⟨4, _⟩ => k0_pay13 q s z k0_pay5
  | ⟨5, _⟩ => k0_pay15 (k0_pay14 q s z k0_pay5)
  | ⟨6, _⟩ => k0_pay16 q s z k0_pay5
  | ⟨7, _⟩ => k0_pay2 (k0_pay17 q s z k0_pay5)
  | ⟨n + 8, h⟩ => absurd h (by omega)

end Cert.Kernel.Hand

end
-- ==== Proof.BlocksBits.lean ====
/-
  The weight cache, block by block.

  The cache is 4096 rows by 2048 columns: four blocks of 1024 rows, one per value of the grid's
  last coordinate k. At a point with m = 0 the body overwrites block k by eight stores of 128 rows
  each, group g going to rows `1024 k + 128 g …`. Read back through the box of block k, those
  eight slabs are one function of the block's index, `wblk`: row `r` is row `r % 128` of group
  `r / 128` (`slabs_read`). Read through the box of another block they are invisible
  (`slabs_miss`). Both are arithmetic on the row coordinate alone: a slab holds whole rows.

  The point number t runs over the grid (n, m, k) = (2, 16, 4) with k fastest, so k = t % 4, and the
  offsets the body computes from its coordinates are, in closed form, `1024 k + 128 g` for a slab and
  `1024 k` for the block that is read for the product.
-/
import proofs.«405182_j16458314678409_3_alg».proof.Proof.KitBits
import proofs.«405182_j16458314678409_3_alg».proof.Proof.GroupsBits
import Idealize.ShloMosaic.Lib.WritesUnit
import Idealize.ShloMosaic.Lib.ValueIdx

set_option maxRecDepth 16384

noncomputable section

namespace Cert.Kernel.Hand

open Idealize.ShloMosaic Idealize.ShloMosaic.ValueIdx Idealize.SL.Sem
open Cert.Kernel Cert.Kernel.Gen

variable {F : FTy → Type} [FloatOps F]

/-! ## The offsets in closed form, and in range at every point -/

/-- The block read for the product starts at row `1024 k`. -/
theorem off4_eq : ∀ t : Fin cfg0.N, k0_off4 (grid0.coords t) = ![(t.val % 4) * 1024, 0] :=
  (by decide +kernel : ∀ t : Fin grid0.N, k0_off4 (grid0.coords t) = ![(t.val % 4) * 1024, 0])
/-- Slab `g` of the block starts at row `1024 k + 128 g`. -/
theorem off3_eq : ∀ t : Fin cfg0.N, ∀ g : Fin 8, k0_off3 (grid0.coords t) (BitVec.ofNat 32 (g.val * 128)) = ![(t.val % 4) * 1024 + g.val * 128, 0] :=
  (by decide +kernel : ∀ t : Fin grid0.N, ∀ g : Fin 8, k0_off3 (grid0.coords t) (BitVec.ofNat 32 (g.val * 128)) = ![(t.val % 4) * 1024 + g.val * 128, 0])
/-- A slab lies inside the cache at every point (the branch condition is not needed for that). -/
theorem off3_inb : ∀ t : Fin cfg0.N, ∀ g : Fin 8, ∀ a, k0_off3 (grid0.coords t) (BitVec.ofNat 32 (g.val * 128)) a + S128x2048.size a ≤ S4096x2048.size a :=
  (by decide +kernel : ∀ t : Fin grid0.N, ∀ g : Fin 8, ∀ a, k0_off3 (grid0.coords t) (BitVec.ofNat 32 (g.val * 128)) a + S128x2048.size a ≤ S4096x2048.size a)

/-! ## The block as one function, the slabs, the boxes -/

/-- A weight block as one function of its index: row `r` is row `r % 128` of group `r / 128`. -/
def wblk (q : Vec F S128x2048 .i32) (s z : Vec F S8x2048 .f32) : Vec F S1024x2048 .bf16 :=
  fun y => grp (⟨(y 0).val / 128, by have := idx2_lt0 y; omega⟩ : Fin 8) q s z
    (ix2 (⟨(y 0).val % 128, Nat.mod_lt _ (by norm_num)⟩ : Fin 128) (⟨(y 1).val, idx2_lt1 y⟩ : Fin 2048))

/-- Slab `g` written at point `t`: rows `1024 k + 128 g …` of the cache, holding group `g`. -/
def slab (t : Fin cfg0.N) (g : Fin 8) (q : Vec F S128x2048 .i32) (s z : Vec F S8x2048 .f32) : View.Piece (Elt F) S4096x2048 .bf16 :=
  ⟨Rect.unit (s := S4096x2048) (k0_off3 (grid0.coords t) (BitVec.ofNat 32 (g.val * 128))) S128x2048.size (off3_inb t g), grp g q s z⟩

/-- The eight slabs of a point, newest first: the order in which the stores are listed. -/
def slabs (t : Fin cfg0.N) (q : Vec F S128x2048 .i32) (s z : Vec F S8x2048 .f32) : List (View.Piece (Elt F) S4096x2048 .bf16) :=
  [slab t 7 q s z, slab t 6 q s z, slab t 5 q s z, slab t 4 q s z, slab t 3 q s z, slab t 2 q s z, slab t 1 q s z, slab t 0 q s z]

/-- The box of the block the body reads at point `t`: rows `1024 k …`, every column. -/
abbrev boxAt (t : Fin cfg0.N) : LoadRect S4096x2048 :=
  (Rect.unit (s := S4096x2048) (k0_off4 (grid0.coords t)) S1024x2048.size (k0_off4_inb (grid0.coords t))).toLoadRect

/-! ## The slabs read back -/

section Tiling

/-- The eight slabs are eight tiles of one size, tile `g` at rows `1024 k + 128 g …`, listed newest first. -/
theorem slabs_eq_tiles (t : Fin cfg0.N) (q : Vec F S128x2048 .i32) (s z : Vec F S8x2048 .f32) :
    slabs t q s z
      = View.tilePieces (Val := Elt F) (s := S4096x2048) (e := .bf16) S128x2048.size
          (fun g : Fin 8 => k0_off3 (grid0.coords t) (BitVec.ofNat 32 (g.val * 128))) (off3_inb t)
          (fun g : Fin 8 => grp g q s z) 8 (Nat.le_refl 8) := rfl

/-- An index that on axis `ax` misses every tile reads what the buffer held before the tiles were stored. -/
theorem read_tiles_of_miss {σ : RefSig} {κ : Kind} {sp : Space} {S : Shape} {e : EltTy} {Val : EltTy → Type} {NT : ℕ}
    (v : View σ κ sp S e) (f : v.ty.Contents Val) (tsz : Fin S.rank → ℕ) (off : Fin NT → Fin S.rank → ℕ)
    (inb : ∀ i a, off i a + tsz a ≤ S.size a) (P : Fin NT → (⟨S.rank, tsz⟩ : Shape).Idx → Val e) (n : ℕ) (hn : n ≤ NT)
    (y : S.Idx) (ax : Fin S.rank) (hdis : ∀ i : Fin NT, (y ax).val < off i ax ∨ off i ax + tsz ax ≤ (y ax).val) :
    v.read Val (v.writes Val f (View.tilePieces tsz off inb P n hn)) y = v.read Val f y := by
  induction n with
  | zero => rfl
  | succ n ih =>
    rw [View.tilePieces_succ,
      View.read_writes_cons_unit_of_not_mem v f (inb ⟨n, hn⟩) (P ⟨n, hn⟩) _ y rfl ax (hdis ⟨n, hn⟩)]
    exact ih (Nat.le_of_succ_le hn)

/-- Row `r` of the box of block `k` is row `1024 k + r` of the cache. -/
theorem boxAt_idx_row (t : Fin cfg0.N) (j : (boxAt t).shape.Idx) :
    ((boxAt t).idx j 0).val = t.val % 4 * 1024 + (j 0).val := by
  show k0_off4 (grid0.coords t) 0 + 1 * (j 0).val = t.val % 4 * 1024 + (j 0).val
  rw [off4_eq t, Nat.one_mul]
  rfl

/-- Column `c` of the box of a block is column `c` of the cache. -/
theorem boxAt_idx_col (t : Fin cfg0.N) (j : (boxAt t).shape.Idx) :
    ((boxAt t).idx j 1).val = (j 1).val := by
  show k0_off4 (grid0.coords t) 1 + 1 * (j 1).val = (j 1).val
  rw [off4_eq t, Nat.one_mul]
  exact Nat.zero_add _

variable {κ : Kind} {sp : Space} (v : View sig κ sp S4096x2048 .bf16) (f : v.ty.Contents (Elt F))

/-- Read through the box of the block they fill, the eight slabs are the block, whatever the cache held
    before. -/
theorem slabs_read (t : Fin cfg0.N) (q : Vec F S128x2048 .i32) (s z : Vec F S8x2048 .f32) :
    v.readAt (Elt F) (boxAt t) (v.writes (Elt F) f (slabs t q s z)) = wblk q s z := by
  funext j
  -- the cache index under box index `j`: row `1024 k + j 0`, column `j 1`
  have hj0 : (j 0).val < 1024 := (j 0).isLt
  have hj1 : (j 1).val < 2048 := (j 1).isLt
  have hy0 := boxAt_idx_row t j
  have hy1 := boxAt_idx_col t j
  -- the one slab that holds that row is `g = j 0 / 128`, at local row `j 0 % 128`
  have hg : (j 0).val / 128 < 8 := by omega
  show v.read (Elt F) (v.writes (Elt F) f (slabs t q s z)) ((boxAt t).idx j) = wblk q s z j
  rw [slabs_eq_tiles]
  refine (View.read_tilePieces v f S128x2048.size _ (off3_inb t) (fun g : Fin 8 => grp g q s z) 8 (Nat.le_refl 8)
    ((boxAt t).idx j) ⟨(j 0).val / 128, hg⟩ hg
    (ix2 (⟨(j 0).val % 128, Nat.mod_lt _ (by norm_num)⟩ : Fin 128) (⟨(j 1).val, hj1⟩ : Fin 2048)) ?_ 0 ?_).trans ?_
  · -- the index is the slab's offsets plus the local position
    refine Fin.forall_fin_two.mpr ⟨?_, ?_⟩
    · rw [off3_eq t ⟨(j 0).val / 128, hg⟩, hy0]
      show t.val % 4 * 1024 + (j 0).val = t.val % 4 * 1024 + (j 0).val / 128 * 128 + (j 0).val % 128
      omega
    · rw [off3_eq t ⟨(j 0).val / 128, hg⟩, hy1]
      show (j 1).val = 0 + (j 1).val
      omega
  · -- every other slab misses the row
    intro g' hne
    have hg' : g'.val ≠ (j 0).val / 128 := fun h => hne (Fin.ext h)
    have := g'.isLt
    rw [off3_eq t g', hy0]
    show t.val % 4 * 1024 + (j 0).val < t.val % 4 * 1024 + g'.val * 128
      ∨ t.val % 4 * 1024 + g'.val * 128 + 128 ≤ t.val % 4 * 1024 + (j 0).val
    omega
  · -- the payload of that slab at that position is the block at `j`
    rfl

/-- Read through the box of another block, the eight slabs are invisible: the cache reads as before. -/
theorem slabs_miss (t t' : Fin cfg0.N) (h : t'.val % 4 ≠ t.val % 4) (q : Vec F S128x2048 .i32) (s z : Vec F S8x2048 .f32) :
    v.readAt (Elt F) (boxAt t') (v.writes (Elt F) f (slabs t q s z)) = v.readAt (Elt F) (boxAt t') f := by
  funext j
  have hj0 : (j 0).val < 1024 := (j 0).isLt
  have hy0 := boxAt_idx_row t' j
  show v.read (Elt F) (v.writes (Elt F) f (slabs t q s z)) ((boxAt t').idx j) = v.read (Elt F) f ((boxAt t').idx j)
  rw [slabs_eq_tiles]
  -- rows of another block lie below `1024 k` or from `1024 k + 1024` on: outside every slab
  refine read_tiles_of_miss v f S128x2048.size _ (off3_inb t) (fun g : Fin 8 => grp g q s z) 8 (Nat.le_refl 8)
    ((boxAt t').idx j) 0 fun g => ?_
  have := g.isLt
  rw [off3_eq t g, hy0]
  show t'.val % 4 * 1024 + (j 0).val < t.val % 4 * 1024 + g.val * 128
    ∨ t.val % 4 * 1024 + g.val * 128 + 128 ≤ t'.val % 4 * 1024 + (j 0).val
  omega

/-- Two points with the same k read the same rows. -/
theorem readAt_boxAt_congr (t t' : Fin cfg0.N) (h : t'.val % 4 = t.val % 4) :
    v.readAt (Elt F) (boxAt t') f = v.readAt (Elt F) (boxAt t) f := by
  funext j
  show v.read (Elt F) f ((boxAt t').idx j) = v.read (Elt F) f ((boxAt t).idx j)
  -- equal offsets, so the same cache index on each axis
  congr 1
  funext a
  apply Fin.ext
  show k0_off4 (grid0.coords t') a + 1 * (j a).val = k0_off4 (grid0.coords t) a + 1 * (j a).val
  rw [off4_eq t', off4_eq t, h]

end Tiling

end Cert.Kernel.Hand

end
-- ==== Proof.PointBits.lean ====
/-
  What the scratch buffers hold after each grid point, as functions of the argument arrays.

  Point t of the grid (n, m, k) = (2, 16, 4), k fastest, has k = t % 4, m = (t / 4) % 16, n = t / 64.
  The weight block (n, k) is computed at the point with m = 0 of its (n, k), from the packed words
  copied in there and from rows `8 k … 8 k + 7` of the scale and zero-point blocks of column half n;
  every later point of the same (n, k) finds it in the cache. The accumulator after point t is the
  accumulator after point t − 1 (or the zero block, when k = 0) plus the product of the activation
  block of the point with that weight block; the output block, stored when k = 3, is the
  accumulator plus the bias row.

  The cache itself is only partly determined: rows that no point has filled yet hold whatever they held
  at launch. So it is described by a property, not by a term: after point t, every block (n, k') that
  has been filled — all four once m > 0, blocks 0 … k while m = 0 — reads as its specification.
-/
import proofs.«405182_j16458314678409_3_alg».proof.Proof.BlocksBits

set_option maxRecDepth 16384

noncomputable section

namespace Cert.Kernel.Hand

open Idealize.ShloMosaic Idealize.ShloMosaic.ValueIdx Idealize.SL.Sem
open Cert.Kernel Cert.Kernel.Gen

variable {F : FTy → Type} [FloatOps F]

/-! ## The copy's source and the scale rows, in range at every point and in closed form -/

theorem off1_inb : ∀ t : Fin cfg0.N, ∀ a, k0_off1 (grid0.coords t) a + S128x2048.size a ≤ S512x4096.size a :=
  (by decide +kernel : ∀ t : Fin grid0.N, ∀ a, k0_off1 (grid0.coords t) a + S128x2048.size a ≤ S512x4096.size a)
theorem off2_inb : ∀ t : Fin cfg0.N, ∀ a, k0_off2 (grid0.coords t) a + S8x2048.size a ≤ S32x2048.size a :=
  (by decide +kernel : ∀ t : Fin grid0.N, ∀ a, k0_off2 (grid0.coords t) a + S8x2048.size a ≤ S32x2048.size a)
/-- The copied words are rows `128 k …`, columns `2048 n …` of the packed weights. -/
theorem off1_eq : ∀ t : Fin cfg0.N, k0_off1 (grid0.coords t) = ![(t.val % 4) * 128, (t.val / 64) * 2048] :=
  (by decide +kernel : ∀ t : Fin grid0.N, k0_off1 (grid0.coords t) = ![(t.val % 4) * 128, (t.val / 64) * 2048])
/-- The scale and zero-point rows of the block are rows `8 k …` of their staged blocks. -/
theorem off2_eq : ∀ t : Fin cfg0.N, k0_off2 (grid0.coords t) = ![(t.val % 4) * 8, 0] :=
  (by decide +kernel : ∀ t : Fin grid0.N, k0_off2 (grid0.coords t) = ![(t.val % 4) * 8, 0])

/-- The words the copy brings at point `t`, of packed weights held at `fh`. -/
def qAt (c : Dev nD) (fh : HbBuf0 (F := F) c hbQ) (t : Fin cfg0.N) : Vec F S128x2048 .i32 :=
  ReadAs.same.apply (View.read (Elt F) (hbQ.slice (Rect.unit (s := S512x4096) (k0_off1 (grid0.coords t)) S128x2048.size (off1_inb t)) (fun _ => rfl)).view fh)
/-- The eight rows of a staged scale (or zero-point) block that belong to the weight block of point `t`. -/
abbrev rows8 (t : Fin cfg0.N) : Rect S32x2048 := Rect.unit (s := S32x2048) (k0_off2 (grid0.coords t)) S8x2048.size (off2_inb t)
def sAt (x : Vec F S32x2048 .f32) (t : Fin cfg0.N) : Vec F S8x2048 .f32 := View.ld x (rows8 t)
/-- The rows of the cache the product reads at point `t`, as a rectangle. -/
abbrev boxR (t : Fin cfg0.N) : Rect S4096x2048 := Rect.unit (s := S4096x2048) (k0_off4 (grid0.coords t)) S1024x2048.size (k0_off4_inb (grid0.coords t))

variable (m : (ℓ : Loc nD τ sig) → Buf (Elt F) ℓ) (c : Dev nD)

/-! ## The blocks of a point, by their literal types -/

abbrev xb (t : Fin cfg0.N) : Vec F S512x1024 .f32 := iblk m c 0 t
abbrev sb (t : Fin cfg0.N) : Vec F S32x2048 .f32 := iblk m c 1 t
abbrev zb (t : Fin cfg0.N) : Vec F S32x2048 .f32 := iblk m c 2 t
abbrev bb (t : Fin cfg0.N) : Vec F S1x2048 .f32 := iblk m c 3 t
/-- The packed weights as the region finds them. -/
abbrev qarr : HbBuf0 (F := F) c hbQ := V m c main_arg1

/-! ## The specification, point by point -/

/-- The point with m = 0 of the same (n, k). -/
def rep (t : Fin cfg0.N) : Fin cfg0.N :=
  ⟨t.val / 64 * 64 + t.val % 4, by have h := lt_of_lt_of_eq t.isLt (show cfg0.N = 128 from N_0); show _ < grid0.N; rw [N_0]; omega⟩

/-- The weight block computed at point `t` (meaningful where m = 0). -/
def wAt (t : Fin cfg0.N) : Vec F S1024x2048 .bf16 := wblk (qAt c (qarr m c) t) (sAt (sb m c t) t) (sAt (zb m c t) t)
/-- The weight block (n, k) of point `t`. -/
def wSpec (t : Fin cfg0.N) : Vec F S1024x2048 .bf16 := wAt m c (rep t)

/-- The accumulator after point `n`. -/
def accAt : (n : ℕ) → n < cfg0.N → Vec F S512x2048 .f32
  | 0, h => k0_pay3 (wSpec m c ⟨0, h⟩) (xb m c ⟨0, h⟩) k0_pay1
  | n + 1, h => k0_pay3 (wSpec m c ⟨n + 1, h⟩) (xb m c ⟨n + 1, h⟩) (if (n + 1) % 4 = 0 then k0_pay1 else accAt n (Nat.lt_of_succ_lt h))

/-- The output block stored at point `t` (where k = 3). -/
def outAt (t : Fin cfg0.N) : Vec F S512x2048 .f32 := k0_pay4 (accAt m c t.val t.isLt) (bb m c t)

/-- After point `t` the cache, reading `wc`, has every block filled so far in this column half at its
    specification. -/
def WInv (t : Fin cfg0.N) (wc : Vec F S4096x2048 .bf16) : Prop :=
  ∀ t' : Fin cfg0.N, t'.val / 64 = t.val / 64 → (4 ≤ t.val % 64 ∨ t'.val % 4 ≤ t.val % 4) → View.ld wc (boxR t') = wSpec m c t'

theorem accAt_zero (h : 0 < cfg0.N) : accAt m c 0 h = k0_pay3 (wSpec m c ⟨0, h⟩) (xb m c ⟨0, h⟩) k0_pay1 := rfl
theorem accAt_reset (t : Fin cfg0.N) (hk : t.val % 4 = 0) : accAt m c t.val t.isLt = k0_pay3 (wSpec m c t) (xb m c t) k0_pay1 := by
  obtain ⟨n, hn⟩ := t
  cases n with
  | zero => rfl
  | succ n => show k0_pay3 _ _ (if (n + 1) % 4 = 0 then _ else _) = _; rw [if_pos hk]
theorem accAt_step (t : Fin cfg0.N) (hk : t.val % 4 ≠ 0) :
    accAt m c t.val t.isLt = k0_pay3 (wSpec m c t) (xb m c t) (accAt m c (t.val - 1) (Nat.lt_of_le_of_lt (Nat.sub_le _ _) t.isLt)) := by
  obtain ⟨n, hn⟩ := t
  cases n with
  | zero => exact absurd (Nat.zero_mod _) hk
  | succ n => show k0_pay3 _ _ (if (n + 1) % 4 = 0 then _ else _) = _; rw [if_neg hk]; rfl

end Cert.Kernel.Hand

end
-- ==== Proof.RunABits.lean ====
/-
  The kernel body at a grid point with k = 0 and m = 0: the accumulator is reset, the weight block is fetched and dequantized, one product is added; the output block is left alone.

  The body is run on whole staging memrefs holding the blocks of the point, the three scratch buffers
  holding named contents, its transfer semaphore at zero and the packed weights in HBM. What it
  leaves in the output block, the accumulator and the weight cache is recorded as the lists of stores
  (newest first) that the run itself finds; everything else comes back as it went in.
-/
import proofs.«405182_j16458314678409_3_alg».proof.Proof.KitBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
/-- The stores the body leaves in the output block (`LO`), the accumulator (`LA`) and the weight cache
    (`LW`) at such a point, with the proof that the body runs from the resources described above to a
    state holding exactly them. -/
noncomputable def runA (c : Dev nD) (t : Fin cfg0.N) (arg3 : Memref sig .tc .vmem S512x1024 .f32) (harg3 : arg3.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S4096x2048 .bf16) (harg10 : arg10.IsWhole) (arg11 : Memref sig .tc .vmem S128x2048 .i32) (harg11 : arg11.IsWhole)
    (h1 : condK0 (grid0.coords t)) (h2 : condM0 (grid0.coords t)) (h3 : ¬condK3 (grid0.coords t))
    (x0 : Vec F S512x1024 .f32) (x1 x2 : Vec F S32x2048 .f32) (x3 : Vec F S1x2048 .f32)
    (xa : Vec F S512x2048 .f32) (xw : Vec F S4096x2048 .bf16) (fh0 : HbBuf0 (F := F) c hbQ) :
    Σ' (LO : List (View.Piece (Elt F) S512x2048 .f32)) (LA : List (View.Piece (Elt F) S512x2048 .f32)),
      { LW : List (View.Piece (Elt F) S4096x2048 .bf16) //
        ∀ (xi4 : Vec F S512x2048 .f32) (W : Waits sig Unit) (K : PUnit → sProp 𝕄),
          iprop(owns (c : Thread nD τ) arg3 fullShare x0 ∗ owns (c : Thread nD τ) arg5 fullShare x1 ∗ owns (c : Thread nD τ) arg6 fullShare x2 ∗ owns (c : Thread nD τ) arg7 fullShare x3
              ∗ owns (c : Thread nD τ) arg8 fullShare xi4 ∗ owns (c : Thread nD τ) arg9 fullShare xa ∗ owns (c : Thread nD τ) arg10 fullShare xw ∗ (∃ d, owns (c : Thread nD τ) arg11 fullShare d)
              ∗ semVal ((c : Thread nD τ), SemLoc.dma 10) 0 ∗ hbPt0 c hbQ fh0 ∗ owes (c : Thread nD τ) 0 W
              ∗ (iprop(owns (c : Thread nD τ) arg3 fullShare x0 ∗ owns (c : Thread nD τ) arg5 fullShare x1 ∗ owns (c : Thread nD τ) arg6 fullShare x2 ∗ owns (c : Thread nD τ) arg7 fullShare x3
                  ∗ owns (c : Thread nD τ) arg8 fullShare xi4
                  ∗ (∃ f, arg9.view.loc (c : Thread nD τ) ↦[arg9.view.set]{fullShare} arg9.view.writes (Elt F) f LA)
                  ∗ (arg10.view.loc (c : Thread nD τ) ↦[arg10.view.set]{fullShare} arg10.view.writes (Elt F) (harg10.unread xw) LW)
                  ∗ (∃ d, owns (c : Thread nD τ) arg11 fullShare d)
                  ∗ semVal ((c : Thread nD τ), SemLoc.dma 10) 0 ∗ hbPt0 c hbQ fh0 ∗ (∃ W', owes (c : Thread nD τ) 0 W')) -∗ K ⟨⟩))
            ⊢ wp frame (wpE (defs₀ (F := F)) Variants.none c none) Set.univ (cc0__fused_kernel (grid0.coords t) arg3 harg3 (Memref.whole main_arg1) (Memref.isWhole_whole _) arg5 harg5 arg6 harg6 arg7 harg7 arg8 harg8 arg9 harg9 arg10 harg10 arg11 harg11 cc0_scratch3) K } := by
  refine ⟨[], ?_, ?_, fun xi4 W K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fa, %hfa, HA⟩, ⟨%fw, %hfw, HW⟩, ⟨%dq, %fq, -, HQ⟩, Hq0, Hh0, Ho, Hk⟩
    obtain rfl := harg3.eq_unread hf0; obtain rfl := harg5.eq_unread hf1; obtain rfl := harg6.eq_unread hf2; obtain rfl := harg7.eq_unread hf3
    obtain rfl := harg8.eq_unread hf4; obtain rfl := harg9.eq_unread hfa; obtain rfl := harg10.eq_unread hfw
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [HA]; · iexists _; iexact HA
    isplitl [HW]; · iexact HW
    isplitl [HQ]
    · iexists _, _; isplitr; swap; · iexact HQ
      ipureintro; rfl
    isplitl [Hq0]; · iexact Hq0
    isplitl [Hh0]; · iexact Hh0
    iexists _; iexact Ho

end Cert.Kernel.Hand

end
-- ==== Proof.RunBBits.lean ====
/-
  The kernel body at a grid point with 0 < k < 3 and m = 0: the weight block is fetched and dequantized and one product is added to the accumulator; the output block is left alone.

  The body is run on whole staging memrefs holding the blocks of the point, the three scratch buffers
  holding named contents, its transfer semaphore at zero and the packed weights in HBM. What it
  leaves in the output block, the accumulator and the weight cache is recorded as the lists of stores
  (newest first) that the run itself finds; everything else comes back as it went in.
-/
import proofs.«405182_j16458314678409_3_alg».proof.Proof.KitBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
/-- The stores the body leaves in the output block (`LO`), the accumulator (`LA`) and the weight cache
    (`LW`) at such a point, with the proof that the body runs from the resources described above to a
    state holding exactly them. -/
noncomputable def runB (c : Dev nD) (t : Fin cfg0.N) (arg3 : Memref sig .tc .vmem S512x1024 .f32) (harg3 : arg3.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S4096x2048 .bf16) (harg10 : arg10.IsWhole) (arg11 : Memref sig .tc .vmem S128x2048 .i32) (harg11 : arg11.IsWhole)
    (h1 : ¬condK0 (grid0.coords t)) (h2 : condM0 (grid0.coords t)) (h3 : ¬condK3 (grid0.coords t))
    (x0 : Vec F S512x1024 .f32) (x1 x2 : Vec F S32x2048 .f32) (x3 : Vec F S1x2048 .f32)
    (xa : Vec F S512x2048 .f32) (xw : Vec F S4096x2048 .bf16) (fh0 : HbBuf0 (F := F) c hbQ) :
    Σ' (LO : List (View.Piece (Elt F) S512x2048 .f32)) (LA : List (View.Piece (Elt F) S512x2048 .f32)),
      { LW : List (View.Piece (Elt F) S4096x2048 .bf16) //
        ∀ (xi4 : Vec F S512x2048 .f32) (W : Waits sig Unit) (K : PUnit → sProp 𝕄),
          iprop(owns (c : Thread nD τ) arg3 fullShare x0 ∗ owns (c : Thread nD τ) arg5 fullShare x1 ∗ owns (c : Thread nD τ) arg6 fullShare x2 ∗ owns (c : Thread nD τ) arg7 fullShare x3
              ∗ owns (c : Thread nD τ) arg8 fullShare xi4 ∗ owns (c : Thread nD τ) arg9 fullShare xa ∗ owns (c : Thread nD τ) arg10 fullShare xw ∗ (∃ d, owns (c : Thread nD τ) arg11 fullShare d)
              ∗ semVal ((c : Thread nD τ), SemLoc.dma 10) 0 ∗ hbPt0 c hbQ fh0 ∗ owes (c : Thread nD τ) 0 W
              ∗ (iprop(owns (c : Thread nD τ) arg3 fullShare x0 ∗ owns (c : Thread nD τ) arg5 fullShare x1 ∗ owns (c : Thread nD τ) arg6 fullShare x2 ∗ owns (c : Thread nD τ) arg7 fullShare x3
                  ∗ owns (c : Thread nD τ) arg8 fullShare xi4
                  ∗ (∃ f, arg9.view.loc (c : Thread nD τ) ↦[arg9.view.set]{fullShare} arg9.view.writes (Elt F) f LA)
                  ∗ (arg10.view.loc (c : Thread nD τ) ↦[arg10.view.set]{fullShare} arg10.view.writes (Elt F) (harg10.unread xw) LW)
                  ∗ (∃ d, owns (c : Thread nD τ) arg11 fullShare d)
                  ∗ semVal ((c : Thread nD τ), SemLoc.dma 10) 0 ∗ hbPt0 c hbQ fh0 ∗ (∃ W', owes (c : Thread nD τ) 0 W')) -∗ K ⟨⟩))
            ⊢ wp frame (wpE (defs₀ (F := F)) Variants.none c none) Set.univ (cc0__fused_kernel (grid0.coords t) arg3 harg3 (Memref.whole main_arg1) (Memref.isWhole_whole _) arg5 harg5 arg6 harg6 arg7 harg7 arg8 harg8 arg9 harg9 arg10 harg10 arg11 harg11 cc0_scratch3) K } := by
  refine ⟨[], ?_, ?_, fun xi4 W K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fa, %hfa, HA⟩, ⟨%fw, %hfw, HW⟩, ⟨%dq, %fq, -, HQ⟩, Hq0, Hh0, Ho, Hk⟩
    obtain rfl := harg3.eq_unread hf0; obtain rfl := harg5.eq_unread hf1; obtain rfl := harg6.eq_unread hf2; obtain rfl := harg7.eq_unread hf3
    obtain rfl := harg8.eq_unread hf4; obtain rfl := harg9.eq_unread hfa; obtain rfl := harg10.eq_unread hfw
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [HA]; · iexists _; iexact HA
    isplitl [HW]; · iexact HW
    isplitl [HQ]
    · iexists _, _; isplitr; swap; · iexact HQ
      ipureintro; rfl
    isplitl [Hq0]; · iexact Hq0
    isplitl [Hh0]; · iexact Hh0
    iexists _; iexact Ho

end Cert.Kernel.Hand

end
-- ==== Proof.RunCBits.lean ====
/-
  The kernel body at a grid point with k = 3 and m = 0: the weight block is fetched and dequantized, the last product is added, and the accumulator plus the bias is stored to the output block.

  The body is run on whole staging memrefs holding the blocks of the point, the three scratch buffers
  holding named contents, its transfer semaphore at zero and the packed weights in HBM. What it
  leaves in the output block, the accumulator and the weight cache is recorded as the lists of stores
  (newest first) that the run itself finds; everything else comes back as it went in.
-/
import proofs.«405182_j16458314678409_3_alg».proof.Proof.KitBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
/-- The stores the body leaves in the output block (`LO`), the accumulator (`LA`) and the weight cache
    (`LW`) at such a point, with the proof that the body runs from the resources described above to a
    state holding exactly them. -/
noncomputable def runC (c : Dev nD) (t : Fin cfg0.N) (arg3 : Memref sig .tc .vmem S512x1024 .f32) (harg3 : arg3.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S4096x2048 .bf16) (harg10 : arg10.IsWhole) (arg11 : Memref sig .tc .vmem S128x2048 .i32) (harg11 : arg11.IsWhole)
    (h1 : ¬condK0 (grid0.coords t)) (h2 : condM0 (grid0.coords t)) (h3 : condK3 (grid0.coords t))
    (x0 : Vec F S512x1024 .f32) (x1 x2 : Vec F S32x2048 .f32) (x3 : Vec F S1x2048 .f32)
    (xa : Vec F S512x2048 .f32) (xw : Vec F S4096x2048 .bf16) (fh0 : HbBuf0 (F := F) c hbQ) :
    Σ' (LO : List (View.Piece (Elt F) S512x2048 .f32)) (LA : List (View.Piece (Elt F) S512x2048 .f32)),
      { LW : List (View.Piece (Elt F) S4096x2048 .bf16) //
        ∀ (xi4 : Vec F S512x2048 .f32) (W : Waits sig Unit) (K : PUnit → sProp 𝕄),
          iprop(owns (c : Thread nD τ) arg3 fullShare x0 ∗ owns (c : Thread nD τ) arg5 fullShare x1 ∗ owns (c : Thread nD τ) arg6 fullShare x2 ∗ owns (c : Thread nD τ) arg7 fullShare x3
              ∗ owns (c : Thread nD τ) arg8 fullShare xi4 ∗ owns (c : Thread nD τ) arg9 fullShare xa ∗ owns (c : Thread nD τ) arg10 fullShare xw ∗ (∃ d, owns (c : Thread nD τ) arg11 fullShare d)
              ∗ semVal ((c : Thread nD τ), SemLoc.dma 10) 0 ∗ hbPt0 c hbQ fh0 ∗ owes (c : Thread nD τ) 0 W
              ∗ (iprop(owns (c : Thread nD τ) arg3 fullShare x0 ∗ owns (c : Thread nD τ) arg5 fullShare x1 ∗ owns (c : Thread nD τ) arg6 fullShare x2 ∗ owns (c : Thread nD τ) arg7 fullShare x3
                  ∗ (∃ f, arg8.view.loc (c : Thread nD τ) ↦[arg8.view.set]{fullShare} arg8.view.writes (Elt F) f LO)
                  ∗ (∃ f, arg9.view.loc (c : Thread nD τ) ↦[arg9.view.set]{fullShare} arg9.view.writes (Elt F) f LA)
                  ∗ (arg10.view.loc (c : Thread nD τ) ↦[arg10.view.set]{fullShare} arg10.view.writes (Elt F) (harg10.unread xw) LW)
                  ∗ (∃ d, owns (c : Thread nD τ) arg11 fullShare d)
                  ∗ semVal ((c : Thread nD τ), SemLoc.dma 10) 0 ∗ hbPt0 c hbQ fh0 ∗ (∃ W', owes (c : Thread nD τ) 0 W')) -∗ K ⟨⟩))
            ⊢ wp frame (wpE (defs₀ (F := F)) Variants.none c none) Set.univ (cc0__fused_kernel (grid0.coords t) arg3 harg3 (Memref.whole main_arg1) (Memref.isWhole_whole _) arg5 harg5 arg6 harg6 arg7 harg7 arg8 harg8 arg9 harg9 arg10 harg10 arg11 harg11 cc0_scratch3) K } := by
  refine ⟨?_, ?_, ?_, fun xi4 W K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fa, %hfa, HA⟩, ⟨%fw, %hfw, HW⟩, ⟨%dq, %fq, -, HQ⟩, Hq0, Hh0, Ho, Hk⟩
    obtain rfl := harg3.eq_unread hf0; obtain rfl := harg5.eq_unread hf1; obtain rfl := harg6.eq_unread hf2; obtain rfl := harg7.eq_unread hf3
    obtain rfl := harg8.eq_unread hf4; obtain rfl := harg9.eq_unread hfa; obtain rfl := harg10.eq_unread hfw
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; iexact H4
    isplitl [HA]; · iexists _; iexact HA
    isplitl [HW]; · iexact HW
    isplitl [HQ]
    · iexists _, _; isplitr; swap; · iexact HQ
      ipureintro; rfl
    isplitl [Hq0]; · iexact Hq0
    isplitl [Hh0]; · iexact Hh0
    iexists _; iexact Ho

end Cert.Kernel.Hand

end
-- ==== Proof.RunDBits.lean ====
/-
  The kernel body at a grid point with k = 0 and m > 0: the accumulator is reset and one product with the cached weight block is added; the cache and the output block are left alone.

  The body is run on whole staging memrefs holding the blocks of the point, the three scratch buffers
  holding named contents, its transfer semaphore at zero and the packed weights in HBM. What it
  leaves in the output block, the accumulator and the weight cache is recorded as the lists of stores
  (newest first) that the run itself finds; everything else comes back as it went in.
-/
import proofs.«405182_j16458314678409_3_alg».proof.Proof.KitBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
/-- The stores the body leaves in the output block (`LO`), the accumulator (`LA`) and the weight cache
    (`LW`) at such a point, with the proof that the body runs from the resources described above to a
    state holding exactly them. -/
noncomputable def runD (c : Dev nD) (t : Fin cfg0.N) (arg3 : Memref sig .tc .vmem S512x1024 .f32) (harg3 : arg3.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S4096x2048 .bf16) (harg10 : arg10.IsWhole) (arg11 : Memref sig .tc .vmem S128x2048 .i32) (harg11 : arg11.IsWhole)
    (h1 : condK0 (grid0.coords t)) (h2 : ¬condM0 (grid0.coords t)) (h3 : ¬condK3 (grid0.coords t))
    (x0 : Vec F S512x1024 .f32) (x1 x2 : Vec F S32x2048 .f32) (x3 : Vec F S1x2048 .f32)
    (xa : Vec F S512x2048 .f32) (xw : Vec F S4096x2048 .bf16) (fh0 : HbBuf0 (F := F) c hbQ) :
    Σ' (LO : List (View.Piece (Elt F) S512x2048 .f32)) (LA : List (View.Piece (Elt F) S512x2048 .f32)),
      { LW : List (View.Piece (Elt F) S4096x2048 .bf16) //
        ∀ (xi4 : Vec F S512x2048 .f32) (W : Waits sig Unit) (K : PUnit → sProp 𝕄),
          iprop(owns (c : Thread nD τ) arg3 fullShare x0 ∗ owns (c : Thread nD τ) arg5 fullShare x1 ∗ owns (c : Thread nD τ) arg6 fullShare x2 ∗ owns (c : Thread nD τ) arg7 fullShare x3
              ∗ owns (c : Thread nD τ) arg8 fullShare xi4 ∗ owns (c : Thread nD τ) arg9 fullShare xa ∗ owns (c : Thread nD τ) arg10 fullShare xw ∗ (∃ d, owns (c : Thread nD τ) arg11 fullShare d)
              ∗ semVal ((c : Thread nD τ), SemLoc.dma 10) 0 ∗ hbPt0 c hbQ fh0 ∗ owes (c : Thread nD τ) 0 W
              ∗ (iprop(owns (c : Thread nD τ) arg3 fullShare x0 ∗ owns (c : Thread nD τ) arg5 fullShare x1 ∗ owns (c : Thread nD τ) arg6 fullShare x2 ∗ owns (c : Thread nD τ) arg7 fullShare x3
                  ∗ owns (c : Thread nD τ) arg8 fullShare xi4
                  ∗ (∃ f, arg9.view.loc (c : Thread nD τ) ↦[arg9.view.set]{fullShare} arg9.view.writes (Elt F) f LA)
                  ∗ (arg10.view.loc (c : Thread nD τ) ↦[arg10.view.set]{fullShare} arg10.view.writes (Elt F) (harg10.unread xw) LW)
                  ∗ (∃ d, owns (c : Thread nD τ) arg11 fullShare d)
                  ∗ semVal ((c : Thread nD τ), SemLoc.dma 10) 0 ∗ hbPt0 c hbQ fh0 ∗ (∃ W', owes (c : Thread nD τ) 0 W')) -∗ K ⟨⟩))
            ⊢ wp frame (wpE (defs₀ (F := F)) Variants.none c none) Set.univ (cc0__fused_kernel (grid0.coords t) arg3 harg3 (Memref.whole main_arg1) (Memref.isWhole_whole _) arg5 harg5 arg6 harg6 arg7 harg7 arg8 harg8 arg9 harg9 arg10 harg10 arg11 harg11 cc0_scratch3) K } := by
  refine ⟨[], ?_, [], fun xi4 W K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fa, %hfa, HA⟩, ⟨%fw, %hfw, HW⟩, ⟨%dq, %fq, -, HQ⟩, Hq0, Hh0, Ho, Hk⟩
    obtain rfl := harg3.eq_unread hf0; obtain rfl := harg5.eq_unread hf1; obtain rfl := harg6.eq_unread hf2; obtain rfl := harg7.eq_unread hf3
    obtain rfl := harg8.eq_unread hf4; obtain rfl := harg9.eq_unread hfa; obtain rfl := harg10.eq_unread hfw
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [HA]; · iexists _; iexact HA
    isplitl [HW]; · iexact HW
    isplitl [HQ]
    · iexists _, _; isplitr; swap; · iexact HQ
      ipureintro; rfl
    isplitl [Hq0]; · iexact Hq0
    isplitl [Hh0]; · iexact Hh0
    iexists _; iexact Ho

end Cert.Kernel.Hand

end
-- ==== Proof.RunEBits.lean ====
/-
  The kernel body at a grid point with 0 < k < 3 and m > 0: one product with the cached weight block is added to the accumulator; the cache and the output block are left alone.

  The body is run on whole staging memrefs holding the blocks of the point, the three scratch buffers
  holding named contents, its transfer semaphore at zero and the packed weights in HBM. What it
  leaves in the output block, the accumulator and the weight cache is recorded as the lists of stores
  (newest first) that the run itself finds; everything else comes back as it went in.
-/
import proofs.«405182_j16458314678409_3_alg».proof.Proof.KitBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
/-- The stores the body leaves in the output block (`LO`), the accumulator (`LA`) and the weight cache
    (`LW`) at such a point, with the proof that the body runs from the resources described above to a
    state holding exactly them. -/
noncomputable def runE (c : Dev nD) (t : Fin cfg0.N) (arg3 : Memref sig .tc .vmem S512x1024 .f32) (harg3 : arg3.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S4096x2048 .bf16) (harg10 : arg10.IsWhole) (arg11 : Memref sig .tc .vmem S128x2048 .i32) (harg11 : arg11.IsWhole)
    (h1 : ¬condK0 (grid0.coords t)) (h2 : ¬condM0 (grid0.coords t)) (h3 : ¬condK3 (grid0.coords t))
    (x0 : Vec F S512x1024 .f32) (x1 x2 : Vec F S32x2048 .f32) (x3 : Vec F S1x2048 .f32)
    (xa : Vec F S512x2048 .f32) (xw : Vec F S4096x2048 .bf16) (fh0 : HbBuf0 (F := F) c hbQ) :
    Σ' (LO : List (View.Piece (Elt F) S512x2048 .f32)) (LA : List (View.Piece (Elt F) S512x2048 .f32)),
      { LW : List (View.Piece (Elt F) S4096x2048 .bf16) //
        ∀ (xi4 : Vec F S512x2048 .f32) (W : Waits sig Unit) (K : PUnit → sProp 𝕄),
          iprop(owns (c : Thread nD τ) arg3 fullShare x0 ∗ owns (c : Thread nD τ) arg5 fullShare x1 ∗ owns (c : Thread nD τ) arg6 fullShare x2 ∗ owns (c : Thread nD τ) arg7 fullShare x3
              ∗ owns (c : Thread nD τ) arg8 fullShare xi4 ∗ owns (c : Thread nD τ) arg9 fullShare xa ∗ owns (c : Thread nD τ) arg10 fullShare xw ∗ (∃ d, owns (c : Thread nD τ) arg11 fullShare d)
              ∗ semVal ((c : Thread nD τ), SemLoc.dma 10) 0 ∗ hbPt0 c hbQ fh0 ∗ owes (c : Thread nD τ) 0 W
              ∗ (iprop(owns (c : Thread nD τ) arg3 fullShare x0 ∗ owns (c : Thread nD τ) arg5 fullShare x1 ∗ owns (c : Thread nD τ) arg6 fullShare x2 ∗ owns (c : Thread nD τ) arg7 fullShare x3
                  ∗ owns (c : Thread nD τ) arg8 fullShare xi4
                  ∗ (∃ f, arg9.view.loc (c : Thread nD τ) ↦[arg9.view.set]{fullShare} arg9.view.writes (Elt F) f LA)
                  ∗ (arg10.view.loc (c : Thread nD τ) ↦[arg10.view.set]{fullShare} arg10.view.writes (Elt F) (harg10.unread xw) LW)
                  ∗ (∃ d, owns (c : Thread nD τ) arg11 fullShare d)
                  ∗ semVal ((c : Thread nD τ), SemLoc.dma 10) 0 ∗ hbPt0 c hbQ fh0 ∗ (∃ W', owes (c : Thread nD τ) 0 W')) -∗ K ⟨⟩))
            ⊢ wp frame (wpE (defs₀ (F := F)) Variants.none c none) Set.univ (cc0__fused_kernel (grid0.coords t) arg3 harg3 (Memref.whole main_arg1) (Memref.isWhole_whole _) arg5 harg5 arg6 harg6 arg7 harg7 arg8 harg8 arg9 harg9 arg10 harg10 arg11 harg11 cc0_scratch3) K } := by
  refine ⟨[], ?_, [], fun xi4 W K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fa, %hfa, HA⟩, ⟨%fw, %hfw, HW⟩, ⟨%dq, %fq, -, HQ⟩, Hq0, Hh0, Ho, Hk⟩
    obtain rfl := harg3.eq_unread hf0; obtain rfl := harg5.eq_unread hf1; obtain rfl := harg6.eq_unread hf2; obtain rfl := harg7.eq_unread hf3
    obtain rfl := harg8.eq_unread hf4; obtain rfl := harg9.eq_unread hfa; obtain rfl := harg10.eq_unread hfw
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [HA]; · iexists _; iexact HA
    isplitl [HW]; · iexact HW
    isplitl [HQ]
    · iexists _, _; isplitr; swap; · iexact HQ
      ipureintro; rfl
    isplitl [Hq0]; · iexact Hq0
    isplitl [Hh0]; · iexact Hh0
    iexists _; iexact Ho

end Cert.Kernel.Hand

end
-- ==== Proof.RunGBits.lean ====
/-
  The kernel body at a grid point with k = 3 and m > 0: the last product with the cached weight block is added, and the accumulator plus the bias is stored to the output block; the cache is left alone.

  The body is run on whole staging memrefs holding the blocks of the point, the three scratch buffers
  holding named contents, its transfer semaphore at zero and the packed weights in HBM. What it
  leaves in the output block, the accumulator and the weight cache is recorded as the lists of stores
  (newest first) that the run itself finds; everything else comes back as it went in.
-/
import proofs.«405182_j16458314678409_3_alg».proof.Proof.KitBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
/-- The stores the body leaves in the output block (`LO`), the accumulator (`LA`) and the weight cache
    (`LW`) at such a point, with the proof that the body runs from the resources described above to a
    state holding exactly them. -/
noncomputable def runG (c : Dev nD) (t : Fin cfg0.N) (arg3 : Memref sig .tc .vmem S512x1024 .f32) (harg3 : arg3.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S4096x2048 .bf16) (harg10 : arg10.IsWhole) (arg11 : Memref sig .tc .vmem S128x2048 .i32) (harg11 : arg11.IsWhole)
    (h1 : ¬condK0 (grid0.coords t)) (h2 : ¬condM0 (grid0.coords t)) (h3 : condK3 (grid0.coords t))
    (x0 : Vec F S512x1024 .f32) (x1 x2 : Vec F S32x2048 .f32) (x3 : Vec F S1x2048 .f32)
    (xa : Vec F S512x2048 .f32) (xw : Vec F S4096x2048 .bf16) (fh0 : HbBuf0 (F := F) c hbQ) :
    Σ' (LO : List (View.Piece (Elt F) S512x2048 .f32)) (LA : List (View.Piece (Elt F) S512x2048 .f32)),
      { LW : List (View.Piece (Elt F) S4096x2048 .bf16) //
        ∀ (xi4 : Vec F S512x2048 .f32) (W : Waits sig Unit) (K : PUnit → sProp 𝕄),
          iprop(owns (c : Thread nD τ) arg3 fullShare x0 ∗ owns (c : Thread nD τ) arg5 fullShare x1 ∗ owns (c : Thread nD τ) arg6 fullShare x2 ∗ owns (c : Thread nD τ) arg7 fullShare x3
              ∗ owns (c : Thread nD τ) arg8 fullShare xi4 ∗ owns (c : Thread nD τ) arg9 fullShare xa ∗ owns (c : Thread nD τ) arg10 fullShare xw ∗ (∃ d, owns (c : Thread nD τ) arg11 fullShare d)
              ∗ semVal ((c : Thread nD τ), SemLoc.dma 10) 0 ∗ hbPt0 c hbQ fh0 ∗ owes (c : Thread nD τ) 0 W
              ∗ (iprop(owns (c : Thread nD τ) arg3 fullShare x0 ∗ owns (c : Thread nD τ) arg5 fullShare x1 ∗ owns (c : Thread nD τ) arg6 fullShare x2 ∗ owns (c : Thread nD τ) arg7 fullShare x3
                  ∗ (∃ f, arg8.view.loc (c : Thread nD τ) ↦[arg8.view.set]{fullShare} arg8.view.writes (Elt F) f LO)
                  ∗ (∃ f, arg9.view.loc (c : Thread nD τ) ↦[arg9.view.set]{fullShare} arg9.view.writes (Elt F) f LA)
                  ∗ (arg10.view.loc (c : Thread nD τ) ↦[arg10.view.set]{fullShare} arg10.view.writes (Elt F) (harg10.unread xw) LW)
                  ∗ (∃ d, owns (c : Thread nD τ) arg11 fullShare d)
                  ∗ semVal ((c : Thread nD τ), SemLoc.dma 10) 0 ∗ hbPt0 c hbQ fh0 ∗ (∃ W', owes (c : Thread nD τ) 0 W')) -∗ K ⟨⟩))
            ⊢ wp frame (wpE (defs₀ (F := F)) Variants.none c none) Set.univ (cc0__fused_kernel (grid0.coords t) arg3 harg3 (Memref.whole main_arg1) (Memref.isWhole_whole _) arg5 harg5 arg6 harg6 arg7 harg7 arg8 harg8 arg9 harg9 arg10 harg10 arg11 harg11 cc0_scratch3) K } := by
  refine ⟨?_, ?_, [], fun xi4 W K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fa, %hfa, HA⟩, ⟨%fw, %hfw, HW⟩, ⟨%dq, %fq, -, HQ⟩, Hq0, Hh0, Ho, Hk⟩
    obtain rfl := harg3.eq_unread hf0; obtain rfl := harg5.eq_unread hf1; obtain rfl := harg6.eq_unread hf2; obtain rfl := harg7.eq_unread hf3
    obtain rfl := harg8.eq_unread hf4; obtain rfl := harg9.eq_unread hfa; obtain rfl := harg10.eq_unread hfw
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; iexact H4
    isplitl [HA]; · iexists _; iexact HA
    isplitl [HW]; · iexact HW
    isplitl [HQ]
    · iexists _, _; isplitr; swap; · iexact HQ
      ipureintro; rfl
    isplitl [Hq0]; · iexact Hq0
    isplitl [Hh0]; · iexact Hh0
    iexists _; iexact Ho

end Cert.Kernel.Hand

end
-- ==== Proof.PiecesBits.lean ====
/-
  What the stores found by each run leave in the buffers, as terms over the body's arithmetic.

  A run records the stores of a point as lists of pieces. Here each list is read back: the
  accumulator holds one whole-buffer store, of the old accumulator (or the zero block, where the point
  resets it) plus the product of the activation block with the weight block; the output block, where
  it is stored, holds that plus the bias row; the cache, where it is written, holds the eight slabs of
  the point's weight block — and the rows the product then reads are that block whole, by the
  tiling of the slabs.
-/
import proofs.«405182_j16458314678409_3_alg».proof.Proof.PointBits
import proofs.«405182_j16458314678409_3_alg».proof.Proof.RunABits
import proofs.«405182_j16458314678409_3_alg».proof.Proof.RunBBits
import proofs.«405182_j16458314678409_3_alg».proof.Proof.RunCBits
import proofs.«405182_j16458314678409_3_alg».proof.Proof.RunDBits
import proofs.«405182_j16458314678409_3_alg».proof.Proof.RunEBits
import proofs.«405182_j16458314678409_3_alg».proof.Proof.RunGBits
import Idealize.ShloMosaic.Lib.Pipeline.Value

set_option maxRecDepth 16384

noncomputable section

namespace Cert.Kernel.Hand

open Idealize.ShloMosaic Idealize.ShloMosaic.TcCoe Idealize.ShloMosaic.Tactic Idealize.ShloMosaic.ValueIdx
open Idealize.SL Idealize.SL.Sem
open Cert.Kernel Cert.Kernel.Gen

variable {F : FTy → Type} [FloatOps F]

/-! ## Reading back a store through the whole buffer -/

/-- The two zero offsets, however they are spelt. -/
theorem zero2 : (![0, 0] : Fin 2 → ℕ) = fun _ => 0 := by funext a; fin_cases a <;> rfl

/-- A store through the whole-shape rectangle at zero offsets, newest, leaves its payload whatever the
    buffer held and whatever the earlier stores were. -/
theorem read_writes_cons_unit_zero {σ : RefSig} {κ : Kind} {sp : Space} {S : Shape} {e : EltTy} {Val : EltTy → Type}
    (v : View σ κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h
  funext y
  have e := View.read_writes_cons_emb v f (Rect.whole S) w L y
  rwa [Rect.emb_whole_apply] at e

/-- A load through the whole-shape rectangle at zero offsets of what ONE store through the whole shape left reads
    that store's payload. -/
theorem readCov_whole_unit_zero {σ : RefSig} {κ : Kind} {sp : Space} {S : Shape} {e : EltTy} {Val : EltTy → Type}
    [∀ e, Nonempty (Val e)] (v : View σ κ sp S e) {off : Fin S.rank → ℕ} (h : off = fun _ => 0)
    (inb : ∀ a, off a + S.size a ≤ S.size a) (w : S.Idx → Val e) :
    v.readCov [(⟨Rect.whole S, w⟩ : View.Piece Val S e)] (Rect.unit off S.size inb).toLoadRect = w := by
  subst h
  exact View.readCov_cons_toLoadRect v (Rect.whole S) w []

/-! ## k = 0 and m = 0: the accumulator is reset, the weight block is fetched and dequantized, one product is added; the output block is left alone. -/

/-- The accumulator after the point: the zero block plus the product with the freshly written weight block. -/
theorem accA (c : Dev nD) (t : Fin cfg0.N) (arg3 : Memref sig .tc .vmem S512x1024 .f32) (harg3 : arg3.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S4096x2048 .bf16) (harg10 : arg10.IsWhole) (arg11 : Memref sig .tc .vmem S128x2048 .i32) (harg11 : arg11.IsWhole)
    (h1 : condK0 (grid0.coords t)) (h2 : condM0 (grid0.coords t)) (h3 : ¬condK3 (grid0.coords t))
    (x0 : Vec F S512x1024 .f32) (x1 x2 : Vec F S32x2048 .f32) (x3 : Vec F S1x2048 .f32)
    (xa : Vec F S512x2048 .f32) (xw : Vec F S4096x2048 .bf16) (fh0 : HbBuf0 (F := F) c hbQ) (f : arg9.view.ty.Contents (Elt F)) :
    arg9.view.read (Elt F) (arg9.view.writes (Elt F) f (runA c t arg3 harg3 arg5 harg5 arg6 harg6 arg7 harg7 arg8 harg8 arg9 harg9 arg10 harg10 arg11 harg11 h1 h2 h3 x0 x1 x2 x3 xa xw fh0).2.1) = k0_pay3 (wblk (qAt c fh0 t) (sAt x1 t) (sAt x2 t)) x0 k0_pay1 := by
  unfold runA
  dsimp only
  sl_unfold_run_names
  rw [read_writes_cons_unit_zero _ _ zero2]
  simp only [View.readAt_eq_ld, harg3.read_unread, harg5.read_unread, harg6.read_unread, harg7.read_unread,
    harg9.read_unread, readCov_whole_unit_zero (S := S128x2048) arg11.view zero2,
    View.readCov_unit_zero (S := S512x2048) arg9.view zero2,
    View.ld_unit_zero (S := S512x1024) zero2, View.ld_unit_zero (S := S512x2048) zero2,
    View.ld_unit_zero (S := S1x2048) zero2]
  -- the cache rows the product reads are the eight slabs just written, read through the block's box
  show k0_pay3 (arg10.view.readAt (Elt F) (boxAt t)
      (arg10.view.writes (Elt F) arg10.view.junk (slabs t (qAt c fh0 t) (sAt x1 t) (sAt x2 t)))) x0 k0_pay1 = _
  rw [slabs_read]

/-- The cache is written by the eight slabs of the point, holding the groups of its weight block. -/
theorem cacheA (c : Dev nD) (t : Fin cfg0.N) (arg3 : Memref sig .tc .vmem S512x1024 .f32) (harg3 : arg3.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S4096x2048 .bf16) (harg10 : arg10.IsWhole) (arg11 : Memref sig .tc .vmem S128x2048 .i32) (harg11 : arg11.IsWhole)
    (h1 : condK0 (grid0.coords t)) (h2 : condM0 (grid0.coords t)) (h3 : ¬condK3 (grid0.coords t))
    (x0 : Vec F S512x1024 .f32) (x1 x2 : Vec F S32x2048 .f32) (x3 : Vec F S1x2048 .f32)
    (xa : Vec F S512x2048 .f32) (xw : Vec F S4096x2048 .bf16) (fh0 : HbBuf0 (F := F) c hbQ) :
    (runA c t arg3 harg3 arg5 harg5 arg6 harg6 arg7 harg7 arg8 harg8 arg9 harg9 arg10 harg10 arg11 harg11 h1 h2 h3 x0 x1 x2 x3 xa xw fh0).2.2.1 = slabs t (qAt c fh0 t) (sAt x1 t) (sAt x2 t) := by
  unfold runA
  dsimp only
  sl_unfold_run_names
  simp only [View.readAt_eq_ld, harg5.read_unread, harg6.read_unread,
    readCov_whole_unit_zero (S := S128x2048) arg11.view zero2]
  rfl

/-! ## 0 < k < 3 and m = 0: the weight block is fetched and dequantized and one product is added to the accumulator; the output block is left alone. -/

/-- The accumulator after the point: what it held plus the product with the freshly written weight block. -/
theorem accB (c : Dev nD) (t : Fin cfg0.N) (arg3 : Memref sig .tc .vmem S512x1024 .f32) (harg3 : arg3.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S4096x2048 .bf16) (harg10 : arg10.IsWhole) (arg11 : Memref sig .tc .vmem S128x2048 .i32) (harg11 : arg11.IsWhole)
    (h1 : ¬condK0 (grid0.coords t)) (h2 : condM0 (grid0.coords t)) (h3 : ¬condK3 (grid0.coords t))
    (x0 : Vec F S512x1024 .f32) (x1 x2 : Vec F S32x2048 .f32) (x3 : Vec F S1x2048 .f32)
    (xa : Vec F S512x2048 .f32) (xw : Vec F S4096x2048 .bf16) (fh0 : HbBuf0 (F := F) c hbQ) (f : arg9.view.ty.Contents (Elt F)) :
    arg9.view.read (Elt F) (arg9.view.writes (Elt F) f (runB c t arg3 harg3 arg5 harg5 arg6 harg6 arg7 harg7 arg8 harg8 arg9 harg9 arg10 harg10 arg11 harg11 h1 h2 h3 x0 x1 x2 x3 xa xw fh0).2.1) = k0_pay3 (wblk (qAt c fh0 t) (sAt x1 t) (sAt x2 t)) x0 xa := by
  unfold runB
  dsimp only
  sl_unfold_run_names
  rw [read_writes_cons_unit_zero _ _ zero2]
  simp only [View.readAt_eq_ld, harg3.read_unread, harg5.read_unread, harg6.read_unread, harg7.read_unread,
    harg9.read_unread, readCov_whole_unit_zero (S := S128x2048) arg11.view zero2,
    View.readCov_unit_zero (S := S512x2048) arg9.view zero2,
    View.ld_unit_zero (S := S512x1024) zero2, View.ld_unit_zero (S := S512x2048) zero2,
    View.ld_unit_zero (S := S1x2048) zero2]
  -- the cache rows the product reads are the eight slabs just written, read through the block's box
  show k0_pay3 (arg10.view.readAt (Elt F) (boxAt t)
      (arg10.view.writes (Elt F) arg10.view.junk (slabs t (qAt c fh0 t) (sAt x1 t) (sAt x2 t)))) x0 xa = _
  rw [slabs_read]

/-- The cache is written by the eight slabs of the point, holding the groups of its weight block. -/
theorem cacheB (c : Dev nD) (t : Fin cfg0.N) (arg3 : Memref sig .tc .vmem S512x1024 .f32) (harg3 : arg3.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S4096x2048 .bf16) (harg10 : arg10.IsWhole) (arg11 : Memref sig .tc .vmem S128x2048 .i32) (harg11 : arg11.IsWhole)
    (h1 : ¬condK0 (grid0.coords t)) (h2 : condM0 (grid0.coords t)) (h3 : ¬condK3 (grid0.coords t))
    (x0 : Vec F S512x1024 .f32) (x1 x2 : Vec F S32x2048 .f32) (x3 : Vec F S1x2048 .f32)
    (xa : Vec F S512x2048 .f32) (xw : Vec F S4096x2048 .bf16) (fh0 : HbBuf0 (F := F) c hbQ) :
    (runB c t arg3 harg3 arg5 harg5 arg6 harg6 arg7 harg7 arg8 harg8 arg9 harg9 arg10 harg10 arg11 harg11 h1 h2 h3 x0 x1 x2 x3 xa xw fh0).2.2.1 = slabs t (qAt c fh0 t) (sAt x1 t) (sAt x2 t) := by
  unfold runB
  dsimp only
  sl_unfold_run_names
  simp only [View.readAt_eq_ld, harg5.read_unread, harg6.read_unread,
    readCov_whole_unit_zero (S := S128x2048) arg11.view zero2]
  rfl

/-! ## k = 3 and m = 0: the weight block is fetched and dequantized, the last product is added, and the accumulator plus the bias is stored to the output block. -/

/-- The accumulator after the point: what it held plus the product with the freshly written weight block. -/
theorem accC (c : Dev nD) (t : Fin cfg0.N) (arg3 : Memref sig .tc .vmem S512x1024 .f32) (harg3 : arg3.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S4096x2048 .bf16) (harg10 : arg10.IsWhole) (arg11 : Memref sig .tc .vmem S128x2048 .i32) (harg11 : arg11.IsWhole)
    (h1 : ¬condK0 (grid0.coords t)) (h2 : condM0 (grid0.coords t)) (h3 : condK3 (grid0.coords t))
    (x0 : Vec F S512x1024 .f32) (x1 x2 : Vec F S32x2048 .f32) (x3 : Vec F S1x2048 .f32)
    (xa : Vec F S512x2048 .f32) (xw : Vec F S4096x2048 .bf16) (fh0 : HbBuf0 (F := F) c hbQ) (f : arg9.view.ty.Contents (Elt F)) :
    arg9.view.read (Elt F) (arg9.view.writes (Elt F) f (runC c t arg3 harg3 arg5 harg5 arg6 harg6 arg7 harg7 arg8 harg8 arg9 harg9 arg10 harg10 arg11 harg11 h1 h2 h3 x0 x1 x2 x3 xa xw fh0).2.1) = k0_pay3 (wblk (qAt c fh0 t) (sAt x1 t) (sAt x2 t)) x0 xa := by
  unfold runC
  dsimp only
  sl_unfold_run_names
  rw [read_writes_cons_unit_zero _ _ zero2]
  simp only [View.readAt_eq_ld, harg3.read_unread, harg5.read_unread, harg6.read_unread, harg7.read_unread,
    harg9.read_unread, readCov_whole_unit_zero (S := S128x2048) arg11.view zero2,
    View.readCov_unit_zero (S := S512x2048) arg9.view zero2,
    View.ld_unit_zero (S := S512x1024) zero2, View.ld_unit_zero (S := S512x2048) zero2,
    View.ld_unit_zero (S := S1x2048) zero2]
  -- the cache rows the product reads are the eight slabs just written, read through the block's box
  show k0_pay3 (arg10.view.readAt (Elt F) (boxAt t)
      (arg10.view.writes (Elt F) arg10.view.junk (slabs t (qAt c fh0 t) (sAt x1 t) (sAt x2 t)))) x0 xa = _
  rw [slabs_read]

/-- The output block: that accumulator plus the bias row. -/
theorem outC (c : Dev nD) (t : Fin cfg0.N) (arg3 : Memref sig .tc .vmem S512x1024 .f32) (harg3 : arg3.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S4096x2048 .bf16) (harg10 : arg10.IsWhole) (arg11 : Memref sig .tc .vmem S128x2048 .i32) (harg11 : arg11.IsWhole)
    (h1 : ¬condK0 (grid0.coords t)) (h2 : condM0 (grid0.coords t)) (h3 : condK3 (grid0.coords t))
    (x0 : Vec F S512x1024 .f32) (x1 x2 : Vec F S32x2048 .f32) (x3 : Vec F S1x2048 .f32)
    (xa : Vec F S512x2048 .f32) (xw : Vec F S4096x2048 .bf16) (fh0 : HbBuf0 (F := F) c hbQ) (f : arg8.view.ty.Contents (Elt F)) :
    arg8.view.read (Elt F) (arg8.view.writes (Elt F) f (runC c t arg3 harg3 arg5 harg5 arg6 harg6 arg7 harg7 arg8 harg8 arg9 harg9 arg10 harg10 arg11 harg11 h1 h2 h3 x0 x1 x2 x3 xa xw fh0).1) = k0_pay4 (k0_pay3 (wblk (qAt c fh0 t) (sAt x1 t) (sAt x2 t)) x0 xa) x3 := by
  unfold runC
  dsimp only
  sl_unfold_run_names
  rw [read_writes_cons_unit_zero _ _ zero2]
  simp only [View.readAt_eq_ld, harg3.read_unread, harg5.read_unread, harg6.read_unread, harg7.read_unread,
    harg9.read_unread, readCov_whole_unit_zero (S := S128x2048) arg11.view zero2,
    View.readCov_unit_zero (S := S512x2048) arg9.view zero2,
    View.ld_unit_zero (S := S512x1024) zero2, View.ld_unit_zero (S := S512x2048) zero2,
    View.ld_unit_zero (S := S1x2048) zero2]
  -- the cache rows the product reads are the eight slabs just written, read through the block's box
  show k0_pay4 (k0_pay3 (arg10.view.readAt (Elt F) (boxAt t)
      (arg10.view.writes (Elt F) arg10.view.junk (slabs t (qAt c fh0 t) (sAt x1 t) (sAt x2 t)))) x0 xa) x3 = _
  rw [slabs_read]

/-- The cache is written by the eight slabs of the point, holding the groups of its weight block. -/
theorem cacheC (c : Dev nD) (t : Fin cfg0.N) (arg3 : Memref sig .tc .vmem S512x1024 .f32) (harg3 : arg3.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S4096x2048 .bf16) (harg10 : arg10.IsWhole) (arg11 : Memref sig .tc .vmem S128x2048 .i32) (harg11 : arg11.IsWhole)
    (h1 : ¬condK0 (grid0.coords t)) (h2 : condM0 (grid0.coords t)) (h3 : condK3 (grid0.coords t))
    (x0 : Vec F S512x1024 .f32) (x1 x2 : Vec F S32x2048 .f32) (x3 : Vec F S1x2048 .f32)
    (xa : Vec F S512x2048 .f32) (xw : Vec F S4096x2048 .bf16) (fh0 : HbBuf0 (F := F) c hbQ) :
    (runC c t arg3 harg3 arg5 harg5 arg6 harg6 arg7 harg7 arg8 harg8 arg9 harg9 arg10 harg10 arg11 harg11 h1 h2 h3 x0 x1 x2 x3 xa xw fh0).2.2.1 = slabs t (qAt c fh0 t) (sAt x1 t) (sAt x2 t) := by
  unfold runC
  dsimp only
  sl_unfold_run_names
  simp only [View.readAt_eq_ld, harg5.read_unread, harg6.read_unread,
    readCov_whole_unit_zero (S := S128x2048) arg11.view zero2]
  rfl

/-! ## k = 0 and m > 0: the accumulator is reset and one product with the cached weight block is added; the cache and the output block are left alone. -/

/-- The accumulator after the point: the zero block plus the product with the cached rows. -/
theorem accD (c : Dev nD) (t : Fin cfg0.N) (arg3 : Memref sig .tc .vmem S512x1024 .f32) (harg3 : arg3.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S4096x2048 .bf16) (harg10 : arg10.IsWhole) (arg11 : Memref sig .tc .vmem S128x2048 .i32) (harg11 : arg11.IsWhole)
    (h1 : condK0 (grid0.coords t)) (h2 : ¬condM0 (grid0.coords t)) (h3 : ¬condK3 (grid0.coords t))
    (x0 : Vec F S512x1024 .f32) (x1 x2 : Vec F S32x2048 .f32) (x3 : Vec F S1x2048 .f32)
    (xa : Vec F S512x2048 .f32) (xw : Vec F S4096x2048 .bf16) (fh0 : HbBuf0 (F := F) c hbQ) (f : arg9.view.ty.Contents (Elt F)) :
    arg9.view.read (Elt F) (arg9.view.writes (Elt F) f (runD c t arg3 harg3 arg5 harg5 arg6 harg6 arg7 harg7 arg8 harg8 arg9 harg9 arg10 harg10 arg11 harg11 h1 h2 h3 x0 x1 x2 x3 xa xw fh0).2.1) = k0_pay3 (View.ld xw (boxR t)) x0 k0_pay1 := by
  unfold runD
  dsimp only
  sl_unfold_run_names
  rw [read_writes_cons_unit_zero _ _ zero2]
  simp only [View.readAt_eq_ld, harg3.read_unread, harg7.read_unread, harg9.read_unread, harg10.read_unread,
    View.readCov_unit_zero (S := S512x2048) arg9.view zero2,
    View.ld_unit_zero (S := S512x1024) zero2, View.ld_unit_zero (S := S512x2048) zero2,
    View.ld_unit_zero (S := S1x2048) zero2]

/-- The cache is not written. -/
theorem cacheD (c : Dev nD) (t : Fin cfg0.N) (arg3 : Memref sig .tc .vmem S512x1024 .f32) (harg3 : arg3.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S4096x2048 .bf16) (harg10 : arg10.IsWhole) (arg11 : Memref sig .tc .vmem S128x2048 .i32) (harg11 : arg11.IsWhole)
    (h1 : condK0 (grid0.coords t)) (h2 : ¬condM0 (grid0.coords t)) (h3 : ¬condK3 (grid0.coords t))
    (x0 : Vec F S512x1024 .f32) (x1 x2 : Vec F S32x2048 .f32) (x3 : Vec F S1x2048 .f32)
    (xa : Vec F S512x2048 .f32) (xw : Vec F S4096x2048 .bf16) (fh0 : HbBuf0 (F := F) c hbQ) :
    (runD c t arg3 harg3 arg5 harg5 arg6 harg6 arg7 harg7 arg8 harg8 arg9 harg9 arg10 harg10 arg11 harg11 h1 h2 h3 x0 x1 x2 x3 xa xw fh0).2.2.1 = [] := rfl

/-! ## 0 < k < 3 and m > 0: one product with the cached weight block is added to the accumulator; the cache and the output block are left alone. -/

/-- The accumulator after the point: what it held plus the product with the cached rows. -/
theorem accE (c : Dev nD) (t : Fin cfg0.N) (arg3 : Memref sig .tc .vmem S512x1024 .f32) (harg3 : arg3.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S4096x2048 .bf16) (harg10 : arg10.IsWhole) (arg11 : Memref sig .tc .vmem S128x2048 .i32) (harg11 : arg11.IsWhole)
    (h1 : ¬condK0 (grid0.coords t)) (h2 : ¬condM0 (grid0.coords t)) (h3 : ¬condK3 (grid0.coords t))
    (x0 : Vec F S512x1024 .f32) (x1 x2 : Vec F S32x2048 .f32) (x3 : Vec F S1x2048 .f32)
    (xa : Vec F S512x2048 .f32) (xw : Vec F S4096x2048 .bf16) (fh0 : HbBuf0 (F := F) c hbQ) (f : arg9.view.ty.Contents (Elt F)) :
    arg9.view.read (Elt F) (arg9.view.writes (Elt F) f (runE c t arg3 harg3 arg5 harg5 arg6 harg6 arg7 harg7 arg8 harg8 arg9 harg9 arg10 harg10 arg11 harg11 h1 h2 h3 x0 x1 x2 x3 xa xw fh0).2.1) = k0_pay3 (View.ld xw (boxR t)) x0 xa := by
  unfold runE
  dsimp only
  sl_unfold_run_names
  rw [read_writes_cons_unit_zero _ _ zero2]
  simp only [View.readAt_eq_ld, harg3.read_unread, harg7.read_unread, harg9.read_unread, harg10.read_unread,
    View.readCov_unit_zero (S := S512x2048) arg9.view zero2,
    View.ld_unit_zero (S := S512x1024) zero2, View.ld_unit_zero (S := S512x2048) zero2,
    View.ld_unit_zero (S := S1x2048) zero2]

/-- The cache is not written. -/
theorem cacheE (c : Dev nD) (t : Fin cfg0.N) (arg3 : Memref sig .tc .vmem S512x1024 .f32) (harg3 : arg3.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S4096x2048 .bf16) (harg10 : arg10.IsWhole) (arg11 : Memref sig .tc .vmem S128x2048 .i32) (harg11 : arg11.IsWhole)
    (h1 : ¬condK0 (grid0.coords t)) (h2 : ¬condM0 (grid0.coords t)) (h3 : ¬condK3 (grid0.coords t))
    (x0 : Vec F S512x1024 .f32) (x1 x2 : Vec F S32x2048 .f32) (x3 : Vec F S1x2048 .f32)
    (xa : Vec F S512x2048 .f32) (xw : Vec F S4096x2048 .bf16) (fh0 : HbBuf0 (F := F) c hbQ) :
    (runE c t arg3 harg3 arg5 harg5 arg6 harg6 arg7 harg7 arg8 harg8 arg9 harg9 arg10 harg10 arg11 harg11 h1 h2 h3 x0 x1 x2 x3 xa xw fh0).2.2.1 = [] := rfl

/-! ## k = 3 and m > 0: the last product with the cached weight block is added, and the accumulator plus the bias is stored to the output block; the cache is left alone. -/

/-- The accumulator after the point: what it held plus the product with the cached rows. -/
theorem accG (c : Dev nD) (t : Fin cfg0.N) (arg3 : Memref sig .tc .vmem S512x1024 .f32) (harg3 : arg3.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S4096x2048 .bf16) (harg10 : arg10.IsWhole) (arg11 : Memref sig .tc .vmem S128x2048 .i32) (harg11 : arg11.IsWhole)
    (h1 : ¬condK0 (grid0.coords t)) (h2 : ¬condM0 (grid0.coords t)) (h3 : condK3 (grid0.coords t))
    (x0 : Vec F S512x1024 .f32) (x1 x2 : Vec F S32x2048 .f32) (x3 : Vec F S1x2048 .f32)
    (xa : Vec F S512x2048 .f32) (xw : Vec F S4096x2048 .bf16) (fh0 : HbBuf0 (F := F) c hbQ) (f : arg9.view.ty.Contents (Elt F)) :
    arg9.view.read (Elt F) (arg9.view.writes (Elt F) f (runG c t arg3 harg3 arg5 harg5 arg6 harg6 arg7 harg7 arg8 harg8 arg9 harg9 arg10 harg10 arg11 harg11 h1 h2 h3 x0 x1 x2 x3 xa xw fh0).2.1) = k0_pay3 (View.ld xw (boxR t)) x0 xa := by
  unfold runG
  dsimp only
  sl_unfold_run_names
  rw [read_writes_cons_unit_zero _ _ zero2]
  simp only [View.readAt_eq_ld, harg3.read_unread, harg7.read_unread, harg9.read_unread, harg10.read_unread,
    View.readCov_unit_zero (S := S512x2048) arg9.view zero2,
    View.ld_unit_zero (S := S512x1024) zero2, View.ld_unit_zero (S := S512x2048) zero2,
    View.ld_unit_zero (S := S1x2048) zero2]

/-- The output block: that accumulator plus the bias row. -/
theorem outG (c : Dev nD) (t : Fin cfg0.N) (arg3 : Memref sig .tc .vmem S512x1024 .f32) (harg3 : arg3.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S4096x2048 .bf16) (harg10 : arg10.IsWhole) (arg11 : Memref sig .tc .vmem S128x2048 .i32) (harg11 : arg11.IsWhole)
    (h1 : ¬condK0 (grid0.coords t)) (h2 : ¬condM0 (grid0.coords t)) (h3 : condK3 (grid0.coords t))
    (x0 : Vec F S512x1024 .f32) (x1 x2 : Vec F S32x2048 .f32) (x3 : Vec F S1x2048 .f32)
    (xa : Vec F S512x2048 .f32) (xw : Vec F S4096x2048 .bf16) (fh0 : HbBuf0 (F := F) c hbQ) (f : arg8.view.ty.Contents (Elt F)) :
    arg8.view.read (Elt F) (arg8.view.writes (Elt F) f (runG c t arg3 harg3 arg5 harg5 arg6 harg6 arg7 harg7 arg8 harg8 arg9 harg9 arg10 harg10 arg11 harg11 h1 h2 h3 x0 x1 x2 x3 xa xw fh0).1) = k0_pay4 (k0_pay3 (View.ld xw (boxR t)) x0 xa) x3 := by
  unfold runG
  dsimp only
  sl_unfold_run_names
  rw [read_writes_cons_unit_zero _ _ zero2]
  simp only [View.readAt_eq_ld, harg3.read_unread, harg7.read_unread, harg9.read_unread, harg10.read_unread,
    View.readCov_unit_zero (S := S512x2048) arg9.view zero2,
    View.ld_unit_zero (S := S512x1024) zero2, View.ld_unit_zero (S := S512x2048) zero2,
    View.ld_unit_zero (S := S1x2048) zero2]

/-- The cache is not written. -/
theorem cacheG (c : Dev nD) (t : Fin cfg0.N) (arg3 : Memref sig .tc .vmem S512x1024 .f32) (harg3 : arg3.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S4096x2048 .bf16) (harg10 : arg10.IsWhole) (arg11 : Memref sig .tc .vmem S128x2048 .i32) (harg11 : arg11.IsWhole)
    (h1 : ¬condK0 (grid0.coords t)) (h2 : ¬condM0 (grid0.coords t)) (h3 : condK3 (grid0.coords t))
    (x0 : Vec F S512x1024 .f32) (x1 x2 : Vec F S32x2048 .f32) (x3 : Vec F S1x2048 .f32)
    (xa : Vec F S512x2048 .f32) (xw : Vec F S4096x2048 .bf16) (fh0 : HbBuf0 (F := F) c hbQ) :
    (runG c t arg3 harg3 arg5 harg5 arg6 harg6 arg7 harg7 arg8 harg8 arg9 harg9 arg10 harg10 arg11 harg11 h1 h2 h3 x0 x1 x2 x3 xa xw fh0).2.2.1 = [] := rfl

end Cert.Kernel.Hand

end
-- ==== Proof.InvBits.lean ====
/-
  The cache invariant from point to point.

  After point t every weight block filled so far in the current column half reads as its
  specification. A point with m > 0 does not write the cache, every block of the half has been filled
  by then, and the rows its product reads are the specified block. A point with m = 0 overwrites
  block k = t % 4 by its eight slabs: read back through that block's box they are the block
  computed at the point — which is the specification of (n, k), the point being its own
  representative —, and through the box of an earlier block they are invisible, so the earlier blocks
  stay as they were. With k = 0 a new column half begins and there is no earlier block to keep.
-/
import proofs.«405182_j16458314678409_3_alg».proof.Proof.PointBits

set_option maxRecDepth 16384

noncomputable section

namespace Cert.Kernel.Hand

open Idealize.ShloMosaic Idealize.ShloMosaic.ValueIdx Idealize.SL.Sem
open Cert.Kernel Cert.Kernel.Gen

variable {F : FTy → Type} [FloatOps F]
variable (m : (ℓ : Loc nD τ sig) → Buf (Elt F) ℓ) (c : Dev nD)

theorem pt_lt (t : Fin cfg0.N) : t.val < 128 := lt_of_lt_of_eq t.isLt (show cfg0.N = 128 from N_0)

/-- The point before `t`. -/
def prev (t : Fin cfg0.N) : Fin cfg0.N := ⟨t.val - 1, Nat.lt_of_le_of_lt (Nat.sub_le _ _) t.isLt⟩
@[simp] theorem prev_val (t : Fin cfg0.N) : (prev t).val = t.val - 1 := rfl

/-- A point with m = 0 is the representative of its (n, k). -/
theorem rep_of_m0 (t : Fin cfg0.N) (h : t.val % 64 < 4) : rep t = t := by
  apply Fin.ext; show t.val / 64 * 64 + t.val % 4 = t.val; omega

/-- Two points of one column half with the same k have the same representative. -/
theorem rep_congr (t t' : Fin cfg0.N) (hn : t'.val / 64 = t.val / 64) (hk : t'.val % 4 = t.val % 4) : rep t' = rep t := by
  apply Fin.ext; show t'.val / 64 * 64 + t'.val % 4 = t.val / 64 * 64 + t.val % 4; omega

/-- Where m > 0, the rows the product reads are the specified weight block. -/
theorem winv_use (t : Fin cfg0.N) (hm : 4 ≤ t.val % 64) (wc : Vec F S4096x2048 .bf16) (h : WInv m c (prev t) wc) :
    View.ld wc (boxR t) = wSpec m c t :=
  h t (by show t.val / 64 = (t.val - 1) / 64; omega) (by show 4 ≤ (t.val - 1) % 64 ∨ t.val % 4 ≤ (t.val - 1) % 4; omega)

/-- Where m > 0, the cache is not written and the invariant carries over. -/
theorem winv_keep (t : Fin cfg0.N) (hm : 4 ≤ t.val % 64) (wc : Vec F S4096x2048 .bf16) (h : WInv m c (prev t) wc) :
    WInv m c t wc := fun t' hn _ =>
  h t' (by show t'.val / 64 = (t.val - 1) / 64; omega)
    (by have := pt_lt t'; show 4 ≤ (t.val - 1) % 64 ∨ t'.val % 4 ≤ (t.val - 1) % 4; omega)

section Fill

variable {κ : Kind} {sp : Space} (v : View sig κ sp S4096x2048 .bf16) (f : v.ty.Contents (Elt F))

/-- The block just written reads as the specification of its (n, k), from any point of the half with that k. -/
theorem fill_same (t t' : Fin cfg0.N) (hm : t.val % 64 < 4) (hn : t'.val / 64 = t.val / 64) (hk : t'.val % 4 = t.val % 4) :
    View.ld (v.read (Elt F) (v.writes (Elt F) f (slabs t (qAt c (qarr m c) t) (sAt (sb m c t) t) (sAt (zb m c t) t)))) (boxR t')
      = wSpec m c t' := by
  have e1 : View.ld (v.read (Elt F) (v.writes (Elt F) f (slabs t (qAt c (qarr m c) t) (sAt (sb m c t) t) (sAt (zb m c t) t)))) (boxR t')
      = v.readAt (Elt F) (boxAt t') (v.writes (Elt F) f (slabs t (qAt c (qarr m c) t) (sAt (sb m c t) t) (sAt (zb m c t) t))) := rfl
  rw [e1, readAt_boxAt_congr v _ t t' hk, slabs_read]
  unfold wSpec
  rw [rep_congr t t' hn hk, rep_of_m0 t hm]
  rfl

/-- A point with k = 0 and m = 0 starts a column half: only block 0 is asked for. -/
theorem winv_first (t : Fin cfg0.N) (hm : t.val % 64 = 0) :
    WInv m c t (v.read (Elt F) (v.writes (Elt F) f (slabs t (qAt c (qarr m c) t) (sAt (sb m c t) t) (sAt (zb m c t) t)))) :=
  fun t' hn hv => fill_same m c v f t t' (by omega) hn (by have := pt_lt t'; omega)

/-- A point with 0 < k and m = 0 fills block k and keeps the earlier ones. -/
theorem winv_fill (t : Fin cfg0.N) (hm : t.val % 64 < 4) (hk : t.val % 64 ≠ 0) (wc : Vec F S4096x2048 .bf16)
    (h : WInv m c (prev t) wc) (hf : v.read (Elt F) f = wc) :
    WInv m c t (v.read (Elt F) (v.writes (Elt F) f (slabs t (qAt c (qarr m c) t) (sAt (sb m c t) t) (sAt (zb m c t) t)))) := by
  intro t' hn hv
  by_cases hs : t'.val % 4 = t.val % 4
  · exact fill_same m c v f t t' hm hn hs
  · have e1 : View.ld (v.read (Elt F) (v.writes (Elt F) f (slabs t (qAt c (qarr m c) t) (sAt (sb m c t) t) (sAt (zb m c t) t)))) (boxR t')
        = v.readAt (Elt F) (boxAt t') (v.writes (Elt F) f (slabs t (qAt c (qarr m c) t) (sAt (sb m c t) t) (sAt (zb m c t) t))) := rfl
    rw [e1, slabs_miss v f t t' hs]
    have e2 : v.readAt (Elt F) (boxAt t') f = View.ld (v.read (Elt F) f) (boxR t') := rfl
    rw [e2, hf]
    exact h t' (by show t'.val / 64 = (t.val - 1) / 64; omega)
      (by show 4 ≤ (t.val - 1) % 64 ∨ t'.val % 4 ≤ (t.val - 1) % 4; omega)

end Fill

end Cert.Kernel.Hand

end
-- ==== Proof.BodyBits.lean ====
/-
  The kernel body at every grid point, the region's invariant, and the run of the whole program.

  The proof data says what every staging buffer holds after the body at each point: an input its
  block, the output block (where it is stored, at k = 3) the accumulator plus the bias row. The
  region's invariant is, before the first point, the launch's (scratch buffers at anything, the
  transfer semaphore at zero, the packed weights in HBM as launched); after point t, the same with
  the accumulator at its value after t and the weight cache at some contents in which every block
  filled so far reads as its specification. At each point the body is one of six runs, chosen by
  whether k = 0, m = 0, k = 3; the run's stores are read back by the piece lemmas, and the invariant
  is carried by the arithmetic of the blocks. The launch theorem then gives the run of @main, and the
  frame's statement follows.
-/
import proofs.«405182_j16458314678409_3_alg».proof.Proof.PiecesBits
import proofs.«405182_j16458314678409_3_alg».proof.Proof.InvBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The region's invariant, point by point -/

/-- Before position `n`: the launch's invariant at 0; afterwards the accumulator at its value after point
    `n − 1`, the cache at contents satisfying the block invariant, the copy's landing buffer at anything,
    the generator register at some state, the transfer semaphore at zero, the packed weights as launched. -/
def PhiS (c : Dev nD) : (n : ℕ) → n ≤ cfg0.N → sProp 𝕄
  | 0, _ => Pipeline.ΦD osem0 spec0 H0 (V m) c
  | n + 1, hn => iprop(iprop(owns (c : Thread nD τ) scAcc fullShare (accAt m c n hn) ∗ (∃ wc, ⌜WInv m c ⟨n, hn⟩ wc⌝ ∗ owns (c : Thread nD τ) scW fullShare wc) ∗ (∃ d, owns (c : Thread nD τ) scQ fullShare d)) ∗ (∃ r, prngReg c r) ∗ iprop(semVal ((c : Thread nD τ), SemLoc.dma 10) 0) ∗ iprop(hbPt0 c hbQ (V m c main_arg1)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scAcc fullShare (accAt m c n hn) ∗ (∃ wc, ⌜WInv m c ⟨n, hn⟩ wc⌝ ∗ owns (c : Thread nD τ) scW fullShare wc) ∗ (∃ d, owns (c : Thread nD τ) scQ fullShare d)) ∗ (∃ r, prngReg c r) ∗ iprop(semVal ((c : Thread nD τ), SemLoc.dma 10) 0) ∗ iprop(hbPt0 c hbQ (V m c main_arg1))) := rfl

theorem PhiS_pos (c : Dev nD) (n : ℕ) (h : n ≤ cfg0.N) (hz : n ≠ 0) :
    PhiS m c n h = iprop(iprop(owns (c : Thread nD τ) scAcc fullShare (accAt m c (n - 1) (by omega)) ∗ (∃ wc, ⌜WInv m c ⟨n - 1, by omega⟩ wc⌝ ∗ owns (c : Thread nD τ) scW fullShare wc) ∗ (∃ d, owns (c : Thread nD τ) scQ fullShare d)) ∗ (∃ r, prngReg c r) ∗ iprop(semVal ((c : Thread nD τ), SemLoc.dma 10) 0) ∗ iprop(hbPt0 c hbQ (V m c main_arg1))) := by
  cases n with
  | zero => exact absurd rfl hz
  | succ n => rfl

/-! ## The proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
/-- The body at any point: the case the point's coordinates select applies, the inputs' buffers hold
    their blocks, the invariant hands in the scratch buffers and takes them back at the point's values. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = PhiS m c (t.val + 1) t.isLt from rfl, PhiS_succ]
  unfold Dat.owesAt Pipeline.owesWithin
  rw [show (dats m 0 c).owed t.castSucc = 0 from rfl, show (dats m 0 c).owed t.succ = 0 from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  have hN : t.val < 128 := pt_lt t
  by_cases hK0 : t.val % 4 = 0
  · have hK3 : ¬t.val % 4 = 3 := by omega
    rw [Dat.leavesExact_idle (dats m 0 c) 4 t (idleAt0_4 t (fun h => hK3 ((hcondK3 t).mp h))) (noFlush0_4 t (fun h => hK3 ((hcondK3 t).mp h)))]
    by_cases hM : t.val % 64 < 4
    ·
      by_cases hz : t.val = 0
      ·
        rw [PhiS_castSucc m c t, PhiS_zero m c _ _ hz, PhiD0_eq]
        iintro ⟨⟨⟨⟨%da, HSA⟩, ⟨%dw, HSW⟩, HSQ⟩, Hg, Hq0, Hh0⟩, ⟨%W, -, HW⟩, ⟨%d0, H0⟩, ⟨%d1, H1⟩, ⟨%d2, H2⟩, ⟨%d3, H3⟩, ⟨%d4, H4⟩⟩
        have hV : wblk (qAt c (V m c main_arg1) t) (sAt (iblk m c 1 t) t) (sAt (iblk m c 2 t) t) = wSpec m c t := by
          unfold wSpec; rw [rep_of_m0 t hM]; rfl
        have hAcc : k0_pay3 (wblk (qAt c (V m c main_arg1) t) (sAt (iblk m c 1 t) t) (sAt (iblk m c 2 t) t)) (iblk m c 0 t) k0_pay1 = accAt m c t.val t.isLt :=
          (congrArg (fun w => k0_pay3 w (iblk m c 0 t) k0_pay1) hV).trans (accAt_reset m c t hK0).symm
        iapply ((runA c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) ((hcondK0 t).mpr hK0) ((hcondM0 t).mpr hM) (fun h => hK3 ((hcondK3 t).mp h)) (iblk m c 0 t) (iblk m c 1 t) (iblk m c 2 t) (iblk m c 3 t) da dw (V m c main_arg1)).2.2.2 _ W _)
        isplitl [H0]; · iexact H0
        isplitl [H1]; · iexact H1
        isplitl [H2]; · iexact H2
        isplitl [H3]; · iexact H3
        isplitl [H4]; · iexact H4
        isplitl [HSA]; · iexact HSA
        isplitl [HSW]; · iexact HSW
        isplitl [HSQ]; · iexact HSQ
        isplitl [Hq0]; · iexact Hq0
        isplitl [Hh0]; · iexact Hh0
        isplitl [HW]; · iexact HW
        iintro ⟨H0, H1, H2, H3, H4, ⟨%fa, HA⟩, HWc, HSQ, Hq0, Hh0, ⟨%W', HW'⟩⟩
        isplitl [HA HWc HSQ Hg Hq0 Hh0]
        · isplitl [HA HWc HSQ]
          · isplitl [HA]
            · unfold owns; iexists _; isplitr; swap; · iexact HA
              ipureintro
              exact (accA c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) ((hcondK0 t).mpr hK0) ((hcondM0 t).mpr hM) (fun h => hK3 ((hcondK3 t).mp h)) (iblk m c 0 t) (iblk m c 1 t) (iblk m c 2 t) (iblk m c 3 t) da dw (V m c main_arg1) fa).trans hAcc
            isplitl [HWc]
            · iexists (scW.view.read (Elt F) (scW.view.writes (Elt F) ((Memref.isWhole_whole _ : scW.IsWhole).unread dw) (runA c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) ((hcondK0 t).mpr hK0) ((hcondM0 t).mpr hM) (fun h => hK3 ((hcondK3 t).mp h)) (iblk m c 0 t) (iblk m c 1 t) (iblk m c 2 t) (iblk m c 3 t) da dw (V m c main_arg1)).2.2.1)); isplitr
              · ipureintro
                rw [cacheA c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) ((hcondK0 t).mpr hK0) ((hcondM0 t).mpr hM) (fun h => hK3 ((hcondK3 t).mp h)) (iblk m c 0 t) (iblk m c 1 t) (iblk m c 2 t) (iblk m c 3 t) da dw (V m c main_arg1)]
                exact winv_first m c scW.view _ t (by omega)
              unfold owns; iexists _; isplitr; swap; · iexact HWc
              ipureintro; rfl
            iexact HSQ
          isplitl [Hg]; · iexact Hg
          isplitl [Hq0]; · iexact Hq0
          iexact Hh0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        iexists _; iexact H4
      ·
        rw [PhiS_castSucc m c t, PhiS_pos m c _ _ hz]
        iintro ⟨⟨⟨HSA, ⟨%wc, %hwc, HSW⟩, HSQ⟩, Hg, Hq0, Hh0⟩, ⟨%W, -, HW⟩, ⟨%d0, H0⟩, ⟨%d1, H1⟩, ⟨%d2, H2⟩, ⟨%d3, H3⟩, ⟨%d4, H4⟩⟩
        have hV : wblk (qAt c (V m c main_arg1) t) (sAt (iblk m c 1 t) t) (sAt (iblk m c 2 t) t) = wSpec m c t := by
          unfold wSpec; rw [rep_of_m0 t hM]; rfl
        have hAcc : k0_pay3 (wblk (qAt c (V m c main_arg1) t) (sAt (iblk m c 1 t) t) (sAt (iblk m c 2 t) t)) (iblk m c 0 t) k0_pay1 = accAt m c t.val t.isLt :=
          (congrArg (fun w => k0_pay3 w (iblk m c 0 t) k0_pay1) hV).trans (accAt_reset m c t hK0).symm
        iapply ((runA c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) ((hcondK0 t).mpr hK0) ((hcondM0 t).mpr hM) (fun h => hK3 ((hcondK3 t).mp h)) (iblk m c 0 t) (iblk m c 1 t) (iblk m c 2 t) (iblk m c 3 t) (accAt m c (t.val - 1) (Nat.lt_of_le_of_lt (Nat.sub_le _ _) t.isLt)) wc (V m c main_arg1)).2.2.2 _ W _)
        isplitl [H0]; · iexact H0
        isplitl [H1]; · iexact H1
        isplitl [H2]; · iexact H2
        isplitl [H3]; · iexact H3
        isplitl [H4]; · iexact H4
        isplitl [HSA]; · iexact HSA
        isplitl [HSW]; · iexact HSW
        isplitl [HSQ]; · iexact HSQ
        isplitl [Hq0]; · iexact Hq0
        isplitl [Hh0]; · iexact Hh0
        isplitl [HW]; · iexact HW
        iintro ⟨H0, H1, H2, H3, H4, ⟨%fa, HA⟩, HWc, HSQ, Hq0, Hh0, ⟨%W', HW'⟩⟩
        isplitl [HA HWc HSQ Hg Hq0 Hh0]
        · isplitl [HA HWc HSQ]
          · isplitl [HA]
            · unfold owns; iexists _; isplitr; swap; · iexact HA
              ipureintro
              exact (accA c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) ((hcondK0 t).mpr hK0) ((hcondM0 t).mpr hM) (fun h => hK3 ((hcondK3 t).mp h)) (iblk m c 0 t) (iblk m c 1 t) (iblk m c 2 t) (iblk m c 3 t) (accAt m c (t.val - 1) (Nat.lt_of_le_of_lt (Nat.sub_le _ _) t.isLt)) wc (V m c main_arg1) fa).trans hAcc
            isplitl [HWc]
            · iexists (scW.view.read (Elt F) (scW.view.writes (Elt F) ((Memref.isWhole_whole _ : scW.IsWhole).unread wc) (runA c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) ((hcondK0 t).mpr hK0) ((hcondM0 t).mpr hM) (fun h => hK3 ((hcondK3 t).mp h)) (iblk m c 0 t) (iblk m c 1 t) (iblk m c 2 t) (iblk m c 3 t) (accAt m c (t.val - 1) (Nat.lt_of_le_of_lt (Nat.sub_le _ _) t.isLt)) wc (V m c main_arg1)).2.2.1)); isplitr
              · ipureintro
                rw [cacheA c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) ((hcondK0 t).mpr hK0) ((hcondM0 t).mpr hM) (fun h => hK3 ((hcondK3 t).mp h)) (iblk m c 0 t) (iblk m c 1 t) (iblk m c 2 t) (iblk m c 3 t) (accAt m c (t.val - 1) (Nat.lt_of_le_of_lt (Nat.sub_le _ _) t.isLt)) wc (V m c main_arg1)]
                exact winv_first m c scW.view _ t (by omega)
              unfold owns; iexists _; isplitr; swap; · iexact HWc
              ipureintro; rfl
            iexact HSQ
          isplitl [Hg]; · iexact Hg
          isplitl [Hq0]; · iexact Hq0
          iexact Hh0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        iexists _; iexact H4
    ·
      have hz : t.val ≠ 0 := by omega
      ·
        rw [PhiS_castSucc m c t, PhiS_pos m c _ _ hz]
        iintro ⟨⟨⟨HSA, ⟨%wc, %hwc, HSW⟩, HSQ⟩, Hg, Hq0, Hh0⟩, ⟨%W, -, HW⟩, ⟨%d0, H0⟩, ⟨%d1, H1⟩, ⟨%d2, H2⟩, ⟨%d3, H3⟩, ⟨%d4, H4⟩⟩
        have hV : View.ld wc (boxR t) = wSpec m c t := winv_use m c t (by omega) wc hwc
        have hAcc : k0_pay3 (View.ld wc (boxR t)) (iblk m c 0 t) k0_pay1 = accAt m c t.val t.isLt :=
          (congrArg (fun w => k0_pay3 w (iblk m c 0 t) k0_pay1) hV).trans (accAt_reset m c t hK0).symm
        iapply ((runD c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) ((hcondK0 t).mpr hK0) (fun h => hM ((hcondM0 t).mp h)) (fun h => hK3 ((hcondK3 t).mp h)) (iblk m c 0 t) (iblk m c 1 t) (iblk m c 2 t) (iblk m c 3 t) (accAt m c (t.val - 1) (Nat.lt_of_le_of_lt (Nat.sub_le _ _) t.isLt)) wc (V m c main_arg1)).2.2.2 _ W _)
        isplitl [H0]; · iexact H0
        isplitl [H1]; · iexact H1
        isplitl [H2]; · iexact H2
        isplitl [H3]; · iexact H3
        isplitl [H4]; · iexact H4
        isplitl [HSA]; · iexact HSA
        isplitl [HSW]; · iexact HSW
        isplitl [HSQ]; · iexact HSQ
        isplitl [Hq0]; · iexact Hq0
        isplitl [Hh0]; · iexact Hh0
        isplitl [HW]; · iexact HW
        iintro ⟨H0, H1, H2, H3, H4, ⟨%fa, HA⟩, HWc, HSQ, Hq0, Hh0, ⟨%W', HW'⟩⟩
        isplitl [HA HWc HSQ Hg Hq0 Hh0]
        · isplitl [HA HWc HSQ]
          · isplitl [HA]
            · unfold owns; iexists _; isplitr; swap; · iexact HA
              ipureintro
              exact (accD c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) ((hcondK0 t).mpr hK0) (fun h => hM ((hcondM0 t).mp h)) (fun h => hK3 ((hcondK3 t).mp h)) (iblk m c 0 t) (iblk m c 1 t) (iblk m c 2 t) (iblk m c 3 t) (accAt m c (t.val - 1) (Nat.lt_of_le_of_lt (Nat.sub_le _ _) t.isLt)) wc (V m c main_arg1) fa).trans hAcc
            isplitl [HWc]
            · iexists wc; isplitr
              · ipureintro; exact winv_keep m c t (by omega) wc hwc
              unfold owns; iexists _; isplitr; swap; · iexact HWc
              ipureintro; exact (Memref.isWhole_whole _).read_unread _
            iexact HSQ
          isplitl [Hg]; · iexact Hg
          isplitl [Hq0]; · iexact Hq0
          iexact Hh0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        iexists _; iexact H4
  · by_cases hK3 : t.val % 4 = 3
    · rw [show (dats m 0 c).leavesExact 4 t = owns (c : Thread nD τ) (ms0_4 t) fullShare ((dats m 0 c).after 4 t) from by
        unfold Dat.leavesExact; rw [liveAt0_4 t ((hcondK3 t).mpr hK3)], after0_4]
      by_cases hM : t.val % 64 < 4
      ·
        have hz : t.val ≠ 0 := by omega
        ·
          rw [PhiS_castSucc m c t, PhiS_pos m c _ _ hz]
          iintro ⟨⟨⟨HSA, ⟨%wc, %hwc, HSW⟩, HSQ⟩, Hg, Hq0, Hh0⟩, ⟨%W, -, HW⟩, ⟨%d0, H0⟩, ⟨%d1, H1⟩, ⟨%d2, H2⟩, ⟨%d3, H3⟩, ⟨%d4, H4⟩⟩
          have hV : wblk (qAt c (V m c main_arg1) t) (sAt (iblk m c 1 t) t) (sAt (iblk m c 2 t) t) = wSpec m c t := by
            unfold wSpec; rw [rep_of_m0 t hM]; rfl
          have hAcc : k0_pay3 (wblk (qAt c (V m c main_arg1) t) (sAt (iblk m c 1 t) t) (sAt (iblk m c 2 t) t)) (iblk m c 0 t) (accAt m c (t.val - 1) (Nat.lt_of_le_of_lt (Nat.sub_le _ _) t.isLt)) = accAt m c t.val t.isLt :=
            (congrArg (fun w => k0_pay3 w (iblk m c 0 t) (accAt m c (t.val - 1) (Nat.lt_of_le_of_lt (Nat.sub_le _ _) t.isLt))) hV).trans (accAt_step m c t hK0).symm
          iapply ((runC c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) (fun h => hK0 ((hcondK0 t).mp h)) ((hcondM0 t).mpr hM) ((hcondK3 t).mpr hK3) (iblk m c 0 t) (iblk m c 1 t) (iblk m c 2 t) (iblk m c 3 t) (accAt m c (t.val - 1) (Nat.lt_of_le_of_lt (Nat.sub_le _ _) t.isLt)) wc (V m c main_arg1)).2.2.2 _ W _)
          isplitl [H0]; · iexact H0
          isplitl [H1]; · iexact H1
          isplitl [H2]; · iexact H2
          isplitl [H3]; · iexact H3
          isplitl [H4]; · iexact H4
          isplitl [HSA]; · iexact HSA
          isplitl [HSW]; · iexact HSW
          isplitl [HSQ]; · iexact HSQ
          isplitl [Hq0]; · iexact Hq0
          isplitl [Hh0]; · iexact Hh0
          isplitl [HW]; · iexact HW
          iintro ⟨H0, H1, H2, H3, ⟨%fo, H4⟩, ⟨%fa, HA⟩, HWc, HSQ, Hq0, Hh0, ⟨%W', HW'⟩⟩
          isplitl [HA HWc HSQ Hg Hq0 Hh0]
          · isplitl [HA HWc HSQ]
            · isplitl [HA]
              · unfold owns; iexists _; isplitr; swap; · iexact HA
                ipureintro
                exact (accC c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) (fun h => hK0 ((hcondK0 t).mp h)) ((hcondM0 t).mpr hM) ((hcondK3 t).mpr hK3) (iblk m c 0 t) (iblk m c 1 t) (iblk m c 2 t) (iblk m c 3 t) (accAt m c (t.val - 1) (Nat.lt_of_le_of_lt (Nat.sub_le _ _) t.isLt)) wc (V m c main_arg1) fa).trans hAcc
              isplitl [HWc]
              · iexists (scW.view.read (Elt F) (scW.view.writes (Elt F) ((Memref.isWhole_whole _ : scW.IsWhole).unread wc) (runC c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) (fun h => hK0 ((hcondK0 t).mp h)) ((hcondM0 t).mpr hM) ((hcondK3 t).mpr hK3) (iblk m c 0 t) (iblk m c 1 t) (iblk m c 2 t) (iblk m c 3 t) (accAt m c (t.val - 1) (Nat.lt_of_le_of_lt (Nat.sub_le _ _) t.isLt)) wc (V m c main_arg1)).2.2.1)); isplitr
                · ipureintro
                  rw [cacheC c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) (fun h => hK0 ((hcondK0 t).mp h)) ((hcondM0 t).mpr hM) ((hcondK3 t).mpr hK3) (iblk m c 0 t) (iblk m c 1 t) (iblk m c 2 t) (iblk m c 3 t) (accAt m c (t.val - 1) (Nat.lt_of_le_of_lt (Nat.sub_le _ _) t.isLt)) wc (V m c main_arg1)]
                  exact winv_fill m c scW.view _ t hM (by omega) wc hwc ((Memref.isWhole_whole _).read_unread _)
                unfold owns; iexists _; isplitr; swap; · iexact HWc
                ipureintro; rfl
              iexact HSQ
            isplitl [Hg]; · iexact Hg
            isplitl [Hq0]; · iexact Hq0
            iexact Hh0
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          unfold owns; iexists _; isplitr; swap; · iexact H4
          ipureintro
          exact (outC c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) (fun h => hK0 ((hcondK0 t).mp h)) ((hcondM0 t).mpr hM) ((hcondK3 t).mpr hK3) (iblk m c 0 t) (iblk m c 1 t) (iblk m c 2 t) (iblk m c 3 t) (accAt m c (t.val - 1) (Nat.lt_of_le_of_lt (Nat.sub_le _ _) t.isLt)) wc (V m c main_arg1) fo).trans (congrArg (fun a => k0_pay4 a (iblk m c 3 t)) hAcc)
      ·
        have hz : t.val ≠ 0 := by omega
        ·
          rw [PhiS_castSucc m c t, PhiS_pos m c _ _ hz]
          iintro ⟨⟨⟨HSA, ⟨%wc, %hwc, HSW⟩, HSQ⟩, Hg, Hq0, Hh0⟩, ⟨%W, -, HW⟩, ⟨%d0, H0⟩, ⟨%d1, H1⟩, ⟨%d2, H2⟩, ⟨%d3, H3⟩, ⟨%d4, H4⟩⟩
          have hV : View.ld wc (boxR t) = wSpec m c t := winv_use m c t (by omega) wc hwc
          have hAcc : k0_pay3 (View.ld wc (boxR t)) (iblk m c 0 t) (accAt m c (t.val - 1) (Nat.lt_of_le_of_lt (Nat.sub_le _ _) t.isLt)) = accAt m c t.val t.isLt :=
            (congrArg (fun w => k0_pay3 w (iblk m c 0 t) (accAt m c (t.val - 1) (Nat.lt_of_le_of_lt (Nat.sub_le _ _) t.isLt))) hV).trans (accAt_step m c t hK0).symm
          iapply ((runG c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) (fun h => hK0 ((hcondK0 t).mp h)) (fun h => hM ((hcondM0 t).mp h)) ((hcondK3 t).mpr hK3) (iblk m c 0 t) (iblk m c 1 t) (iblk m c 2 t) (iblk m c 3 t) (accAt m c (t.val - 1) (Nat.lt_of_le_of_lt (Nat.sub_le _ _) t.isLt)) wc (V m c main_arg1)).2.2.2 _ W _)
          isplitl [H0]; · iexact H0
          isplitl [H1]; · iexact H1
          isplitl [H2]; · iexact H2
          isplitl [H3]; · iexact H3
          isplitl [H4]; · iexact H4
          isplitl [HSA]; · iexact HSA
          isplitl [HSW]; · iexact HSW
          isplitl [HSQ]; · iexact HSQ
          isplitl [Hq0]; · iexact Hq0
          isplitl [Hh0]; · iexact Hh0
          isplitl [HW]; · iexact HW
          iintro ⟨H0, H1, H2, H3, ⟨%fo, H4⟩, ⟨%fa, HA⟩, HWc, HSQ, Hq0, Hh0, ⟨%W', HW'⟩⟩
          isplitl [HA HWc HSQ Hg Hq0 Hh0]
          · isplitl [HA HWc HSQ]
            · isplitl [HA]
              · unfold owns; iexists _; isplitr; swap; · iexact HA
                ipureintro
                exact (accG c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) (fun h => hK0 ((hcondK0 t).mp h)) (fun h => hM ((hcondM0 t).mp h)) ((hcondK3 t).mpr hK3) (iblk m c 0 t) (iblk m c 1 t) (iblk m c 2 t) (iblk m c 3 t) (accAt m c (t.val - 1) (Nat.lt_of_le_of_lt (Nat.sub_le _ _) t.isLt)) wc (V m c main_arg1) fa).trans hAcc
              isplitl [HWc]
              · iexists wc; isplitr
                · ipureintro; exact winv_keep m c t (by omega) wc hwc
                unfold owns; iexists _; isplitr; swap; · iexact HWc
                ipureintro; exact (Memref.isWhole_whole _).read_unread _
              iexact HSQ
            isplitl [Hg]; · iexact Hg
            isplitl [Hq0]; · iexact Hq0
            iexact Hh0
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          unfold owns; iexists _; isplitr; swap; · iexact H4
          ipureintro
          exact (outG c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) (fun h => hK0 ((hcondK0 t).mp h)) (fun h => hM ((hcondM0 t).mp h)) ((hcondK3 t).mpr hK3) (iblk m c 0 t) (iblk m c 1 t) (iblk m c 2 t) (iblk m c 3 t) (accAt m c (t.val - 1) (Nat.lt_of_le_of_lt (Nat.sub_le _ _) t.isLt)) wc (V m c main_arg1) fo).trans (congrArg (fun a => k0_pay4 a (iblk m c 3 t)) hAcc)
    · rw [Dat.leavesExact_idle (dats m 0 c) 4 t (idleAt0_4 t (fun h => hK3 ((hcondK3 t).mp h))) (noFlush0_4 t (fun h => hK3 ((hcondK3 t).mp h)))]
      by_cases hM : t.val % 64 < 4
      ·
        have hz : t.val ≠ 0 := by omega
        ·
          rw [PhiS_castSucc m c t, PhiS_pos m c _ _ hz]
          iintro ⟨⟨⟨HSA, ⟨%wc, %hwc, HSW⟩, HSQ⟩, Hg, Hq0, Hh0⟩, ⟨%W, -, HW⟩, ⟨%d0, H0⟩, ⟨%d1, H1⟩, ⟨%d2, H2⟩, ⟨%d3, H3⟩, ⟨%d4, H4⟩⟩
          have hV : wblk (qAt c (V m c main_arg1) t) (sAt (iblk m c 1 t) t) (sAt (iblk m c 2 t) t) = wSpec m c t := by
            unfold wSpec; rw [rep_of_m0 t hM]; rfl
          have hAcc : k0_pay3 (wblk (qAt c (V m c main_arg1) t) (sAt (iblk m c 1 t) t) (sAt (iblk m c 2 t) t)) (iblk m c 0 t) (accAt m c (t.val - 1) (Nat.lt_of_le_of_lt (Nat.sub_le _ _) t.isLt)) = accAt m c t.val t.isLt :=
            (congrArg (fun w => k0_pay3 w (iblk m c 0 t) (accAt m c (t.val - 1) (Nat.lt_of_le_of_lt (Nat.sub_le _ _) t.isLt))) hV).trans (accAt_step m c t hK0).symm
          iapply ((runB c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) (fun h => hK0 ((hcondK0 t).mp h)) ((hcondM0 t).mpr hM) (fun h => hK3 ((hcondK3 t).mp h)) (iblk m c 0 t) (iblk m c 1 t) (iblk m c 2 t) (iblk m c 3 t) (accAt m c (t.val - 1) (Nat.lt_of_le_of_lt (Nat.sub_le _ _) t.isLt)) wc (V m c main_arg1)).2.2.2 _ W _)
          isplitl [H0]; · iexact H0
          isplitl [H1]; · iexact H1
          isplitl [H2]; · iexact H2
          isplitl [H3]; · iexact H3
          isplitl [H4]; · iexact H4
          isplitl [HSA]; · iexact HSA
          isplitl [HSW]; · iexact HSW
          isplitl [HSQ]; · iexact HSQ
          isplitl [Hq0]; · iexact Hq0
          isplitl [Hh0]; · iexact Hh0
          isplitl [HW]; · iexact HW
          iintro ⟨H0, H1, H2, H3, H4, ⟨%fa, HA⟩, HWc, HSQ, Hq0, Hh0, ⟨%W', HW'⟩⟩
          isplitl [HA HWc HSQ Hg Hq0 Hh0]
          · isplitl [HA HWc HSQ]
            · isplitl [HA]
              · unfold owns; iexists _; isplitr; swap; · iexact HA
                ipureintro
                exact (accB c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) (fun h => hK0 ((hcondK0 t).mp h)) ((hcondM0 t).mpr hM) (fun h => hK3 ((hcondK3 t).mp h)) (iblk m c 0 t) (iblk m c 1 t) (iblk m c 2 t) (iblk m c 3 t) (accAt m c (t.val - 1) (Nat.lt_of_le_of_lt (Nat.sub_le _ _) t.isLt)) wc (V m c main_arg1) fa).trans hAcc
              isplitl [HWc]
              · iexists (scW.view.read (Elt F) (scW.view.writes (Elt F) ((Memref.isWhole_whole _ : scW.IsWhole).unread wc) (runB c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) (fun h => hK0 ((hcondK0 t).mp h)) ((hcondM0 t).mpr hM) (fun h => hK3 ((hcondK3 t).mp h)) (iblk m c 0 t) (iblk m c 1 t) (iblk m c 2 t) (iblk m c 3 t) (accAt m c (t.val - 1) (Nat.lt_of_le_of_lt (Nat.sub_le _ _) t.isLt)) wc (V m c main_arg1)).2.2.1)); isplitr
                · ipureintro
                  rw [cacheB c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) (fun h => hK0 ((hcondK0 t).mp h)) ((hcondM0 t).mpr hM) (fun h => hK3 ((hcondK3 t).mp h)) (iblk m c 0 t) (iblk m c 1 t) (iblk m c 2 t) (iblk m c 3 t) (accAt m c (t.val - 1) (Nat.lt_of_le_of_lt (Nat.sub_le _ _) t.isLt)) wc (V m c main_arg1)]
                  exact winv_fill m c scW.view _ t hM (by omega) wc hwc ((Memref.isWhole_whole _).read_unread _)
                unfold owns; iexists _; isplitr; swap; · iexact HWc
                ipureintro; rfl
              iexact HSQ
            isplitl [Hg]; · iexact Hg
            isplitl [Hq0]; · iexact Hq0
            iexact Hh0
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          iexists _; iexact H4
      ·
        have hz : t.val ≠ 0 := by omega
        ·
          rw [PhiS_castSucc m c t, PhiS_pos m c _ _ hz]
          iintro ⟨⟨⟨HSA, ⟨%wc, %hwc, HSW⟩, HSQ⟩, Hg, Hq0, Hh0⟩, ⟨%W, -, HW⟩, ⟨%d0, H0⟩, ⟨%d1, H1⟩, ⟨%d2, H2⟩, ⟨%d3, H3⟩, ⟨%d4, H4⟩⟩
          have hV : View.ld wc (boxR t) = wSpec m c t := winv_use m c t (by omega) wc hwc
          have hAcc : k0_pay3 (View.ld wc (boxR t)) (iblk m c 0 t) (accAt m c (t.val - 1) (Nat.lt_of_le_of_lt (Nat.sub_le _ _) t.isLt)) = accAt m c t.val t.isLt :=
            (congrArg (fun w => k0_pay3 w (iblk m c 0 t) (accAt m c (t.val - 1) (Nat.lt_of_le_of_lt (Nat.sub_le _ _) t.isLt))) hV).trans (accAt_step m c t hK0).symm
          iapply ((runE c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) (fun h => hK0 ((hcondK0 t).mp h)) (fun h => hM ((hcondM0 t).mp h)) (fun h => hK3 ((hcondK3 t).mp h)) (iblk m c 0 t) (iblk m c 1 t) (iblk m c 2 t) (iblk m c 3 t) (accAt m c (t.val - 1) (Nat.lt_of_le_of_lt (Nat.sub_le _ _) t.isLt)) wc (V m c main_arg1)).2.2.2 _ W _)
          isplitl [H0]; · iexact H0
          isplitl [H1]; · iexact H1
          isplitl [H2]; · iexact H2
          isplitl [H3]; · iexact H3
          isplitl [H4]; · iexact H4
          isplitl [HSA]; · iexact HSA
          isplitl [HSW]; · iexact HSW
          isplitl [HSQ]; · iexact HSQ
          isplitl [Hq0]; · iexact Hq0
          isplitl [Hh0]; · iexact Hh0
          isplitl [HW]; · iexact HW
          iintro ⟨H0, H1, H2, H3, H4, ⟨%fa, HA⟩, HWc, HSQ, Hq0, Hh0, ⟨%W', HW'⟩⟩
          isplitl [HA HWc HSQ Hg Hq0 Hh0]
          · isplitl [HA HWc HSQ]
            · isplitl [HA]
              · unfold owns; iexists _; isplitr; swap; · iexact HA
                ipureintro
                exact (accE c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) (fun h => hK0 ((hcondK0 t).mp h)) (fun h => hM ((hcondM0 t).mp h)) (fun h => hK3 ((hcondK3 t).mp h)) (iblk m c 0 t) (iblk m c 1 t) (iblk m c 2 t) (iblk m c 3 t) (accAt m c (t.val - 1) (Nat.lt_of_le_of_lt (Nat.sub_le _ _) t.isLt)) wc (V m c main_arg1) fa).trans hAcc
              isplitl [HWc]
              · iexists wc; isplitr
                · ipureintro; exact winv_keep m c t (by omega) wc hwc
                unfold owns; iexists _; isplitr; swap; · iexact HWc
                ipureintro; exact (Memref.isWhole_whole _).read_unread _
              iexact HSQ
            isplitl [Hg]; · iexact Hg
            isplitl [Hq0]; · iexact Hq0
            iexact Hh0
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's back: the scratch contents are forgotten. -/
theorem hout (c : Dev nD) : (dats m 0 c).Φ (Fin.last cfg0.N) ⊢ Pipeline.ΦD osem0 spec0 H0 (V m) c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiD0_eq]
  iintro ⟨⟨HSA, ⟨%wc, -, HSW⟩, HSQ⟩, Hg, Hq0, Hh0⟩
  isplitl [HSA HSW HSQ]
  · isplitl [HSA]; · iexists _; iexact HSA
    isplitl [HSW]; · iexists _; iexact HSW
    iexact HSQ
  isplitl [Hg]; · iexact Hg
  isplitl [Hq0]; · iexact Hq0
  iexact Hh0

/-! ## The run and the frame -/

set_option backward.isDefEq.respectTransparency.types false in
/-- Every weakly fair execution of @main terminates, and every final state has each array of the
    region at what the proof data says and every other unscoped buffer as the last host line leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_dma_around cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := hin m) (hout := hout m)

/-- The frame: the program runs to the end and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand

end
-- ==== Proof.KitIdeal.lean ====
/-
  @main around the one region, and what every run of the kernel body is stated over.

  The body copies a block of the packed weights out of HBM by a transfer of its own and waits for it
  inside the same grid point, so the region's resources are described over the algebra that also
  counts transfers. Here are, over that algebra: @main as the host lines before the region, the
  region, and the host line after it; each argument array found unchanged after that last line; each
  staged input found at its block at every point; and the frame's statement read off a run of the
  whole program.

  Then the vocabulary of the runs. The grid is (n, m, k) = (2, 16, 4), k fastest, so point t has
  k = t % 4 and m = (t / 4) % 16. Three branches: "k = 0" (the accumulator is reset), "m = 0" (the
  weight block is fetched and dequantized into the cache) and "k = 3" (the accumulator plus the bias is
  stored to the output block). The output window is written back exactly at the points with k = 3
  and is idle at the others.
-/
import proofs.«405182_j16458314678409_3_alg».proof.Proof.Gen.KernelIdeal.Frame
import proofs.«405182_j16458314678409_3_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region -/

/-- @main is the two reshapes, the region, and the reshape of the result. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operand the body copies out of HBM itself: the packed weights. -/
def H0 : Finset (Ref sig .tc) := {main_arg1}
theorem H0_sub : H0 ⊆ Pipeline.restRefs sig spec0 := by decide

/-- The reshape after the region touches the result arrays only, not the packed weights. -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl
    all_goals intro b hb; simp only [H0, Finset.mem_insert, Finset.mem_singleton] at hb
    all_goals rcases hb with rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)

/-- The reshape after the region writes no argument: each ends as launched. -/
theorem W_main_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg4 (dats : (p : Fin _) → (c : Dev nD) → Dat τ (Elt F) Unit ℕ (Pipeline.UD sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## Each staged input is found at its block -/

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame's statement from a run -/

/-- If the whole program runs to the state in which every array of the region holds what the proof
    data says and every other unscoped buffer is as the last host line leaves it, then every argument
    array ends as it was launched. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      (((h c).2 main_arg4 (Pipeline.mem_restRefs_of main_arg4 (by decide) (by decide))).trans (W_main_arg4 m dats c))⟩) h

/-! ## The three branches, decided over the 128 points -/

/-- "k = 0": the accumulator is reset. -/
abbrev condK0 (i : grid0.Coords) : Prop := (Scalar.cmpi .ne (Scalar.extui (Scalar.cmpi .eq (BitVec.ofNat 32 (i 2).val) 0#32)) 0#32) = 1#1
theorem hcondK0 : ∀ t : Fin cfg0.N, condK0 (grid0.coords t) ↔ t.val % 4 = 0 :=
  (by decide +kernel : ∀ t : Fin grid0.N, condK0 (grid0.coords t) ↔ t.val % 4 = 0)
/-- "m = 0": the weight block is fetched and dequantized. -/
abbrev condM0 (i : grid0.Coords) : Prop := k0_cond2 i = 1#1
theorem hcondM0 : ∀ t : Fin cfg0.N, condM0 (grid0.coords t) ↔ t.val % 64 < 4 :=
  (by decide +kernel : ∀ t : Fin grid0.N, condM0 (grid0.coords t) ↔ t.val % 64 < 4)
/-- "k = 3": the output block is stored. -/
abbrev condK3 (i : grid0.Coords) : Prop := k0_cond3 i = 1#1
theorem hcondK3 : ∀ t : Fin cfg0.N, condK3 (grid0.coords t) ↔ t.val % 4 = 3 :=
  (by decide +kernel : ∀ t : Fin grid0.N, condK3 (grid0.coords t) ↔ t.val % 4 = 3)

/-- The staged inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from k = 3 the output window is idle and is not written back. -/
theorem idleAt0_4 : ∀ t : Fin cfg0.N, ¬condK3 (grid0.coords t) → cfg0.idle 4 (grid0.coords t) = true := by decide +kernel
theorem noFlush0_4 : ∀ t : Fin cfg0.N, ¬condK3 (grid0.coords t) → (cfg0.win 4).flush t = false := by decide +kernel
/-- At k = 3 it is live. -/
theorem liveAt0_4 : ∀ t : Fin cfg0.N, condK3 (grid0.coords t) → cfg0.idle 4 (grid0.coords t) = false := by decide +kernel

/-! ## What the runs are stated over -/

/-- One staging buffer of the output window, through which its contents are stated. -/
abbrev VO0_4 : View sig .tc .vmem S512x2048 .f32 := (Memref.whole cc0_stg4_0 : Memref sig .tc .vmem S512x2048 .f32).view
/-- Each window's current staging memref at point `t`, and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x2048 .f32 := win0_4.stage (cfg0.slots t 4)
abbrev hs0_4 (t : Fin cfg0.N) : (ms0_4 t).IsWhole := hstage0_4 ((cfg0.slots t 4).cast nbuf0_4)
/-- The scratch buffers: the accumulator, the dequantized-weight cache, the landing buffer of the copy. -/
abbrev scAcc : Memref sig .tc .vmem S512x2048 .f32 := Memref.whole cc0_scratch0
abbrev scW : Memref sig .tc .vmem S4096x2048 .bf16 := Memref.whole cc0_scratch1
abbrev scQ : Memref sig .tc .vmem S128x2048 .i32 := Memref.whole cc0_scratch2
/-- The packed weights in HBM, whole. -/
abbrev hbQ : Memref sig .tc .hbm S512x4096 .i32 := Memref.whole main_arg1
/-- A memref's buffer on core `c`: its contents type, and it held whole at `f`. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own transfer semaphore: cell 10 of the pool, no window's. -/
abbrev osem0 : Fin 1 → SemLoc sig := fun j => (![SemLoc.dma 10] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0) := by
  rw [Pipeline.ownSems0_eq_of_list c osem0 [0] (by decide) (by decide)]; rfl
theorem hbmPts0_eq (c : Dev nD) :
    (bigSep H0 (fun b => ((c : Thread nD τ).loc b) ↦{fullShare} V m c b) : sProp 𝕄) = iprop(hbPt0 c hbQ (V m c main_arg1)) := by
  rw [BI.bigSep_eq_bigSepL_of_eq [main_arg1] (by decide) (by decide)]; rfl

/-- The region's invariant, conjunct by conjunct: the three scratch buffers at some contents, the
    generator register at some state, the transfer semaphore at zero, the packed weights in HBM as
    launched. -/
theorem PhiD0_eq (c : Dev nD) :
    (Pipeline.ΦD osem0 spec0 H0 (V m) c : sProp 𝕄)
      = iprop(iprop((∃ d, owns (c : Thread nD τ) scAcc fullShare d) ∗ (∃ d, owns (c : Thread nD τ) scW fullShare d) ∗ (∃ d, owns (c : Thread nD τ) scQ fullShare d)) ∗ (∃ r, prngReg c r) ∗ iprop(semVal ((c : Thread nD τ), SemLoc.dma 10) 0) ∗ iprop(hbPt0 c hbQ (V m c main_arg1))) := by
  rw [Pipeline.ΦD_eq, scopedRest0_eq, ownSems00_eq, hbmPts0_eq]; simp only [scAcc, scW, scQ, owns_whole]; try rfl

end Cert.KernelIdeal.Hand

end
-- ==== Proof.GroupsIdeal.lean ====
/-
  The eight groups of a weight block, named as one function of the group number.

  A block of the dequantized-weight cache is 1024 rows: eight groups of 128. The body computes group
  `g` from rows `16 g … 16 g + 15` of the fetched packed words (each word giving eight consecutive
  rows), row `g` of the eight scale rows and row `g` of the eight zero-point rows that belong to the
  block. The printed body spells the eight computations apart; here they are one function, at any
  float instance.
-/
import proofs.«405182_j16458314678409_3_alg».proof.Proof.Gen.KernelIdeal.Skeleton

noncomputable section

namespace Cert.KernelIdeal.Hand

open Idealize.ShloMosaic Cert.KernelIdeal Cert.KernelIdeal.Gen

variable {F : FTy → Type} [FloatOps F]

/-- Group `g` of a weight block, from the block's packed words `q`, its scale rows `s` and its
    zero-point rows `z`. -/
def grp (g : Fin 8) (q : Vec F S128x2048 .i32) (s z : Vec F S8x2048 .f32) : FVec F S128x2048 .bf16 :=
  match g with
  | ⟨0, _⟩ => k0_pay6 q s z
  | ⟨1, _⟩ => k0_pay8 s z (k0_pay7 (F := F) q)
  | ⟨2, _⟩ => k0_pay9 q s z k0_pay5
  | ⟨3, _⟩ => k0_pay12 (k0_pay10 z) (k0_pay11 q s k0_pay5)
  | ⟨4, _⟩ => k0_pay13 q s z k0_pay5
  | ⟨5, _⟩ => k0_pay15 (k0_pay14 q s z k0_pay5)
  | ⟨6, _⟩ => k0_pay16 q s z k0_pay5
  | ⟨7, _⟩ => k0_pay2 (k0_pay17 q s z k0_pay5)
  | ⟨n + 8, h⟩ => absurd h (by omega)

end Cert.KernelIdeal.Hand

end
-- ==== Proof.BlocksIdeal.lean ====
/-
  The weight cache, block by block.

  The cache is 4096 rows by 2048 columns: four blocks of 1024 rows, one per value of the grid's
  last coordinate k. At a point with m = 0 the body overwrites block k by eight stores of 128 rows
  each, group g going to rows `1024 k + 128 g …`. Read back through the box of block k, those
  eight slabs are one function of the block's index, `wblk`: row `r` is row `r % 128` of group
  `r / 128` (`slabs_read`). Read through the box of another block they are invisible
  (`slabs_miss`). Both are arithmetic on the row coordinate alone: a slab holds whole rows.

  The point number t runs over the grid (n, m, k) = (2, 16, 4) with k fastest, so k = t % 4, and the
  offsets the body computes from its coordinates are, in closed form, `1024 k + 128 g` for a slab and
  `1024 k` for the block that is read for the product.
-/
import proofs.«405182_j16458314678409_3_alg».proof.Proof.KitIdeal
import proofs.«405182_j16458314678409_3_alg».proof.Proof.GroupsIdeal
import Idealize.ShloMosaic.Lib.WritesUnit
import Idealize.ShloMosaic.Lib.ValueIdx

set_option maxRecDepth 16384

noncomputable section

namespace Cert.KernelIdeal.Hand

open Idealize.ShloMosaic Idealize.ShloMosaic.ValueIdx Idealize.SL.Sem
open Cert.KernelIdeal Cert.KernelIdeal.Gen

variable {F : FTy → Type} [FloatOps F]

/-! ## The offsets in closed form, and in range at every point -/

/-- The block read for the product starts at row `1024 k`. -/
theorem off4_eq : ∀ t : Fin cfg0.N, k0_off4 (grid0.coords t) = ![(t.val % 4) * 1024, 0] :=
  (by decide +kernel : ∀ t : Fin grid0.N, k0_off4 (grid0.coords t) = ![(t.val % 4) * 1024, 0])
/-- Slab `g` of the block starts at row `1024 k + 128 g`. -/
theorem off3_eq : ∀ t : Fin cfg0.N, ∀ g : Fin 8, k0_off3 (grid0.coords t) (BitVec.ofNat 32 (g.val * 128)) = ![(t.val % 4) * 1024 + g.val * 128, 0] :=
  (by decide +kernel : ∀ t : Fin grid0.N, ∀ g : Fin 8, k0_off3 (grid0.coords t) (BitVec.ofNat 32 (g.val * 128)) = ![(t.val % 4) * 1024 + g.val * 128, 0])
/-- A slab lies inside the cache at every point (the branch condition is not needed for that). -/
theorem off3_inb : ∀ t : Fin cfg0.N, ∀ g : Fin 8, ∀ a, k0_off3 (grid0.coords t) (BitVec.ofNat 32 (g.val * 128)) a + S128x2048.size a ≤ S4096x2048.size a :=
  (by decide +kernel : ∀ t : Fin grid0.N, ∀ g : Fin 8, ∀ a, k0_off3 (grid0.coords t) (BitVec.ofNat 32 (g.val * 128)) a + S128x2048.size a ≤ S4096x2048.size a)

/-! ## The block as one function, the slabs, the boxes -/

/-- A weight block as one function of its index: row `r` is row `r % 128` of group `r / 128`. -/
def wblk (q : Vec F S128x2048 .i32) (s z : Vec F S8x2048 .f32) : Vec F S1024x2048 .bf16 :=
  fun y => grp (⟨(y 0).val / 128, by have := idx2_lt0 y; omega⟩ : Fin 8) q s z
    (ix2 (⟨(y 0).val % 128, Nat.mod_lt _ (by norm_num)⟩ : Fin 128) (⟨(y 1).val, idx2_lt1 y⟩ : Fin 2048))

/-- Slab `g` written at point `t`: rows `1024 k + 128 g …` of the cache, holding group `g`. -/
def slab (t : Fin cfg0.N) (g : Fin 8) (q : Vec F S128x2048 .i32) (s z : Vec F S8x2048 .f32) : View.Piece (Elt F) S4096x2048 .bf16 :=
  ⟨Rect.unit (s := S4096x2048) (k0_off3 (grid0.coords t) (BitVec.ofNat 32 (g.val * 128))) S128x2048.size (off3_inb t g), grp g q s z⟩

/-- The eight slabs of a point, newest first: the order in which the stores are listed. -/
def slabs (t : Fin cfg0.N) (q : Vec F S128x2048 .i32) (s z : Vec F S8x2048 .f32) : List (View.Piece (Elt F) S4096x2048 .bf16) :=
  [slab t 7 q s z, slab t 6 q s z, slab t 5 q s z, slab t 4 q s z, slab t 3 q s z, slab t 2 q s z, slab t 1 q s z, slab t 0 q s z]

/-- The box of the block the body reads at point `t`: rows `1024 k …`, every column. -/
abbrev boxAt (t : Fin cfg0.N) : LoadRect S4096x2048 :=
  (Rect.unit (s := S4096x2048) (k0_off4 (grid0.coords t)) S1024x2048.size (k0_off4_inb (grid0.coords t))).toLoadRect

/-! ## The slabs read back -/

section Tiling

/-- The eight slabs are eight tiles of one size, tile `g` at rows `1024 k + 128 g …`, listed newest first. -/
theorem slabs_eq_tiles (t : Fin cfg0.N) (q : Vec F S128x2048 .i32) (s z : Vec F S8x2048 .f32) :
    slabs t q s z
      = View.tilePieces (Val := Elt F) (s := S4096x2048) (e := .bf16) S128x2048.size
          (fun g : Fin 8 => k0_off3 (grid0.coords t) (BitVec.ofNat 32 (g.val * 128))) (off3_inb t)
          (fun g : Fin 8 => grp g q s z) 8 (Nat.le_refl 8) := rfl

/-- An index that on axis `ax` misses every tile reads what the buffer held before the tiles were stored. -/
theorem read_tiles_of_miss {σ : RefSig} {κ : Kind} {sp : Space} {S : Shape} {e : EltTy} {Val : EltTy → Type} {NT : ℕ}
    (v : View σ κ sp S e) (f : v.ty.Contents Val) (tsz : Fin S.rank → ℕ) (off : Fin NT → Fin S.rank → ℕ)
    (inb : ∀ i a, off i a + tsz a ≤ S.size a) (P : Fin NT → (⟨S.rank, tsz⟩ : Shape).Idx → Val e) (n : ℕ) (hn : n ≤ NT)
    (y : S.Idx) (ax : Fin S.rank) (hdis : ∀ i : Fin NT, (y ax).val < off i ax ∨ off i ax + tsz ax ≤ (y ax).val) :
    v.read Val (v.writes Val f (View.tilePieces tsz off inb P n hn)) y = v.read Val f y := by
  induction n with
  | zero => rfl
  | succ n ih =>
    rw [View.tilePieces_succ,
      View.read_writes_cons_unit_of_not_mem v f (inb ⟨n, hn⟩) (P ⟨n, hn⟩) _ y rfl ax (hdis ⟨n, hn⟩)]
    exact ih (Nat.le_of_succ_le hn)

/-- Row `r` of the box of block `k` is row `1024 k + r` of the cache. -/
theorem boxAt_idx_row (t : Fin cfg0.N) (j : (boxAt t).shape.Idx) :
    ((boxAt t).idx j 0).val = t.val % 4 * 1024 + (j 0).val := by
  show k0_off4 (grid0.coords t) 0 + 1 * (j 0).val = t.val % 4 * 1024 + (j 0).val
  rw [off4_eq t, Nat.one_mul]
  rfl

/-- Column `c` of the box of a block is column `c` of the cache. -/
theorem boxAt_idx_col (t : Fin cfg0.N) (j : (boxAt t).shape.Idx) :
    ((boxAt t).idx j 1).val = (j 1).val := by
  show k0_off4 (grid0.coords t) 1 + 1 * (j 1).val = (j 1).val
  rw [off4_eq t, Nat.one_mul]
  exact Nat.zero_add _

variable {κ : Kind} {sp : Space} (v : View sig κ sp S4096x2048 .bf16) (f : v.ty.Contents (Elt F))

/-- Read through the box of the block they fill, the eight slabs are the block, whatever the cache held
    before. -/
theorem slabs_read (t : Fin cfg0.N) (q : Vec F S128x2048 .i32) (s z : Vec F S8x2048 .f32) :
    v.readAt (Elt F) (boxAt t) (v.writes (Elt F) f (slabs t q s z)) = wblk q s z := by
  funext j
  -- the cache index under box index `j`: row `1024 k + j 0`, column `j 1`
  have hj0 : (j 0).val < 1024 := (j 0).isLt
  have hj1 : (j 1).val < 2048 := (j 1).isLt
  have hy0 := boxAt_idx_row t j
  have hy1 := boxAt_idx_col t j
  -- the one slab that holds that row is `g = j 0 / 128`, at local row `j 0 % 128`
  have hg : (j 0).val / 128 < 8 := by omega
  show v.read (Elt F) (v.writes (Elt F) f (slabs t q s z)) ((boxAt t).idx j) = wblk q s z j
  rw [slabs_eq_tiles]
  refine (View.read_tilePieces v f S128x2048.size _ (off3_inb t) (fun g : Fin 8 => grp g q s z) 8 (Nat.le_refl 8)
    ((boxAt t).idx j) ⟨(j 0).val / 128, hg⟩ hg
    (ix2 (⟨(j 0).val % 128, Nat.mod_lt _ (by norm_num)⟩ : Fin 128) (⟨(j 1).val, hj1⟩ : Fin 2048)) ?_ 0 ?_).trans ?_
  · -- the index is the slab's offsets plus the local position
    refine Fin.forall_fin_two.mpr ⟨?_, ?_⟩
    · rw [off3_eq t ⟨(j 0).val / 128, hg⟩, hy0]
      show t.val % 4 * 1024 + (j 0).val = t.val % 4 * 1024 + (j 0).val / 128 * 128 + (j 0).val % 128
      omega
    · rw [off3_eq t ⟨(j 0).val / 128, hg⟩, hy1]
      show (j 1).val = 0 + (j 1).val
      omega
  · -- every other slab misses the row
    intro g' hne
    have hg' : g'.val ≠ (j 0).val / 128 := fun h => hne (Fin.ext h)
    have := g'.isLt
    rw [off3_eq t g', hy0]
    show t.val % 4 * 1024 + (j 0).val < t.val % 4 * 1024 + g'.val * 128
      ∨ t.val % 4 * 1024 + g'.val * 128 + 128 ≤ t.val % 4 * 1024 + (j 0).val
    omega
  · -- the payload of that slab at that position is the block at `j`
    rfl

/-- Read through the box of another block, the eight slabs are invisible: the cache reads as before. -/
theorem slabs_miss (t t' : Fin cfg0.N) (h : t'.val % 4 ≠ t.val % 4) (q : Vec F S128x2048 .i32) (s z : Vec F S8x2048 .f32) :
    v.readAt (Elt F) (boxAt t') (v.writes (Elt F) f (slabs t q s z)) = v.readAt (Elt F) (boxAt t') f := by
  funext j
  have hj0 : (j 0).val < 1024 := (j 0).isLt
  have hy0 := boxAt_idx_row t' j
  show v.read (Elt F) (v.writes (Elt F) f (slabs t q s z)) ((boxAt t').idx j) = v.read (Elt F) f ((boxAt t').idx j)
  rw [slabs_eq_tiles]
  -- rows of another block lie below `1024 k` or from `1024 k + 1024` on: outside every slab
  refine read_tiles_of_miss v f S128x2048.size _ (off3_inb t) (fun g : Fin 8 => grp g q s z) 8 (Nat.le_refl 8)
    ((boxAt t').idx j) 0 fun g => ?_
  have := g.isLt
  rw [off3_eq t g, hy0]
  show t'.val % 4 * 1024 + (j 0).val < t.val % 4 * 1024 + g.val * 128
    ∨ t.val % 4 * 1024 + g.val * 128 + 128 ≤ t'.val % 4 * 1024 + (j 0).val
  omega

/-- Two points with the same k read the same rows. -/
theorem readAt_boxAt_congr (t t' : Fin cfg0.N) (h : t'.val % 4 = t.val % 4) :
    v.readAt (Elt F) (boxAt t') f = v.readAt (Elt F) (boxAt t) f := by
  funext j
  show v.read (Elt F) f ((boxAt t').idx j) = v.read (Elt F) f ((boxAt t).idx j)
  -- equal offsets, so the same cache index on each axis
  congr 1
  funext a
  apply Fin.ext
  show k0_off4 (grid0.coords t') a + 1 * (j a).val = k0_off4 (grid0.coords t) a + 1 * (j a).val
  rw [off4_eq t', off4_eq t, h]

end Tiling

end Cert.KernelIdeal.Hand

end
-- ==== Proof.PointIdeal.lean ====
/-
  What the scratch buffers hold after each grid point, as functions of the argument arrays.

  Point t of the grid (n, m, k) = (2, 16, 4), k fastest, has k = t % 4, m = (t / 4) % 16, n = t / 64.
  The weight block (n, k) is computed at the point with m = 0 of its (n, k), from the packed words
  copied in there and from rows `8 k … 8 k + 7` of the scale and zero-point blocks of column half n;
  every later point of the same (n, k) finds it in the cache. The accumulator after point t is the
  accumulator after point t − 1 (or the zero block, when k = 0) plus the product of the activation
  block of the point with that weight block; the output block, stored when k = 3, is the
  accumulator plus the bias row.

  The cache itself is only partly determined: rows that no point has filled yet hold whatever they held
  at launch. So it is described by a property, not by a term: after point t, every block (n, k') that
  has been filled — all four once m > 0, blocks 0 … k while m = 0 — reads as its specification.
-/
import proofs.«405182_j16458314678409_3_alg».proof.Proof.BlocksIdeal

set_option maxRecDepth 16384

noncomputable section

namespace Cert.KernelIdeal.Hand

open Idealize.ShloMosaic Idealize.ShloMosaic.ValueIdx Idealize.SL.Sem
open Cert.KernelIdeal Cert.KernelIdeal.Gen

variable {F : FTy → Type} [FloatOps F]

/-! ## The copy's source and the scale rows, in range at every point and in closed form -/

theorem off1_inb : ∀ t : Fin cfg0.N, ∀ a, k0_off1 (grid0.coords t) a + S128x2048.size a ≤ S512x4096.size a :=
  (by decide +kernel : ∀ t : Fin grid0.N, ∀ a, k0_off1 (grid0.coords t) a + S128x2048.size a ≤ S512x4096.size a)
theorem off2_inb : ∀ t : Fin cfg0.N, ∀ a, k0_off2 (grid0.coords t) a + S8x2048.size a ≤ S32x2048.size a :=
  (by decide +kernel : ∀ t : Fin grid0.N, ∀ a, k0_off2 (grid0.coords t) a + S8x2048.size a ≤ S32x2048.size a)
/-- The copied words are rows `128 k …`, columns `2048 n …` of the packed weights. -/
theorem off1_eq : ∀ t : Fin cfg0.N, k0_off1 (grid0.coords t) = ![(t.val % 4) * 128, (t.val / 64) * 2048] :=
  (by decide +kernel : ∀ t : Fin grid0.N, k0_off1 (grid0.coords t) = ![(t.val % 4) * 128, (t.val / 64) * 2048])
/-- The scale and zero-point rows of the block are rows `8 k …` of their staged blocks. -/
theorem off2_eq : ∀ t : Fin cfg0.N, k0_off2 (grid0.coords t) = ![(t.val % 4) * 8, 0] :=
  (by decide +kernel : ∀ t : Fin grid0.N, k0_off2 (grid0.coords t) = ![(t.val % 4) * 8, 0])

/-- The words the copy brings at point `t`, of packed weights held at `fh`. -/
def qAt (c : Dev nD) (fh : HbBuf0 (F := F) c hbQ) (t : Fin cfg0.N) : Vec F S128x2048 .i32 :=
  ReadAs.same.apply (View.read (Elt F) (hbQ.slice (Rect.unit (s := S512x4096) (k0_off1 (grid0.coords t)) S128x2048.size (off1_inb t)) (fun _ => rfl)).view fh)
/-- The eight rows of a staged scale (or zero-point) block that belong to the weight block of point `t`. -/
abbrev rows8 (t : Fin cfg0.N) : Rect S32x2048 := Rect.unit (s := S32x2048) (k0_off2 (grid0.coords t)) S8x2048.size (off2_inb t)
def sAt (x : Vec F S32x2048 .f32) (t : Fin cfg0.N) : Vec F S8x2048 .f32 := View.ld x (rows8 t)
/-- The rows of the cache the product reads at point `t`, as a rectangle. -/
abbrev boxR (t : Fin cfg0.N) : Rect S4096x2048 := Rect.unit (s := S4096x2048) (k0_off4 (grid0.coords t)) S1024x2048.size (k0_off4_inb (grid0.coords t))

variable (m : (ℓ : Loc nD τ sig) → Buf (Elt F) ℓ) (c : Dev nD)

/-! ## The blocks of a point, by their literal types -/

abbrev xb (t : Fin cfg0.N) : Vec F S512x1024 .f32 := iblk m c 0 t
abbrev sb (t : Fin cfg0.N) : Vec F S32x2048 .f32 := iblk m c 1 t
abbrev zb (t : Fin cfg0.N) : Vec F S32x2048 .f32 := iblk m c 2 t
abbrev bb (t : Fin cfg0.N) : Vec F S1x2048 .f32 := iblk m c 3 t
/-- The packed weights as the region finds them. -/
abbrev qarr : HbBuf0 (F := F) c hbQ := V m c main_arg1

/-! ## The specification, point by point -/

/-- The point with m = 0 of the same (n, k). -/
def rep (t : Fin cfg0.N) : Fin cfg0.N :=
  ⟨t.val / 64 * 64 + t.val % 4, by have h := lt_of_lt_of_eq t.isLt (show cfg0.N = 128 from N_0); show _ < grid0.N; rw [N_0]; omega⟩

/-- The weight block computed at point `t` (meaningful where m = 0). -/
def wAt (t : Fin cfg0.N) : Vec F S1024x2048 .bf16 := wblk (qAt c (qarr m c) t) (sAt (sb m c t) t) (sAt (zb m c t) t)
/-- The weight block (n, k) of point `t`. -/
def wSpec (t : Fin cfg0.N) : Vec F S1024x2048 .bf16 := wAt m c (rep t)

/-- The accumulator after point `n`. -/
def accAt : (n : ℕ) → n < cfg0.N → Vec F S512x2048 .f32
  | 0, h => k0_pay3 (wSpec m c ⟨0, h⟩) (xb m c ⟨0, h⟩) k0_pay1
  | n + 1, h => k0_pay3 (wSpec m c ⟨n + 1, h⟩) (xb m c ⟨n + 1, h⟩) (if (n + 1) % 4 = 0 then k0_pay1 else accAt n (Nat.lt_of_succ_lt h))

/-- The output block stored at point `t` (where k = 3). -/
def outAt (t : Fin cfg0.N) : Vec F S512x2048 .f32 := k0_pay4 (accAt m c t.val t.isLt) (bb m c t)

/-- After point `t` the cache, reading `wc`, has every block filled so far in this column half at its
    specification. -/
def WInv (t : Fin cfg0.N) (wc : Vec F S4096x2048 .bf16) : Prop :=
  ∀ t' : Fin cfg0.N, t'.val / 64 = t.val / 64 → (4 ≤ t.val % 64 ∨ t'.val % 4 ≤ t.val % 4) → View.ld wc (boxR t') = wSpec m c t'

theorem accAt_zero (h : 0 < cfg0.N) : accAt m c 0 h = k0_pay3 (wSpec m c ⟨0, h⟩) (xb m c ⟨0, h⟩) k0_pay1 := rfl
theorem accAt_reset (t : Fin cfg0.N) (hk : t.val % 4 = 0) : accAt m c t.val t.isLt = k0_pay3 (wSpec m c t) (xb m c t) k0_pay1 := by
  obtain ⟨n, hn⟩ := t
  cases n with
  | zero => rfl
  | succ n => show k0_pay3 _ _ (if (n + 1) % 4 = 0 then _ else _) = _; rw [if_pos hk]
theorem accAt_step (t : Fin cfg0.N) (hk : t.val % 4 ≠ 0) :
    accAt m c t.val t.isLt = k0_pay3 (wSpec m c t) (xb m c t) (accAt m c (t.val - 1) (Nat.lt_of_le_of_lt (Nat.sub_le _ _) t.isLt)) := by
  obtain ⟨n, hn⟩ := t
  cases n with
  | zero => exact absurd (Nat.zero_mod _) hk
  | succ n => show k0_pay3 _ _ (if (n + 1) % 4 = 0 then _ else _) = _; rw [if_neg hk]; rfl

end Cert.KernelIdeal.Hand

end
-- ==== Proof.RunAIdeal.lean ====
/-
  The kernel body at a grid point with k = 0 and m = 0: the accumulator is reset, the weight block is fetched and dequantized, one product is added; the output block is left alone.

  The body is run on whole staging memrefs holding the blocks of the point, the three scratch buffers
  holding named contents, its transfer semaphore at zero and the packed weights in HBM. What it
  leaves in the output block, the accumulator and the weight cache is recorded as the lists of stores
  (newest first) that the run itself finds; everything else comes back as it went in.
-/
import proofs.«405182_j16458314678409_3_alg».proof.Proof.KitIdeal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The stores the body leaves in the output block (`LO`), the accumulator (`LA`) and the weight cache
    (`LW`) at such a point, with the proof that the body runs from the resources described above to a
    state holding exactly them. -/
noncomputable def runA (c : Dev nD) (t : Fin cfg0.N) (arg3 : Memref sig .tc .vmem S512x1024 .f32) (harg3 : arg3.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S4096x2048 .bf16) (harg10 : arg10.IsWhole) (arg11 : Memref sig .tc .vmem S128x2048 .i32) (harg11 : arg11.IsWhole)
    (h1 : condK0 (grid0.coords t)) (h2 : condM0 (grid0.coords t)) (h3 : ¬condK3 (grid0.coords t))
    (x0 : Vec F S512x1024 .f32) (x1 x2 : Vec F S32x2048 .f32) (x3 : Vec F S1x2048 .f32)
    (xa : Vec F S512x2048 .f32) (xw : Vec F S4096x2048 .bf16) (fh0 : HbBuf0 (F := F) c hbQ) :
    Σ' (LO : List (View.Piece (Elt F) S512x2048 .f32)) (LA : List (View.Piece (Elt F) S512x2048 .f32)),
      { LW : List (View.Piece (Elt F) S4096x2048 .bf16) //
        ∀ (xi4 : Vec F S512x2048 .f32) (W : Waits sig Unit) (K : PUnit → sProp 𝕄),
          iprop(owns (c : Thread nD τ) arg3 fullShare x0 ∗ owns (c : Thread nD τ) arg5 fullShare x1 ∗ owns (c : Thread nD τ) arg6 fullShare x2 ∗ owns (c : Thread nD τ) arg7 fullShare x3
              ∗ owns (c : Thread nD τ) arg8 fullShare xi4 ∗ owns (c : Thread nD τ) arg9 fullShare xa ∗ owns (c : Thread nD τ) arg10 fullShare xw ∗ (∃ d, owns (c : Thread nD τ) arg11 fullShare d)
              ∗ semVal ((c : Thread nD τ), SemLoc.dma 10) 0 ∗ hbPt0 c hbQ fh0 ∗ owes (c : Thread nD τ) 0 W
              ∗ (iprop(owns (c : Thread nD τ) arg3 fullShare x0 ∗ owns (c : Thread nD τ) arg5 fullShare x1 ∗ owns (c : Thread nD τ) arg6 fullShare x2 ∗ owns (c : Thread nD τ) arg7 fullShare x3
                  ∗ owns (c : Thread nD τ) arg8 fullShare xi4
                  ∗ (∃ f, arg9.view.loc (c : Thread nD τ) ↦[arg9.view.set]{fullShare} arg9.view.writes (Elt F) f LA)
                  ∗ (arg10.view.loc (c : Thread nD τ) ↦[arg10.view.set]{fullShare} arg10.view.writes (Elt F) (harg10.unread xw) LW)
                  ∗ (∃ d, owns (c : Thread nD τ) arg11 fullShare d)
                  ∗ semVal ((c : Thread nD τ), SemLoc.dma 10) 0 ∗ hbPt0 c hbQ fh0 ∗ (∃ W', owes (c : Thread nD τ) 0 W')) -∗ K ⟨⟩))
            ⊢ wp frame (wpE (defs₀ (F := F)) Variants.none c none) Set.univ (cc0__fused_kernel (grid0.coords t) arg3 harg3 (Memref.whole main_arg1) (Memref.isWhole_whole _) arg5 harg5 arg6 harg6 arg7 harg7 arg8 harg8 arg9 harg9 arg10 harg10 arg11 harg11 cc0_scratch3) K } := by
  refine ⟨[], ?_, ?_, fun xi4 W K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fa, %hfa, HA⟩, ⟨%fw, %hfw, HW⟩, ⟨%dq, %fq, -, HQ⟩, Hq0, Hh0, Ho, Hk⟩
    obtain rfl := harg3.eq_unread hf0; obtain rfl := harg5.eq_unread hf1; obtain rfl := harg6.eq_unread hf2; obtain rfl := harg7.eq_unread hf3
    obtain rfl := harg8.eq_unread hf4; obtain rfl := harg9.eq_unread hfa; obtain rfl := harg10.eq_unread hfw
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [HA]; · iexists _; iexact HA
    isplitl [HW]; · iexact HW
    isplitl [HQ]
    · iexists _, _; isplitr; swap; · iexact HQ
      ipureintro; rfl
    isplitl [Hq0]; · iexact Hq0
    isplitl [Hh0]; · iexact Hh0
    iexists _; iexact Ho

end Cert.KernelIdeal.Hand

end
-- ==== Proof.RunBIdeal.lean ====
/-
  The kernel body at a grid point with 0 < k < 3 and m = 0: the weight block is fetched and dequantized and one product is added to the accumulator; the output block is left alone.

  The body is run on whole staging memrefs holding the blocks of the point, the three scratch buffers
  holding named contents, its transfer semaphore at zero and the packed weights in HBM. What it
  leaves in the output block, the accumulator and the weight cache is recorded as the lists of stores
  (newest first) that the run itself finds; everything else comes back as it went in.
-/
import proofs.«405182_j16458314678409_3_alg».proof.Proof.KitIdeal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The stores the body leaves in the output block (`LO`), the accumulator (`LA`) and the weight cache
    (`LW`) at such a point, with the proof that the body runs from the resources described above to a
    state holding exactly them. -/
noncomputable def runB (c : Dev nD) (t : Fin cfg0.N) (arg3 : Memref sig .tc .vmem S512x1024 .f32) (harg3 : arg3.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S4096x2048 .bf16) (harg10 : arg10.IsWhole) (arg11 : Memref sig .tc .vmem S128x2048 .i32) (harg11 : arg11.IsWhole)
    (h1 : ¬condK0 (grid0.coords t)) (h2 : condM0 (grid0.coords t)) (h3 : ¬condK3 (grid0.coords t))
    (x0 : Vec F S512x1024 .f32) (x1 x2 : Vec F S32x2048 .f32) (x3 : Vec F S1x2048 .f32)
    (xa : Vec F S512x2048 .f32) (xw : Vec F S4096x2048 .bf16) (fh0 : HbBuf0 (F := F) c hbQ) :
    Σ' (LO : List (View.Piece (Elt F) S512x2048 .f32)) (LA : List (View.Piece (Elt F) S512x2048 .f32)),
      { LW : List (View.Piece (Elt F) S4096x2048 .bf16) //
        ∀ (xi4 : Vec F S512x2048 .f32) (W : Waits sig Unit) (K : PUnit → sProp 𝕄),
          iprop(owns (c : Thread nD τ) arg3 fullShare x0 ∗ owns (c : Thread nD τ) arg5 fullShare x1 ∗ owns (c : Thread nD τ) arg6 fullShare x2 ∗ owns (c : Thread nD τ) arg7 fullShare x3
              ∗ owns (c : Thread nD τ) arg8 fullShare xi4 ∗ owns (c : Thread nD τ) arg9 fullShare xa ∗ owns (c : Thread nD τ) arg10 fullShare xw ∗ (∃ d, owns (c : Thread nD τ) arg11 fullShare d)
              ∗ semVal ((c : Thread nD τ), SemLoc.dma 10) 0 ∗ hbPt0 c hbQ fh0 ∗ owes (c : Thread nD τ) 0 W
              ∗ (iprop(owns (c : Thread nD τ) arg3 fullShare x0 ∗ owns (c : Thread nD τ) arg5 fullShare x1 ∗ owns (c : Thread nD τ) arg6 fullShare x2 ∗ owns (c : Thread nD τ) arg7 fullShare x3
                  ∗ owns (c : Thread nD τ) arg8 fullShare xi4
                  ∗ (∃ f, arg9.view.loc (c : Thread nD τ) ↦[arg9.view.set]{fullShare} arg9.view.writes (Elt F) f LA)
                  ∗ (arg10.view.loc (c : Thread nD τ) ↦[arg10.view.set]{fullShare} arg10.view.writes (Elt F) (harg10.unread xw) LW)
                  ∗ (∃ d, owns (c : Thread nD τ) arg11 fullShare d)
                  ∗ semVal ((c : Thread nD τ), SemLoc.dma 10) 0 ∗ hbPt0 c hbQ fh0 ∗ (∃ W', owes (c : Thread nD τ) 0 W')) -∗ K ⟨⟩))
            ⊢ wp frame (wpE (defs₀ (F := F)) Variants.none c none) Set.univ (cc0__fused_kernel (grid0.coords t) arg3 harg3 (Memref.whole main_arg1) (Memref.isWhole_whole _) arg5 harg5 arg6 harg6 arg7 harg7 arg8 harg8 arg9 harg9 arg10 harg10 arg11 harg11 cc0_scratch3) K } := by
  refine ⟨[], ?_, ?_, fun xi4 W K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fa, %hfa, HA⟩, ⟨%fw, %hfw, HW⟩, ⟨%dq, %fq, -, HQ⟩, Hq0, Hh0, Ho, Hk⟩
    obtain rfl := harg3.eq_unread hf0; obtain rfl := harg5.eq_unread hf1; obtain rfl := harg6.eq_unread hf2; obtain rfl := harg7.eq_unread hf3
    obtain rfl := harg8.eq_unread hf4; obtain rfl := harg9.eq_unread hfa; obtain rfl := harg10.eq_unread hfw
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [HA]; · iexists _; iexact HA
    isplitl [HW]; · iexact HW
    isplitl [HQ]
    · iexists _, _; isplitr; swap; · iexact HQ
      ipureintro; rfl
    isplitl [Hq0]; · iexact Hq0
    isplitl [Hh0]; · iexact Hh0
    iexists _; iexact Ho

end Cert.KernelIdeal.Hand

end
-- ==== Proof.RunCIdeal.lean ====
/-
  The kernel body at a grid point with k = 3 and m = 0: the weight block is fetched and dequantized, the last product is added, and the accumulator plus the bias is stored to the output block.

  The body is run on whole staging memrefs holding the blocks of the point, the three scratch buffers
  holding named contents, its transfer semaphore at zero and the packed weights in HBM. What it
  leaves in the output block, the accumulator and the weight cache is recorded as the lists of stores
  (newest first) that the run itself finds; everything else comes back as it went in.
-/
import proofs.«405182_j16458314678409_3_alg».proof.Proof.KitIdeal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The stores the body leaves in the output block (`LO`), the accumulator (`LA`) and the weight cache
    (`LW`) at such a point, with the proof that the body runs from the resources described above to a
    state holding exactly them. -/
noncomputable def runC (c : Dev nD) (t : Fin cfg0.N) (arg3 : Memref sig .tc .vmem S512x1024 .f32) (harg3 : arg3.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S4096x2048 .bf16) (harg10 : arg10.IsWhole) (arg11 : Memref sig .tc .vmem S128x2048 .i32) (harg11 : arg11.IsWhole)
    (h1 : ¬condK0 (grid0.coords t)) (h2 : condM0 (grid0.coords t)) (h3 : condK3 (grid0.coords t))
    (x0 : Vec F S512x1024 .f32) (x1 x2 : Vec F S32x2048 .f32) (x3 : Vec F S1x2048 .f32)
    (xa : Vec F S512x2048 .f32) (xw : Vec F S4096x2048 .bf16) (fh0 : HbBuf0 (F := F) c hbQ) :
    Σ' (LO : List (View.Piece (Elt F) S512x2048 .f32)) (LA : List (View.Piece (Elt F) S512x2048 .f32)),
      { LW : List (View.Piece (Elt F) S4096x2048 .bf16) //
        ∀ (xi4 : Vec F S512x2048 .f32) (W : Waits sig Unit) (K : PUnit → sProp 𝕄),
          iprop(owns (c : Thread nD τ) arg3 fullShare x0 ∗ owns (c : Thread nD τ) arg5 fullShare x1 ∗ owns (c : Thread nD τ) arg6 fullShare x2 ∗ owns (c : Thread nD τ) arg7 fullShare x3
              ∗ owns (c : Thread nD τ) arg8 fullShare xi4 ∗ owns (c : Thread nD τ) arg9 fullShare xa ∗ owns (c : Thread nD τ) arg10 fullShare xw ∗ (∃ d, owns (c : Thread nD τ) arg11 fullShare d)
              ∗ semVal ((c : Thread nD τ), SemLoc.dma 10) 0 ∗ hbPt0 c hbQ fh0 ∗ owes (c : Thread nD τ) 0 W
              ∗ (iprop(owns (c : Thread nD τ) arg3 fullShare x0 ∗ owns (c : Thread nD τ) arg5 fullShare x1 ∗ owns (c : Thread nD τ) arg6 fullShare x2 ∗ owns (c : Thread nD τ) arg7 fullShare x3
                  ∗ (∃ f, arg8.view.loc (c : Thread nD τ) ↦[arg8.view.set]{fullShare} arg8.view.writes (Elt F) f LO)
                  ∗ (∃ f, arg9.view.loc (c : Thread nD τ) ↦[arg9.view.set]{fullShare} arg9.view.writes (Elt F) f LA)
                  ∗ (arg10.view.loc (c : Thread nD τ) ↦[arg10.view.set]{fullShare} arg10.view.writes (Elt F) (harg10.unread xw) LW)
                  ∗ (∃ d, owns (c : Thread nD τ) arg11 fullShare d)
                  ∗ semVal ((c : Thread nD τ), SemLoc.dma 10) 0 ∗ hbPt0 c hbQ fh0 ∗ (∃ W', owes (c : Thread nD τ) 0 W')) -∗ K ⟨⟩))
            ⊢ wp frame (wpE (defs₀ (F := F)) Variants.none c none) Set.univ (cc0__fused_kernel (grid0.coords t) arg3 harg3 (Memref.whole main_arg1) (Memref.isWhole_whole _) arg5 harg5 arg6 harg6 arg7 harg7 arg8 harg8 arg9 harg9 arg10 harg10 arg11 harg11 cc0_scratch3) K } := by
  refine ⟨?_, ?_, ?_, fun xi4 W K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fa, %hfa, HA⟩, ⟨%fw, %hfw, HW⟩, ⟨%dq, %fq, -, HQ⟩, Hq0, Hh0, Ho, Hk⟩
    obtain rfl := harg3.eq_unread hf0; obtain rfl := harg5.eq_unread hf1; obtain rfl := harg6.eq_unread hf2; obtain rfl := harg7.eq_unread hf3
    obtain rfl := harg8.eq_unread hf4; obtain rfl := harg9.eq_unread hfa; obtain rfl := harg10.eq_unread hfw
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; iexact H4
    isplitl [HA]; · iexists _; iexact HA
    isplitl [HW]; · iexact HW
    isplitl [HQ]
    · iexists _, _; isplitr; swap; · iexact HQ
      ipureintro; rfl
    isplitl [Hq0]; · iexact Hq0
    isplitl [Hh0]; · iexact Hh0
    iexists _; iexact Ho

end Cert.KernelIdeal.Hand

end
-- ==== Proof.RunDIdeal.lean ====
/-
  The kernel body at a grid point with k = 0 and m > 0: the accumulator is reset and one product with the cached weight block is added; the cache and the output block are left alone.

  The body is run on whole staging memrefs holding the blocks of the point, the three scratch buffers
  holding named contents, its transfer semaphore at zero and the packed weights in HBM. What it
  leaves in the output block, the accumulator and the weight cache is recorded as the lists of stores
  (newest first) that the run itself finds; everything else comes back as it went in.
-/
import proofs.«405182_j16458314678409_3_alg».proof.Proof.KitIdeal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The stores the body leaves in the output block (`LO`), the accumulator (`LA`) and the weight cache
    (`LW`) at such a point, with the proof that the body runs from the resources described above to a
    state holding exactly them. -/
noncomputable def runD (c : Dev nD) (t : Fin cfg0.N) (arg3 : Memref sig .tc .vmem S512x1024 .f32) (harg3 : arg3.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S4096x2048 .bf16) (harg10 : arg10.IsWhole) (arg11 : Memref sig .tc .vmem S128x2048 .i32) (harg11 : arg11.IsWhole)
    (h1 : condK0 (grid0.coords t)) (h2 : ¬condM0 (grid0.coords t)) (h3 : ¬condK3 (grid0.coords t))
    (x0 : Vec F S512x1024 .f32) (x1 x2 : Vec F S32x2048 .f32) (x3 : Vec F S1x2048 .f32)
    (xa : Vec F S512x2048 .f32) (xw : Vec F S4096x2048 .bf16) (fh0 : HbBuf0 (F := F) c hbQ) :
    Σ' (LO : List (View.Piece (Elt F) S512x2048 .f32)) (LA : List (View.Piece (Elt F) S512x2048 .f32)),
      { LW : List (View.Piece (Elt F) S4096x2048 .bf16) //
        ∀ (xi4 : Vec F S512x2048 .f32) (W : Waits sig Unit) (K : PUnit → sProp 𝕄),
          iprop(owns (c : Thread nD τ) arg3 fullShare x0 ∗ owns (c : Thread nD τ) arg5 fullShare x1 ∗ owns (c : Thread nD τ) arg6 fullShare x2 ∗ owns (c : Thread nD τ) arg7 fullShare x3
              ∗ owns (c : Thread nD τ) arg8 fullShare xi4 ∗ owns (c : Thread nD τ) arg9 fullShare xa ∗ owns (c : Thread nD τ) arg10 fullShare xw ∗ (∃ d, owns (c : Thread nD τ) arg11 fullShare d)
              ∗ semVal ((c : Thread nD τ), SemLoc.dma 10) 0 ∗ hbPt0 c hbQ fh0 ∗ owes (c : Thread nD τ) 0 W
              ∗ (iprop(owns (c : Thread nD τ) arg3 fullShare x0 ∗ owns (c : Thread nD τ) arg5 fullShare x1 ∗ owns (c : Thread nD τ) arg6 fullShare x2 ∗ owns (c : Thread nD τ) arg7 fullShare x3
                  ∗ owns (c : Thread nD τ) arg8 fullShare xi4
                  ∗ (∃ f, arg9.view.loc (c : Thread nD τ) ↦[arg9.view.set]{fullShare} arg9.view.writes (Elt F) f LA)
                  ∗ (arg10.view.loc (c : Thread nD τ) ↦[arg10.view.set]{fullShare} arg10.view.writes (Elt F) (harg10.unread xw) LW)
                  ∗ (∃ d, owns (c : Thread nD τ) arg11 fullShare d)
                  ∗ semVal ((c : Thread nD τ), SemLoc.dma 10) 0 ∗ hbPt0 c hbQ fh0 ∗ (∃ W', owes (c : Thread nD τ) 0 W')) -∗ K ⟨⟩))
            ⊢ wp frame (wpE (defs₀ (F := F)) Variants.none c none) Set.univ (cc0__fused_kernel (grid0.coords t) arg3 harg3 (Memref.whole main_arg1) (Memref.isWhole_whole _) arg5 harg5 arg6 harg6 arg7 harg7 arg8 harg8 arg9 harg9 arg10 harg10 arg11 harg11 cc0_scratch3) K } := by
  refine ⟨[], ?_, [], fun xi4 W K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fa, %hfa, HA⟩, ⟨%fw, %hfw, HW⟩, ⟨%dq, %fq, -, HQ⟩, Hq0, Hh0, Ho, Hk⟩
    obtain rfl := harg3.eq_unread hf0; obtain rfl := harg5.eq_unread hf1; obtain rfl := harg6.eq_unread hf2; obtain rfl := harg7.eq_unread hf3
    obtain rfl := harg8.eq_unread hf4; obtain rfl := harg9.eq_unread hfa; obtain rfl := harg10.eq_unread hfw
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [HA]; · iexists _; iexact HA
    isplitl [HW]; · iexact HW
    isplitl [HQ]
    · iexists _, _; isplitr; swap; · iexact HQ
      ipureintro; rfl
    isplitl [Hq0]; · iexact Hq0
    isplitl [Hh0]; · iexact Hh0
    iexists _; iexact Ho

end Cert.KernelIdeal.Hand

end
-- ==== Proof.RunEIdeal.lean ====
/-
  The kernel body at a grid point with 0 < k < 3 and m > 0: one product with the cached weight block is added to the accumulator; the cache and the output block are left alone.

  The body is run on whole staging memrefs holding the blocks of the point, the three scratch buffers
  holding named contents, its transfer semaphore at zero and the packed weights in HBM. What it
  leaves in the output block, the accumulator and the weight cache is recorded as the lists of stores
  (newest first) that the run itself finds; everything else comes back as it went in.
-/
import proofs.«405182_j16458314678409_3_alg».proof.Proof.KitIdeal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The stores the body leaves in the output block (`LO`), the accumulator (`LA`) and the weight cache
    (`LW`) at such a point, with the proof that the body runs from the resources described above to a
    state holding exactly them. -/
noncomputable def runE (c : Dev nD) (t : Fin cfg0.N) (arg3 : Memref sig .tc .vmem S512x1024 .f32) (harg3 : arg3.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S4096x2048 .bf16) (harg10 : arg10.IsWhole) (arg11 : Memref sig .tc .vmem S128x2048 .i32) (harg11 : arg11.IsWhole)
    (h1 : ¬condK0 (grid0.coords t)) (h2 : ¬condM0 (grid0.coords t)) (h3 : ¬condK3 (grid0.coords t))
    (x0 : Vec F S512x1024 .f32) (x1 x2 : Vec F S32x2048 .f32) (x3 : Vec F S1x2048 .f32)
    (xa : Vec F S512x2048 .f32) (xw : Vec F S4096x2048 .bf16) (fh0 : HbBuf0 (F := F) c hbQ) :
    Σ' (LO : List (View.Piece (Elt F) S512x2048 .f32)) (LA : List (View.Piece (Elt F) S512x2048 .f32)),
      { LW : List (View.Piece (Elt F) S4096x2048 .bf16) //
        ∀ (xi4 : Vec F S512x2048 .f32) (W : Waits sig Unit) (K : PUnit → sProp 𝕄),
          iprop(owns (c : Thread nD τ) arg3 fullShare x0 ∗ owns (c : Thread nD τ) arg5 fullShare x1 ∗ owns (c : Thread nD τ) arg6 fullShare x2 ∗ owns (c : Thread nD τ) arg7 fullShare x3
              ∗ owns (c : Thread nD τ) arg8 fullShare xi4 ∗ owns (c : Thread nD τ) arg9 fullShare xa ∗ owns (c : Thread nD τ) arg10 fullShare xw ∗ (∃ d, owns (c : Thread nD τ) arg11 fullShare d)
              ∗ semVal ((c : Thread nD τ), SemLoc.dma 10) 0 ∗ hbPt0 c hbQ fh0 ∗ owes (c : Thread nD τ) 0 W
              ∗ (iprop(owns (c : Thread nD τ) arg3 fullShare x0 ∗ owns (c : Thread nD τ) arg5 fullShare x1 ∗ owns (c : Thread nD τ) arg6 fullShare x2 ∗ owns (c : Thread nD τ) arg7 fullShare x3
                  ∗ owns (c : Thread nD τ) arg8 fullShare xi4
                  ∗ (∃ f, arg9.view.loc (c : Thread nD τ) ↦[arg9.view.set]{fullShare} arg9.view.writes (Elt F) f LA)
                  ∗ (arg10.view.loc (c : Thread nD τ) ↦[arg10.view.set]{fullShare} arg10.view.writes (Elt F) (harg10.unread xw) LW)
                  ∗ (∃ d, owns (c : Thread nD τ) arg11 fullShare d)
                  ∗ semVal ((c : Thread nD τ), SemLoc.dma 10) 0 ∗ hbPt0 c hbQ fh0 ∗ (∃ W', owes (c : Thread nD τ) 0 W')) -∗ K ⟨⟩))
            ⊢ wp frame (wpE (defs₀ (F := F)) Variants.none c none) Set.univ (cc0__fused_kernel (grid0.coords t) arg3 harg3 (Memref.whole main_arg1) (Memref.isWhole_whole _) arg5 harg5 arg6 harg6 arg7 harg7 arg8 harg8 arg9 harg9 arg10 harg10 arg11 harg11 cc0_scratch3) K } := by
  refine ⟨[], ?_, [], fun xi4 W K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fa, %hfa, HA⟩, ⟨%fw, %hfw, HW⟩, ⟨%dq, %fq, -, HQ⟩, Hq0, Hh0, Ho, Hk⟩
    obtain rfl := harg3.eq_unread hf0; obtain rfl := harg5.eq_unread hf1; obtain rfl := harg6.eq_unread hf2; obtain rfl := harg7.eq_unread hf3
    obtain rfl := harg8.eq_unread hf4; obtain rfl := harg9.eq_unread hfa; obtain rfl := harg10.eq_unread hfw
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [HA]; · iexists _; iexact HA
    isplitl [HW]; · iexact HW
    isplitl [HQ]
    · iexists _, _; isplitr; swap; · iexact HQ
      ipureintro; rfl
    isplitl [Hq0]; · iexact Hq0
    isplitl [Hh0]; · iexact Hh0
    iexists _; iexact Ho

end Cert.KernelIdeal.Hand

end
-- ==== Proof.RunGIdeal.lean ====
/-
  The kernel body at a grid point with k = 3 and m > 0: the last product with the cached weight block is added, and the accumulator plus the bias is stored to the output block; the cache is left alone.

  The body is run on whole staging memrefs holding the blocks of the point, the three scratch buffers
  holding named contents, its transfer semaphore at zero and the packed weights in HBM. What it
  leaves in the output block, the accumulator and the weight cache is recorded as the lists of stores
  (newest first) that the run itself finds; everything else comes back as it went in.
-/
import proofs.«405182_j16458314678409_3_alg».proof.Proof.KitIdeal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
/-- The stores the body leaves in the output block (`LO`), the accumulator (`LA`) and the weight cache
    (`LW`) at such a point, with the proof that the body runs from the resources described above to a
    state holding exactly them. -/
noncomputable def runG (c : Dev nD) (t : Fin cfg0.N) (arg3 : Memref sig .tc .vmem S512x1024 .f32) (harg3 : arg3.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S4096x2048 .bf16) (harg10 : arg10.IsWhole) (arg11 : Memref sig .tc .vmem S128x2048 .i32) (harg11 : arg11.IsWhole)
    (h1 : ¬condK0 (grid0.coords t)) (h2 : ¬condM0 (grid0.coords t)) (h3 : condK3 (grid0.coords t))
    (x0 : Vec F S512x1024 .f32) (x1 x2 : Vec F S32x2048 .f32) (x3 : Vec F S1x2048 .f32)
    (xa : Vec F S512x2048 .f32) (xw : Vec F S4096x2048 .bf16) (fh0 : HbBuf0 (F := F) c hbQ) :
    Σ' (LO : List (View.Piece (Elt F) S512x2048 .f32)) (LA : List (View.Piece (Elt F) S512x2048 .f32)),
      { LW : List (View.Piece (Elt F) S4096x2048 .bf16) //
        ∀ (xi4 : Vec F S512x2048 .f32) (W : Waits sig Unit) (K : PUnit → sProp 𝕄),
          iprop(owns (c : Thread nD τ) arg3 fullShare x0 ∗ owns (c : Thread nD τ) arg5 fullShare x1 ∗ owns (c : Thread nD τ) arg6 fullShare x2 ∗ owns (c : Thread nD τ) arg7 fullShare x3
              ∗ owns (c : Thread nD τ) arg8 fullShare xi4 ∗ owns (c : Thread nD τ) arg9 fullShare xa ∗ owns (c : Thread nD τ) arg10 fullShare xw ∗ (∃ d, owns (c : Thread nD τ) arg11 fullShare d)
              ∗ semVal ((c : Thread nD τ), SemLoc.dma 10) 0 ∗ hbPt0 c hbQ fh0 ∗ owes (c : Thread nD τ) 0 W
              ∗ (iprop(owns (c : Thread nD τ) arg3 fullShare x0 ∗ owns (c : Thread nD τ) arg5 fullShare x1 ∗ owns (c : Thread nD τ) arg6 fullShare x2 ∗ owns (c : Thread nD τ) arg7 fullShare x3
                  ∗ (∃ f, arg8.view.loc (c : Thread nD τ) ↦[arg8.view.set]{fullShare} arg8.view.writes (Elt F) f LO)
                  ∗ (∃ f, arg9.view.loc (c : Thread nD τ) ↦[arg9.view.set]{fullShare} arg9.view.writes (Elt F) f LA)
                  ∗ (arg10.view.loc (c : Thread nD τ) ↦[arg10.view.set]{fullShare} arg10.view.writes (Elt F) (harg10.unread xw) LW)
                  ∗ (∃ d, owns (c : Thread nD τ) arg11 fullShare d)
                  ∗ semVal ((c : Thread nD τ), SemLoc.dma 10) 0 ∗ hbPt0 c hbQ fh0 ∗ (∃ W', owes (c : Thread nD τ) 0 W')) -∗ K ⟨⟩))
            ⊢ wp frame (wpE (defs₀ (F := F)) Variants.none c none) Set.univ (cc0__fused_kernel (grid0.coords t) arg3 harg3 (Memref.whole main_arg1) (Memref.isWhole_whole _) arg5 harg5 arg6 harg6 arg7 harg7 arg8 harg8 arg9 harg9 arg10 harg10 arg11 harg11 cc0_scratch3) K } := by
  refine ⟨?_, ?_, [], fun xi4 W K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fa, %hfa, HA⟩, ⟨%fw, %hfw, HW⟩, ⟨%dq, %fq, -, HQ⟩, Hq0, Hh0, Ho, Hk⟩
    obtain rfl := harg3.eq_unread hf0; obtain rfl := harg5.eq_unread hf1; obtain rfl := harg6.eq_unread hf2; obtain rfl := harg7.eq_unread hf3
    obtain rfl := harg8.eq_unread hf4; obtain rfl := harg9.eq_unread hfa; obtain rfl := harg10.eq_unread hfw
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; iexact H4
    isplitl [HA]; · iexists _; iexact HA
    isplitl [HW]; · iexact HW
    isplitl [HQ]
    · iexists _, _; isplitr; swap; · iexact HQ
      ipureintro; rfl
    isplitl [Hq0]; · iexact Hq0
    isplitl [Hh0]; · iexact Hh0
    iexists _; iexact Ho

end Cert.KernelIdeal.Hand

end
-- ==== Proof.PiecesIdeal.lean ====
/-
  What the stores found by each run leave in the buffers, as terms over the body's arithmetic.

  A run records the stores of a point as lists of pieces. Here each list is read back: the
  accumulator holds one whole-buffer store, of the old accumulator (or the zero block, where the point
  resets it) plus the product of the activation block with the weight block; the output block, where
  it is stored, holds that plus the bias row; the cache, where it is written, holds the eight slabs of
  the point's weight block — and the rows the product then reads are that block whole, by the
  tiling of the slabs.
-/
import proofs.«405182_j16458314678409_3_alg».proof.Proof.PointIdeal
import proofs.«405182_j16458314678409_3_alg».proof.Proof.RunAIdeal
import proofs.«405182_j16458314678409_3_alg».proof.Proof.RunBIdeal
import proofs.«405182_j16458314678409_3_alg».proof.Proof.RunCIdeal
import proofs.«405182_j16458314678409_3_alg».proof.Proof.RunDIdeal
import proofs.«405182_j16458314678409_3_alg».proof.Proof.RunEIdeal
import proofs.«405182_j16458314678409_3_alg».proof.Proof.RunGIdeal
import Idealize.ShloMosaic.Lib.Pipeline.Value

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Cert.KernelIdeal Cert.KernelIdeal.Gen

variable {F : FTy → Type} [FloatOps F]

/-! ## Reading back a store through the whole buffer -/

/-- The two zero offsets, however they are spelt. -/
theorem zero2 : (![0, 0] : Fin 2 → ℕ) = fun _ => 0 := by funext a; fin_cases a <;> rfl

/-- A store through the whole-shape rectangle at zero offsets, newest, leaves its payload whatever the
    buffer held and whatever the earlier stores were. -/
theorem read_writes_cons_unit_zero {σ : RefSig} {κ : Kind} {sp : Space} {S : Shape} {e : EltTy} {Val : EltTy → Type}
    (v : View σ κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h
  funext y
  have e := View.read_writes_cons_emb v f (Rect.whole S) w L y
  rwa [Rect.emb_whole_apply] at e

/-- A load through the whole-shape rectangle at zero offsets of what ONE store through the whole shape left reads
    that store's payload. -/
theorem readCov_whole_unit_zero {σ : RefSig} {κ : Kind} {sp : Space} {S : Shape} {e : EltTy} {Val : EltTy → Type}
    [∀ e, Nonempty (Val e)] (v : View σ κ sp S e) {off : Fin S.rank → ℕ} (h : off = fun _ => 0)
    (inb : ∀ a, off a + S.size a ≤ S.size a) (w : S.Idx → Val e) :
    v.readCov [(⟨Rect.whole S, w⟩ : View.Piece Val S e)] (Rect.unit off S.size inb).toLoadRect = w := by
  subst h
  exact View.readCov_cons_toLoadRect v (Rect.whole S) w []

/-! ## k = 0 and m = 0: the accumulator is reset, the weight block is fetched and dequantized, one product is added; the output block is left alone. -/

/-- The accumulator after the point: the zero block plus the product with the freshly written weight block. -/
theorem accA (c : Dev nD) (t : Fin cfg0.N) (arg3 : Memref sig .tc .vmem S512x1024 .f32) (harg3 : arg3.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S4096x2048 .bf16) (harg10 : arg10.IsWhole) (arg11 : Memref sig .tc .vmem S128x2048 .i32) (harg11 : arg11.IsWhole)
    (h1 : condK0 (grid0.coords t)) (h2 : condM0 (grid0.coords t)) (h3 : ¬condK3 (grid0.coords t))
    (x0 : Vec F S512x1024 .f32) (x1 x2 : Vec F S32x2048 .f32) (x3 : Vec F S1x2048 .f32)
    (xa : Vec F S512x2048 .f32) (xw : Vec F S4096x2048 .bf16) (fh0 : HbBuf0 (F := F) c hbQ) (f : arg9.view.ty.Contents (Elt F)) :
    arg9.view.read (Elt F) (arg9.view.writes (Elt F) f (runA c t arg3 harg3 arg5 harg5 arg6 harg6 arg7 harg7 arg8 harg8 arg9 harg9 arg10 harg10 arg11 harg11 h1 h2 h3 x0 x1 x2 x3 xa xw fh0).2.1) = k0_pay3 (wblk (qAt c fh0 t) (sAt x1 t) (sAt x2 t)) x0 k0_pay1 := by
  unfold runA
  dsimp only
  sl_unfold_run_names
  rw [read_writes_cons_unit_zero _ _ zero2]
  simp only [View.readAt_eq_ld, harg3.read_unread, harg5.read_unread, harg6.read_unread, harg7.read_unread,
    harg9.read_unread, readCov_whole_unit_zero (S := S128x2048) arg11.view zero2,
    View.readCov_unit_zero (S := S512x2048) arg9.view zero2,
    View.ld_unit_zero (S := S512x1024) zero2, View.ld_unit_zero (S := S512x2048) zero2,
    View.ld_unit_zero (S := S1x2048) zero2]
  -- the cache rows the product reads are the eight slabs just written, read through the block's box
  show k0_pay3 (arg10.view.readAt (Elt F) (boxAt t)
      (arg10.view.writes (Elt F) arg10.view.junk (slabs t (qAt c fh0 t) (sAt x1 t) (sAt x2 t)))) x0 k0_pay1 = _
  rw [slabs_read]

/-- The cache is written by the eight slabs of the point, holding the groups of its weight block. -/
theorem cacheA (c : Dev nD) (t : Fin cfg0.N) (arg3 : Memref sig .tc .vmem S512x1024 .f32) (harg3 : arg3.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S4096x2048 .bf16) (harg10 : arg10.IsWhole) (arg11 : Memref sig .tc .vmem S128x2048 .i32) (harg11 : arg11.IsWhole)
    (h1 : condK0 (grid0.coords t)) (h2 : condM0 (grid0.coords t)) (h3 : ¬condK3 (grid0.coords t))
    (x0 : Vec F S512x1024 .f32) (x1 x2 : Vec F S32x2048 .f32) (x3 : Vec F S1x2048 .f32)
    (xa : Vec F S512x2048 .f32) (xw : Vec F S4096x2048 .bf16) (fh0 : HbBuf0 (F := F) c hbQ) :
    (runA c t arg3 harg3 arg5 harg5 arg6 harg6 arg7 harg7 arg8 harg8 arg9 harg9 arg10 harg10 arg11 harg11 h1 h2 h3 x0 x1 x2 x3 xa xw fh0).2.2.1 = slabs t (qAt c fh0 t) (sAt x1 t) (sAt x2 t) := by
  unfold runA
  dsimp only
  sl_unfold_run_names
  simp only [View.readAt_eq_ld, harg5.read_unread, harg6.read_unread,
    readCov_whole_unit_zero (S := S128x2048) arg11.view zero2]
  rfl

/-! ## 0 < k < 3 and m = 0: the weight block is fetched and dequantized and one product is added to the accumulator; the output block is left alone. -/

/-- The accumulator after the point: what it held plus the product with the freshly written weight block. -/
theorem accB (c : Dev nD) (t : Fin cfg0.N) (arg3 : Memref sig .tc .vmem S512x1024 .f32) (harg3 : arg3.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S4096x2048 .bf16) (harg10 : arg10.IsWhole) (arg11 : Memref sig .tc .vmem S128x2048 .i32) (harg11 : arg11.IsWhole)
    (h1 : ¬condK0 (grid0.coords t)) (h2 : condM0 (grid0.coords t)) (h3 : ¬condK3 (grid0.coords t))
    (x0 : Vec F S512x1024 .f32) (x1 x2 : Vec F S32x2048 .f32) (x3 : Vec F S1x2048 .f32)
    (xa : Vec F S512x2048 .f32) (xw : Vec F S4096x2048 .bf16) (fh0 : HbBuf0 (F := F) c hbQ) (f : arg9.view.ty.Contents (Elt F)) :
    arg9.view.read (Elt F) (arg9.view.writes (Elt F) f (runB c t arg3 harg3 arg5 harg5 arg6 harg6 arg7 harg7 arg8 harg8 arg9 harg9 arg10 harg10 arg11 harg11 h1 h2 h3 x0 x1 x2 x3 xa xw fh0).2.1) = k0_pay3 (wblk (qAt c fh0 t) (sAt x1 t) (sAt x2 t)) x0 xa := by
  unfold runB
  dsimp only
  sl_unfold_run_names
  rw [read_writes_cons_unit_zero _ _ zero2]
  simp only [View.readAt_eq_ld, harg3.read_unread, harg5.read_unread, harg6.read_unread, harg7.read_unread,
    harg9.read_unread, readCov_whole_unit_zero (S := S128x2048) arg11.view zero2,
    View.readCov_unit_zero (S := S512x2048) arg9.view zero2,
    View.ld_unit_zero (S := S512x1024) zero2, View.ld_unit_zero (S := S512x2048) zero2,
    View.ld_unit_zero (S := S1x2048) zero2]
  -- the cache rows the product reads are the eight slabs just written, read through the block's box
  show k0_pay3 (arg10.view.readAt (Elt F) (boxAt t)
      (arg10.view.writes (Elt F) arg10.view.junk (slabs t (qAt c fh0 t) (sAt x1 t) (sAt x2 t)))) x0 xa = _
  rw [slabs_read]

/-- The cache is written by the eight slabs of the point, holding the groups of its weight block. -/
theorem cacheB (c : Dev nD) (t : Fin cfg0.N) (arg3 : Memref sig .tc .vmem S512x1024 .f32) (harg3 : arg3.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S4096x2048 .bf16) (harg10 : arg10.IsWhole) (arg11 : Memref sig .tc .vmem S128x2048 .i32) (harg11 : arg11.IsWhole)
    (h1 : ¬condK0 (grid0.coords t)) (h2 : condM0 (grid0.coords t)) (h3 : ¬condK3 (grid0.coords t))
    (x0 : Vec F S512x1024 .f32) (x1 x2 : Vec F S32x2048 .f32) (x3 : Vec F S1x2048 .f32)
    (xa : Vec F S512x2048 .f32) (xw : Vec F S4096x2048 .bf16) (fh0 : HbBuf0 (F := F) c hbQ) :
    (runB c t arg3 harg3 arg5 harg5 arg6 harg6 arg7 harg7 arg8 harg8 arg9 harg9 arg10 harg10 arg11 harg11 h1 h2 h3 x0 x1 x2 x3 xa xw fh0).2.2.1 = slabs t (qAt c fh0 t) (sAt x1 t) (sAt x2 t) := by
  unfold runB
  dsimp only
  sl_unfold_run_names
  simp only [View.readAt_eq_ld, harg5.read_unread, harg6.read_unread,
    readCov_whole_unit_zero (S := S128x2048) arg11.view zero2]
  rfl

/-! ## k = 3 and m = 0: the weight block is fetched and dequantized, the last product is added, and the accumulator plus the bias is stored to the output block. -/

/-- The accumulator after the point: what it held plus the product with the freshly written weight block. -/
theorem accC (c : Dev nD) (t : Fin cfg0.N) (arg3 : Memref sig .tc .vmem S512x1024 .f32) (harg3 : arg3.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S4096x2048 .bf16) (harg10 : arg10.IsWhole) (arg11 : Memref sig .tc .vmem S128x2048 .i32) (harg11 : arg11.IsWhole)
    (h1 : ¬condK0 (grid0.coords t)) (h2 : condM0 (grid0.coords t)) (h3 : condK3 (grid0.coords t))
    (x0 : Vec F S512x1024 .f32) (x1 x2 : Vec F S32x2048 .f32) (x3 : Vec F S1x2048 .f32)
    (xa : Vec F S512x2048 .f32) (xw : Vec F S4096x2048 .bf16) (fh0 : HbBuf0 (F := F) c hbQ) (f : arg9.view.ty.Contents (Elt F)) :
    arg9.view.read (Elt F) (arg9.view.writes (Elt F) f (runC c t arg3 harg3 arg5 harg5 arg6 harg6 arg7 harg7 arg8 harg8 arg9 harg9 arg10 harg10 arg11 harg11 h1 h2 h3 x0 x1 x2 x3 xa xw fh0).2.1) = k0_pay3 (wblk (qAt c fh0 t) (sAt x1 t) (sAt x2 t)) x0 xa := by
  unfold runC
  dsimp only
  sl_unfold_run_names
  rw [read_writes_cons_unit_zero _ _ zero2]
  simp only [View.readAt_eq_ld, harg3.read_unread, harg5.read_unread, harg6.read_unread, harg7.read_unread,
    harg9.read_unread, readCov_whole_unit_zero (S := S128x2048) arg11.view zero2,
    View.readCov_unit_zero (S := S512x2048) arg9.view zero2,
    View.ld_unit_zero (S := S512x1024) zero2, View.ld_unit_zero (S := S512x2048) zero2,
    View.ld_unit_zero (S := S1x2048) zero2]
  -- the cache rows the product reads are the eight slabs just written, read through the block's box
  show k0_pay3 (arg10.view.readAt (Elt F) (boxAt t)
      (arg10.view.writes (Elt F) arg10.view.junk (slabs t (qAt c fh0 t) (sAt x1 t) (sAt x2 t)))) x0 xa = _
  rw [slabs_read]

/-- The output block: that accumulator plus the bias row. -/
theorem outC (c : Dev nD) (t : Fin cfg0.N) (arg3 : Memref sig .tc .vmem S512x1024 .f32) (harg3 : arg3.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S4096x2048 .bf16) (harg10 : arg10.IsWhole) (arg11 : Memref sig .tc .vmem S128x2048 .i32) (harg11 : arg11.IsWhole)
    (h1 : ¬condK0 (grid0.coords t)) (h2 : condM0 (grid0.coords t)) (h3 : condK3 (grid0.coords t))
    (x0 : Vec F S512x1024 .f32) (x1 x2 : Vec F S32x2048 .f32) (x3 : Vec F S1x2048 .f32)
    (xa : Vec F S512x2048 .f32) (xw : Vec F S4096x2048 .bf16) (fh0 : HbBuf0 (F := F) c hbQ) (f : arg8.view.ty.Contents (Elt F)) :
    arg8.view.read (Elt F) (arg8.view.writes (Elt F) f (runC c t arg3 harg3 arg5 harg5 arg6 harg6 arg7 harg7 arg8 harg8 arg9 harg9 arg10 harg10 arg11 harg11 h1 h2 h3 x0 x1 x2 x3 xa xw fh0).1) = k0_pay4 (k0_pay3 (wblk (qAt c fh0 t) (sAt x1 t) (sAt x2 t)) x0 xa) x3 := by
  unfold runC
  dsimp only
  sl_unfold_run_names
  rw [read_writes_cons_unit_zero _ _ zero2]
  simp only [View.readAt_eq_ld, harg3.read_unread, harg5.read_unread, harg6.read_unread, harg7.read_unread,
    harg9.read_unread, readCov_whole_unit_zero (S := S128x2048) arg11.view zero2,
    View.readCov_unit_zero (S := S512x2048) arg9.view zero2,
    View.ld_unit_zero (S := S512x1024) zero2, View.ld_unit_zero (S := S512x2048) zero2,
    View.ld_unit_zero (S := S1x2048) zero2]
  -- the cache rows the product reads are the eight slabs just written, read through the block's box
  show k0_pay4 (k0_pay3 (arg10.view.readAt (Elt F) (boxAt t)
      (arg10.view.writes (Elt F) arg10.view.junk (slabs t (qAt c fh0 t) (sAt x1 t) (sAt x2 t)))) x0 xa) x3 = _
  rw [slabs_read]

/-- The cache is written by the eight slabs of the point, holding the groups of its weight block. -/
theorem cacheC (c : Dev nD) (t : Fin cfg0.N) (arg3 : Memref sig .tc .vmem S512x1024 .f32) (harg3 : arg3.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S4096x2048 .bf16) (harg10 : arg10.IsWhole) (arg11 : Memref sig .tc .vmem S128x2048 .i32) (harg11 : arg11.IsWhole)
    (h1 : ¬condK0 (grid0.coords t)) (h2 : condM0 (grid0.coords t)) (h3 : condK3 (grid0.coords t))
    (x0 : Vec F S512x1024 .f32) (x1 x2 : Vec F S32x2048 .f32) (x3 : Vec F S1x2048 .f32)
    (xa : Vec F S512x2048 .f32) (xw : Vec F S4096x2048 .bf16) (fh0 : HbBuf0 (F := F) c hbQ) :
    (runC c t arg3 harg3 arg5 harg5 arg6 harg6 arg7 harg7 arg8 harg8 arg9 harg9 arg10 harg10 arg11 harg11 h1 h2 h3 x0 x1 x2 x3 xa xw fh0).2.2.1 = slabs t (qAt c fh0 t) (sAt x1 t) (sAt x2 t) := by
  unfold runC
  dsimp only
  sl_unfold_run_names
  simp only [View.readAt_eq_ld, harg5.read_unread, harg6.read_unread,
    readCov_whole_unit_zero (S := S128x2048) arg11.view zero2]
  rfl

/-! ## k = 0 and m > 0: the accumulator is reset and one product with the cached weight block is added; the cache and the output block are left alone. -/

/-- The accumulator after the point: the zero block plus the product with the cached rows. -/
theorem accD (c : Dev nD) (t : Fin cfg0.N) (arg3 : Memref sig .tc .vmem S512x1024 .f32) (harg3 : arg3.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S4096x2048 .bf16) (harg10 : arg10.IsWhole) (arg11 : Memref sig .tc .vmem S128x2048 .i32) (harg11 : arg11.IsWhole)
    (h1 : condK0 (grid0.coords t)) (h2 : ¬condM0 (grid0.coords t)) (h3 : ¬condK3 (grid0.coords t))
    (x0 : Vec F S512x1024 .f32) (x1 x2 : Vec F S32x2048 .f32) (x3 : Vec F S1x2048 .f32)
    (xa : Vec F S512x2048 .f32) (xw : Vec F S4096x2048 .bf16) (fh0 : HbBuf0 (F := F) c hbQ) (f : arg9.view.ty.Contents (Elt F)) :
    arg9.view.read (Elt F) (arg9.view.writes (Elt F) f (runD c t arg3 harg3 arg5 harg5 arg6 harg6 arg7 harg7 arg8 harg8 arg9 harg9 arg10 harg10 arg11 harg11 h1 h2 h3 x0 x1 x2 x3 xa xw fh0).2.1) = k0_pay3 (View.ld xw (boxR t)) x0 k0_pay1 := by
  unfold runD
  dsimp only
  sl_unfold_run_names
  rw [read_writes_cons_unit_zero _ _ zero2]
  simp only [View.readAt_eq_ld, harg3.read_unread, harg7.read_unread, harg9.read_unread, harg10.read_unread,
    View.readCov_unit_zero (S := S512x2048) arg9.view zero2,
    View.ld_unit_zero (S := S512x1024) zero2, View.ld_unit_zero (S := S512x2048) zero2,
    View.ld_unit_zero (S := S1x2048) zero2]

/-- The cache is not written. -/
theorem cacheD (c : Dev nD) (t : Fin cfg0.N) (arg3 : Memref sig .tc .vmem S512x1024 .f32) (harg3 : arg3.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S4096x2048 .bf16) (harg10 : arg10.IsWhole) (arg11 : Memref sig .tc .vmem S128x2048 .i32) (harg11 : arg11.IsWhole)
    (h1 : condK0 (grid0.coords t)) (h2 : ¬condM0 (grid0.coords t)) (h3 : ¬condK3 (grid0.coords t))
    (x0 : Vec F S512x1024 .f32) (x1 x2 : Vec F S32x2048 .f32) (x3 : Vec F S1x2048 .f32)
    (xa : Vec F S512x2048 .f32) (xw : Vec F S4096x2048 .bf16) (fh0 : HbBuf0 (F := F) c hbQ) :
    (runD c t arg3 harg3 arg5 harg5 arg6 harg6 arg7 harg7 arg8 harg8 arg9 harg9 arg10 harg10 arg11 harg11 h1 h2 h3 x0 x1 x2 x3 xa xw fh0).2.2.1 = [] := rfl

/-! ## 0 < k < 3 and m > 0: one product with the cached weight block is added to the accumulator; the cache and the output block are left alone. -/

/-- The accumulator after the point: what it held plus the product with the cached rows. -/
theorem accE (c : Dev nD) (t : Fin cfg0.N) (arg3 : Memref sig .tc .vmem S512x1024 .f32) (harg3 : arg3.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S4096x2048 .bf16) (harg10 : arg10.IsWhole) (arg11 : Memref sig .tc .vmem S128x2048 .i32) (harg11 : arg11.IsWhole)
    (h1 : ¬condK0 (grid0.coords t)) (h2 : ¬condM0 (grid0.coords t)) (h3 : ¬condK3 (grid0.coords t))
    (x0 : Vec F S512x1024 .f32) (x1 x2 : Vec F S32x2048 .f32) (x3 : Vec F S1x2048 .f32)
    (xa : Vec F S512x2048 .f32) (xw : Vec F S4096x2048 .bf16) (fh0 : HbBuf0 (F := F) c hbQ) (f : arg9.view.ty.Contents (Elt F)) :
    arg9.view.read (Elt F) (arg9.view.writes (Elt F) f (runE c t arg3 harg3 arg5 harg5 arg6 harg6 arg7 harg7 arg8 harg8 arg9 harg9 arg10 harg10 arg11 harg11 h1 h2 h3 x0 x1 x2 x3 xa xw fh0).2.1) = k0_pay3 (View.ld xw (boxR t)) x0 xa := by
  unfold runE
  dsimp only
  sl_unfold_run_names
  rw [read_writes_cons_unit_zero _ _ zero2]
  simp only [View.readAt_eq_ld, harg3.read_unread, harg7.read_unread, harg9.read_unread, harg10.read_unread,
    View.readCov_unit_zero (S := S512x2048) arg9.view zero2,
    View.ld_unit_zero (S := S512x1024) zero2, View.ld_unit_zero (S := S512x2048) zero2,
    View.ld_unit_zero (S := S1x2048) zero2]

/-- The cache is not written. -/
theorem cacheE (c : Dev nD) (t : Fin cfg0.N) (arg3 : Memref sig .tc .vmem S512x1024 .f32) (harg3 : arg3.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S4096x2048 .bf16) (harg10 : arg10.IsWhole) (arg11 : Memref sig .tc .vmem S128x2048 .i32) (harg11 : arg11.IsWhole)
    (h1 : ¬condK0 (grid0.coords t)) (h2 : ¬condM0 (grid0.coords t)) (h3 : ¬condK3 (grid0.coords t))
    (x0 : Vec F S512x1024 .f32) (x1 x2 : Vec F S32x2048 .f32) (x3 : Vec F S1x2048 .f32)
    (xa : Vec F S512x2048 .f32) (xw : Vec F S4096x2048 .bf16) (fh0 : HbBuf0 (F := F) c hbQ) :
    (runE c t arg3 harg3 arg5 harg5 arg6 harg6 arg7 harg7 arg8 harg8 arg9 harg9 arg10 harg10 arg11 harg11 h1 h2 h3 x0 x1 x2 x3 xa xw fh0).2.2.1 = [] := rfl

/-! ## k = 3 and m > 0: the last product with the cached weight block is added, and the accumulator plus the bias is stored to the output block; the cache is left alone. -/

/-- The accumulator after the point: what it held plus the product with the cached rows. -/
theorem accG (c : Dev nD) (t : Fin cfg0.N) (arg3 : Memref sig .tc .vmem S512x1024 .f32) (harg3 : arg3.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S4096x2048 .bf16) (harg10 : arg10.IsWhole) (arg11 : Memref sig .tc .vmem S128x2048 .i32) (harg11 : arg11.IsWhole)
    (h1 : ¬condK0 (grid0.coords t)) (h2 : ¬condM0 (grid0.coords t)) (h3 : condK3 (grid0.coords t))
    (x0 : Vec F S512x1024 .f32) (x1 x2 : Vec F S32x2048 .f32) (x3 : Vec F S1x2048 .f32)
    (xa : Vec F S512x2048 .f32) (xw : Vec F S4096x2048 .bf16) (fh0 : HbBuf0 (F := F) c hbQ) (f : arg9.view.ty.Contents (Elt F)) :
    arg9.view.read (Elt F) (arg9.view.writes (Elt F) f (runG c t arg3 harg3 arg5 harg5 arg6 harg6 arg7 harg7 arg8 harg8 arg9 harg9 arg10 harg10 arg11 harg11 h1 h2 h3 x0 x1 x2 x3 xa xw fh0).2.1) = k0_pay3 (View.ld xw (boxR t)) x0 xa := by
  unfold runG
  dsimp only
  sl_unfold_run_names
  rw [read_writes_cons_unit_zero _ _ zero2]
  simp only [View.readAt_eq_ld, harg3.read_unread, harg7.read_unread, harg9.read_unread, harg10.read_unread,
    View.readCov_unit_zero (S := S512x2048) arg9.view zero2,
    View.ld_unit_zero (S := S512x1024) zero2, View.ld_unit_zero (S := S512x2048) zero2,
    View.ld_unit_zero (S := S1x2048) zero2]

/-- The output block: that accumulator plus the bias row. -/
theorem outG (c : Dev nD) (t : Fin cfg0.N) (arg3 : Memref sig .tc .vmem S512x1024 .f32) (harg3 : arg3.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S4096x2048 .bf16) (harg10 : arg10.IsWhole) (arg11 : Memref sig .tc .vmem S128x2048 .i32) (harg11 : arg11.IsWhole)
    (h1 : ¬condK0 (grid0.coords t)) (h2 : ¬condM0 (grid0.coords t)) (h3 : condK3 (grid0.coords t))
    (x0 : Vec F S512x1024 .f32) (x1 x2 : Vec F S32x2048 .f32) (x3 : Vec F S1x2048 .f32)
    (xa : Vec F S512x2048 .f32) (xw : Vec F S4096x2048 .bf16) (fh0 : HbBuf0 (F := F) c hbQ) (f : arg8.view.ty.Contents (Elt F)) :
    arg8.view.read (Elt F) (arg8.view.writes (Elt F) f (runG c t arg3 harg3 arg5 harg5 arg6 harg6 arg7 harg7 arg8 harg8 arg9 harg9 arg10 harg10 arg11 harg11 h1 h2 h3 x0 x1 x2 x3 xa xw fh0).1) = k0_pay4 (k0_pay3 (View.ld xw (boxR t)) x0 xa) x3 := by
  unfold runG
  dsimp only
  sl_unfold_run_names
  rw [read_writes_cons_unit_zero _ _ zero2]
  simp only [View.readAt_eq_ld, harg3.read_unread, harg7.read_unread, harg9.read_unread, harg10.read_unread,
    View.readCov_unit_zero (S := S512x2048) arg9.view zero2,
    View.ld_unit_zero (S := S512x1024) zero2, View.ld_unit_zero (S := S512x2048) zero2,
    View.ld_unit_zero (S := S1x2048) zero2]

/-- The cache is not written. -/
theorem cacheG (c : Dev nD) (t : Fin cfg0.N) (arg3 : Memref sig .tc .vmem S512x1024 .f32) (harg3 : arg3.IsWhole) (arg5 : Memref sig .tc .vmem S32x2048 .f32) (harg5 : arg5.IsWhole) (arg6 : Memref sig .tc .vmem S32x2048 .f32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S4096x2048 .bf16) (harg10 : arg10.IsWhole) (arg11 : Memref sig .tc .vmem S128x2048 .i32) (harg11 : arg11.IsWhole)
    (h1 : ¬condK0 (grid0.coords t)) (h2 : ¬condM0 (grid0.coords t)) (h3 : condK3 (grid0.coords t))
    (x0 : Vec F S512x1024 .f32) (x1 x2 : Vec F S32x2048 .f32) (x3 : Vec F S1x2048 .f32)
    (xa : Vec F S512x2048 .f32) (xw : Vec F S4096x2048 .bf16) (fh0 : HbBuf0 (F := F) c hbQ) :
    (runG c t arg3 harg3 arg5 harg5 arg6 harg6 arg7 harg7 arg8 harg8 arg9 harg9 arg10 harg10 arg11 harg11 h1 h2 h3 x0 x1 x2 x3 xa xw fh0).2.2.1 = [] := rfl

end Cert.KernelIdeal.Hand

end
-- ==== Proof.InvIdeal.lean ====
/-
  The cache invariant from point to point.

  After point t every weight block filled so far in the current column half reads as its
  specification. A point with m > 0 does not write the cache, every block of the half has been filled
  by then, and the rows its product reads are the specified block. A point with m = 0 overwrites
  block k = t % 4 by its eight slabs: read back through that block's box they are the block
  computed at the point — which is the specification of (n, k), the point being its own
  representative —, and through the box of an earlier block they are invisible, so the earlier blocks
  stay as they were. With k = 0 a new column half begins and there is no earlier block to keep.
-/
import proofs.«405182_j16458314678409_3_alg».proof.Proof.PointIdeal

set_option maxRecDepth 16384

noncomputable section

namespace Cert.KernelIdeal.Hand

open Idealize.ShloMosaic Idealize.ShloMosaic.ValueIdx Idealize.SL.Sem
open Cert.KernelIdeal Cert.KernelIdeal.Gen

variable {F : FTy → Type} [FloatOps F]
variable (m : (ℓ : Loc nD τ sig) → Buf (Elt F) ℓ) (c : Dev nD)

theorem pt_lt (t : Fin cfg0.N) : t.val < 128 := lt_of_lt_of_eq t.isLt (show cfg0.N = 128 from N_0)

/-- The point before `t`. -/
def prev (t : Fin cfg0.N) : Fin cfg0.N := ⟨t.val - 1, Nat.lt_of_le_of_lt (Nat.sub_le _ _) t.isLt⟩
@[simp] theorem prev_val (t : Fin cfg0.N) : (prev t).val = t.val - 1 := rfl

/-- A point with m = 0 is the representative of its (n, k). -/
theorem rep_of_m0 (t : Fin cfg0.N) (h : t.val % 64 < 4) : rep t = t := by
  apply Fin.ext; show t.val / 64 * 64 + t.val % 4 = t.val; omega

/-- Two points of one column half with the same k have the same representative. -/
theorem rep_congr (t t' : Fin cfg0.N) (hn : t'.val / 64 = t.val / 64) (hk : t'.val % 4 = t.val % 4) : rep t' = rep t := by
  apply Fin.ext; show t'.val / 64 * 64 + t'.val % 4 = t.val / 64 * 64 + t.val % 4; omega

/-- Where m > 0, the rows the product reads are the specified weight block. -/
theorem winv_use (t : Fin cfg0.N) (hm : 4 ≤ t.val % 64) (wc : Vec F S4096x2048 .bf16) (h : WInv m c (prev t) wc) :
    View.ld wc (boxR t) = wSpec m c t :=
  h t (by show t.val / 64 = (t.val - 1) / 64; omega) (by show 4 ≤ (t.val - 1) % 64 ∨ t.val % 4 ≤ (t.val - 1) % 4; omega)

/-- Where m > 0, the cache is not written and the invariant carries over. -/
theorem winv_keep (t : Fin cfg0.N) (hm : 4 ≤ t.val % 64) (wc : Vec F S4096x2048 .bf16) (h : WInv m c (prev t) wc) :
    WInv m c t wc := fun t' hn _ =>
  h t' (by show t'.val / 64 = (t.val - 1) / 64; omega)
    (by have := pt_lt t'; show 4 ≤ (t.val - 1) % 64 ∨ t'.val % 4 ≤ (t.val - 1) % 4; omega)

section Fill

variable {κ : Kind} {sp : Space} (v : View sig κ sp S4096x2048 .bf16) (f : v.ty.Contents (Elt F))

/-- The block just written reads as the specification of its (n, k), from any point of the half with that k. -/
theorem fill_same (t t' : Fin cfg0.N) (hm : t.val % 64 < 4) (hn : t'.val / 64 = t.val / 64) (hk : t'.val % 4 = t.val % 4) :
    View.ld (v.read (Elt F) (v.writes (Elt F) f (slabs t (qAt c (qarr m c) t) (sAt (sb m c t) t) (sAt (zb m c t) t)))) (boxR t')
      = wSpec m c t' := by
  have e1 : View.ld (v.read (Elt F) (v.writes (Elt F) f (slabs t (qAt c (qarr m c) t) (sAt (sb m c t) t) (sAt (zb m c t) t)))) (boxR t')
      = v.readAt (Elt F) (boxAt t') (v.writes (Elt F) f (slabs t (qAt c (qarr m c) t) (sAt (sb m c t) t) (sAt (zb m c t) t))) := rfl
  rw [e1, readAt_boxAt_congr v _ t t' hk, slabs_read]
  unfold wSpec
  rw [rep_congr t t' hn hk, rep_of_m0 t hm]
  rfl

/-- A point with k = 0 and m = 0 starts a column half: only block 0 is asked for. -/
theorem winv_first (t : Fin cfg0.N) (hm : t.val % 64 = 0) :
    WInv m c t (v.read (Elt F) (v.writes (Elt F) f (slabs t (qAt c (qarr m c) t) (sAt (sb m c t) t) (sAt (zb m c t) t)))) :=
  fun t' hn hv => fill_same m c v f t t' (by omega) hn (by have := pt_lt t'; omega)

/-- A point with 0 < k and m = 0 fills block k and keeps the earlier ones. -/
theorem winv_fill (t : Fin cfg0.N) (hm : t.val % 64 < 4) (hk : t.val % 64 ≠ 0) (wc : Vec F S4096x2048 .bf16)
    (h : WInv m c (prev t) wc) (hf : v.read (Elt F) f = wc) :
    WInv m c t (v.read (Elt F) (v.writes (Elt F) f (slabs t (qAt c (qarr m c) t) (sAt (sb m c t) t) (sAt (zb m c t) t)))) := by
  intro t' hn hv
  by_cases hs : t'.val % 4 = t.val % 4
  · exact fill_same m c v f t t' hm hn hs
  · have e1 : View.ld (v.read (Elt F) (v.writes (Elt F) f (slabs t (qAt c (qarr m c) t) (sAt (sb m c t) t) (sAt (zb m c t) t)))) (boxR t')
        = v.readAt (Elt F) (boxAt t') (v.writes (Elt F) f (slabs t (qAt c (qarr m c) t) (sAt (sb m c t) t) (sAt (zb m c t) t))) := rfl
    rw [e1, slabs_miss v f t t' hs]
    have e2 : v.readAt (Elt F) (boxAt t') f = View.ld (v.read (Elt F) f) (boxR t') := rfl
    rw [e2, hf]
    exact h t' (by show t'.val / 64 = (t.val - 1) / 64; omega)
      (by show 4 ≤ (t.val - 1) % 64 ∨ t'.val % 4 ≤ (t.val - 1) % 4; omega)

end Fill

end Cert.KernelIdeal.Hand

end
-- ==== Proof.BodyIdeal.lean ====
/-
  The kernel body at every grid point, the region's invariant, and the run of the whole program.

  The proof data says what every staging buffer holds after the body at each point: an input its
  block, the output block (where it is stored, at k = 3) the accumulator plus the bias row. The
  region's invariant is, before the first point, the launch's (scratch buffers at anything, the
  transfer semaphore at zero, the packed weights in HBM as launched); after point t, the same with
  the accumulator at its value after t and the weight cache at some contents in which every block
  filled so far reads as its specification. At each point the body is one of six runs, chosen by
  whether k = 0, m = 0, k = 3; the run's stores are read back by the piece lemmas, and the invariant
  is carried by the arithmetic of the blocks. The launch theorem then gives the run of @main, and the
  frame's statement follows.
-/
import proofs.«405182_j16458314678409_3_alg».proof.Proof.PiecesIdeal
import proofs.«405182_j16458314678409_3_alg».proof.Proof.InvIdeal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The region's invariant, point by point -/

/-- Before position `n`: the launch's invariant at 0; afterwards the accumulator at its value after point
    `n − 1`, the cache at contents satisfying the block invariant, the copy's landing buffer at anything,
    the generator register at some state, the transfer semaphore at zero, the packed weights as launched. -/
def PhiS (c : Dev nD) : (n : ℕ) → n ≤ cfg0.N → sProp 𝕄
  | 0, _ => Pipeline.ΦD osem0 spec0 H0 (V m) c
  | n + 1, hn => iprop(iprop(owns (c : Thread nD τ) scAcc fullShare (accAt m c n hn) ∗ (∃ wc, ⌜WInv m c ⟨n, hn⟩ wc⌝ ∗ owns (c : Thread nD τ) scW fullShare wc) ∗ (∃ d, owns (c : Thread nD τ) scQ fullShare d)) ∗ (∃ r, prngReg c r) ∗ iprop(semVal ((c : Thread nD τ), SemLoc.dma 10) 0) ∗ iprop(hbPt0 c hbQ (V m c main_arg1)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scAcc fullShare (accAt m c n hn) ∗ (∃ wc, ⌜WInv m c ⟨n, hn⟩ wc⌝ ∗ owns (c : Thread nD τ) scW fullShare wc) ∗ (∃ d, owns (c : Thread nD τ) scQ fullShare d)) ∗ (∃ r, prngReg c r) ∗ iprop(semVal ((c : Thread nD τ), SemLoc.dma 10) 0) ∗ iprop(hbPt0 c hbQ (V m c main_arg1))) := rfl

theorem PhiS_pos (c : Dev nD) (n : ℕ) (h : n ≤ cfg0.N) (hz : n ≠ 0) :
    PhiS m c n h = iprop(iprop(owns (c : Thread nD τ) scAcc fullShare (accAt m c (n - 1) (by omega)) ∗ (∃ wc, ⌜WInv m c ⟨n - 1, by omega⟩ wc⌝ ∗ owns (c : Thread nD τ) scW fullShare wc) ∗ (∃ d, owns (c : Thread nD τ) scQ fullShare d)) ∗ (∃ r, prngReg c r) ∗ iprop(semVal ((c : Thread nD τ), SemLoc.dma 10) 0) ∗ iprop(hbPt0 c hbQ (V m c main_arg1))) := by
  cases n with
  | zero => exact absurd rfl hz
  | succ n => rfl

/-! ## The proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
/-- The body at any point: the case the point's coordinates select applies, the inputs' buffers hold
    their blocks, the invariant hands in the scratch buffers and takes them back at the point's values. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = PhiS m c (t.val + 1) t.isLt from rfl, PhiS_succ]
  unfold Dat.owesAt Pipeline.owesWithin
  rw [show (dats m 0 c).owed t.castSucc = 0 from rfl, show (dats m 0 c).owed t.succ = 0 from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  have hN : t.val < 128 := pt_lt t
  by_cases hK0 : t.val % 4 = 0
  · have hK3 : ¬t.val % 4 = 3 := by omega
    rw [Dat.leavesExact_idle (dats m 0 c) 4 t (idleAt0_4 t (fun h => hK3 ((hcondK3 t).mp h))) (noFlush0_4 t (fun h => hK3 ((hcondK3 t).mp h)))]
    by_cases hM : t.val % 64 < 4
    ·
      by_cases hz : t.val = 0
      ·
        rw [PhiS_castSucc m c t, PhiS_zero m c _ _ hz, PhiD0_eq]
        iintro ⟨⟨⟨⟨%da, HSA⟩, ⟨%dw, HSW⟩, HSQ⟩, Hg, Hq0, Hh0⟩, ⟨%W, -, HW⟩, ⟨%d0, H0⟩, ⟨%d1, H1⟩, ⟨%d2, H2⟩, ⟨%d3, H3⟩, ⟨%d4, H4⟩⟩
        have hV : wblk (qAt c (V m c main_arg1) t) (sAt (iblk m c 1 t) t) (sAt (iblk m c 2 t) t) = wSpec m c t := by
          unfold wSpec; rw [rep_of_m0 t hM]; rfl
        have hAcc : k0_pay3 (wblk (qAt c (V m c main_arg1) t) (sAt (iblk m c 1 t) t) (sAt (iblk m c 2 t) t)) (iblk m c 0 t) k0_pay1 = accAt m c t.val t.isLt :=
          (congrArg (fun w => k0_pay3 w (iblk m c 0 t) k0_pay1) hV).trans (accAt_reset m c t hK0).symm
        iapply ((runA c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) ((hcondK0 t).mpr hK0) ((hcondM0 t).mpr hM) (fun h => hK3 ((hcondK3 t).mp h)) (iblk m c 0 t) (iblk m c 1 t) (iblk m c 2 t) (iblk m c 3 t) da dw (V m c main_arg1)).2.2.2 _ W _)
        isplitl [H0]; · iexact H0
        isplitl [H1]; · iexact H1
        isplitl [H2]; · iexact H2
        isplitl [H3]; · iexact H3
        isplitl [H4]; · iexact H4
        isplitl [HSA]; · iexact HSA
        isplitl [HSW]; · iexact HSW
        isplitl [HSQ]; · iexact HSQ
        isplitl [Hq0]; · iexact Hq0
        isplitl [Hh0]; · iexact Hh0
        isplitl [HW]; · iexact HW
        iintro ⟨H0, H1, H2, H3, H4, ⟨%fa, HA⟩, HWc, HSQ, Hq0, Hh0, ⟨%W', HW'⟩⟩
        isplitl [HA HWc HSQ Hg Hq0 Hh0]
        · isplitl [HA HWc HSQ]
          · isplitl [HA]
            · unfold owns; iexists _; isplitr; swap; · iexact HA
              ipureintro
              exact (accA c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) ((hcondK0 t).mpr hK0) ((hcondM0 t).mpr hM) (fun h => hK3 ((hcondK3 t).mp h)) (iblk m c 0 t) (iblk m c 1 t) (iblk m c 2 t) (iblk m c 3 t) da dw (V m c main_arg1) fa).trans hAcc
            isplitl [HWc]
            · iexists (scW.view.read (Elt F) (scW.view.writes (Elt F) ((Memref.isWhole_whole _ : scW.IsWhole).unread dw) (runA c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) ((hcondK0 t).mpr hK0) ((hcondM0 t).mpr hM) (fun h => hK3 ((hcondK3 t).mp h)) (iblk m c 0 t) (iblk m c 1 t) (iblk m c 2 t) (iblk m c 3 t) da dw (V m c main_arg1)).2.2.1)); isplitr
              · ipureintro
                rw [cacheA c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) ((hcondK0 t).mpr hK0) ((hcondM0 t).mpr hM) (fun h => hK3 ((hcondK3 t).mp h)) (iblk m c 0 t) (iblk m c 1 t) (iblk m c 2 t) (iblk m c 3 t) da dw (V m c main_arg1)]
                exact winv_first m c scW.view _ t (by omega)
              unfold owns; iexists _; isplitr; swap; · iexact HWc
              ipureintro; rfl
            iexact HSQ
          isplitl [Hg]; · iexact Hg
          isplitl [Hq0]; · iexact Hq0
          iexact Hh0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        iexists _; iexact H4
      ·
        rw [PhiS_castSucc m c t, PhiS_pos m c _ _ hz]
        iintro ⟨⟨⟨HSA, ⟨%wc, %hwc, HSW⟩, HSQ⟩, Hg, Hq0, Hh0⟩, ⟨%W, -, HW⟩, ⟨%d0, H0⟩, ⟨%d1, H1⟩, ⟨%d2, H2⟩, ⟨%d3, H3⟩, ⟨%d4, H4⟩⟩
        have hV : wblk (qAt c (V m c main_arg1) t) (sAt (iblk m c 1 t) t) (sAt (iblk m c 2 t) t) = wSpec m c t := by
          unfold wSpec; rw [rep_of_m0 t hM]; rfl
        have hAcc : k0_pay3 (wblk (qAt c (V m c main_arg1) t) (sAt (iblk m c 1 t) t) (sAt (iblk m c 2 t) t)) (iblk m c 0 t) k0_pay1 = accAt m c t.val t.isLt :=
          (congrArg (fun w => k0_pay3 w (iblk m c 0 t) k0_pay1) hV).trans (accAt_reset m c t hK0).symm
        iapply ((runA c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) ((hcondK0 t).mpr hK0) ((hcondM0 t).mpr hM) (fun h => hK3 ((hcondK3 t).mp h)) (iblk m c 0 t) (iblk m c 1 t) (iblk m c 2 t) (iblk m c 3 t) (accAt m c (t.val - 1) (Nat.lt_of_le_of_lt (Nat.sub_le _ _) t.isLt)) wc (V m c main_arg1)).2.2.2 _ W _)
        isplitl [H0]; · iexact H0
        isplitl [H1]; · iexact H1
        isplitl [H2]; · iexact H2
        isplitl [H3]; · iexact H3
        isplitl [H4]; · iexact H4
        isplitl [HSA]; · iexact HSA
        isplitl [HSW]; · iexact HSW
        isplitl [HSQ]; · iexact HSQ
        isplitl [Hq0]; · iexact Hq0
        isplitl [Hh0]; · iexact Hh0
        isplitl [HW]; · iexact HW
        iintro ⟨H0, H1, H2, H3, H4, ⟨%fa, HA⟩, HWc, HSQ, Hq0, Hh0, ⟨%W', HW'⟩⟩
        isplitl [HA HWc HSQ Hg Hq0 Hh0]
        · isplitl [HA HWc HSQ]
          · isplitl [HA]
            · unfold owns; iexists _; isplitr; swap; · iexact HA
              ipureintro
              exact (accA c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) ((hcondK0 t).mpr hK0) ((hcondM0 t).mpr hM) (fun h => hK3 ((hcondK3 t).mp h)) (iblk m c 0 t) (iblk m c 1 t) (iblk m c 2 t) (iblk m c 3 t) (accAt m c (t.val - 1) (Nat.lt_of_le_of_lt (Nat.sub_le _ _) t.isLt)) wc (V m c main_arg1) fa).trans hAcc
            isplitl [HWc]
            · iexists (scW.view.read (Elt F) (scW.view.writes (Elt F) ((Memref.isWhole_whole _ : scW.IsWhole).unread wc) (runA c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) ((hcondK0 t).mpr hK0) ((hcondM0 t).mpr hM) (fun h => hK3 ((hcondK3 t).mp h)) (iblk m c 0 t) (iblk m c 1 t) (iblk m c 2 t) (iblk m c 3 t) (accAt m c (t.val - 1) (Nat.lt_of_le_of_lt (Nat.sub_le _ _) t.isLt)) wc (V m c main_arg1)).2.2.1)); isplitr
              · ipureintro
                rw [cacheA c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) ((hcondK0 t).mpr hK0) ((hcondM0 t).mpr hM) (fun h => hK3 ((hcondK3 t).mp h)) (iblk m c 0 t) (iblk m c 1 t) (iblk m c 2 t) (iblk m c 3 t) (accAt m c (t.val - 1) (Nat.lt_of_le_of_lt (Nat.sub_le _ _) t.isLt)) wc (V m c main_arg1)]
                exact winv_first m c scW.view _ t (by omega)
              unfold owns; iexists _; isplitr; swap; · iexact HWc
              ipureintro; rfl
            iexact HSQ
          isplitl [Hg]; · iexact Hg
          isplitl [Hq0]; · iexact Hq0
          iexact Hh0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        iexists _; iexact H4
    ·
      have hz : t.val ≠ 0 := by omega
      ·
        rw [PhiS_castSucc m c t, PhiS_pos m c _ _ hz]
        iintro ⟨⟨⟨HSA, ⟨%wc, %hwc, HSW⟩, HSQ⟩, Hg, Hq0, Hh0⟩, ⟨%W, -, HW⟩, ⟨%d0, H0⟩, ⟨%d1, H1⟩, ⟨%d2, H2⟩, ⟨%d3, H3⟩, ⟨%d4, H4⟩⟩
        have hV : View.ld wc (boxR t) = wSpec m c t := winv_use m c t (by omega) wc hwc
        have hAcc : k0_pay3 (View.ld wc (boxR t)) (iblk m c 0 t) k0_pay1 = accAt m c t.val t.isLt :=
          (congrArg (fun w => k0_pay3 w (iblk m c 0 t) k0_pay1) hV).trans (accAt_reset m c t hK0).symm
        iapply ((runD c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) ((hcondK0 t).mpr hK0) (fun h => hM ((hcondM0 t).mp h)) (fun h => hK3 ((hcondK3 t).mp h)) (iblk m c 0 t) (iblk m c 1 t) (iblk m c 2 t) (iblk m c 3 t) (accAt m c (t.val - 1) (Nat.lt_of_le_of_lt (Nat.sub_le _ _) t.isLt)) wc (V m c main_arg1)).2.2.2 _ W _)
        isplitl [H0]; · iexact H0
        isplitl [H1]; · iexact H1
        isplitl [H2]; · iexact H2
        isplitl [H3]; · iexact H3
        isplitl [H4]; · iexact H4
        isplitl [HSA]; · iexact HSA
        isplitl [HSW]; · iexact HSW
        isplitl [HSQ]; · iexact HSQ
        isplitl [Hq0]; · iexact Hq0
        isplitl [Hh0]; · iexact Hh0
        isplitl [HW]; · iexact HW
        iintro ⟨H0, H1, H2, H3, H4, ⟨%fa, HA⟩, HWc, HSQ, Hq0, Hh0, ⟨%W', HW'⟩⟩
        isplitl [HA HWc HSQ Hg Hq0 Hh0]
        · isplitl [HA HWc HSQ]
          · isplitl [HA]
            · unfold owns; iexists _; isplitr; swap; · iexact HA
              ipureintro
              exact (accD c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) ((hcondK0 t).mpr hK0) (fun h => hM ((hcondM0 t).mp h)) (fun h => hK3 ((hcondK3 t).mp h)) (iblk m c 0 t) (iblk m c 1 t) (iblk m c 2 t) (iblk m c 3 t) (accAt m c (t.val - 1) (Nat.lt_of_le_of_lt (Nat.sub_le _ _) t.isLt)) wc (V m c main_arg1) fa).trans hAcc
            isplitl [HWc]
            · iexists wc; isplitr
              · ipureintro; exact winv_keep m c t (by omega) wc hwc
              unfold owns; iexists _; isplitr; swap; · iexact HWc
              ipureintro; exact (Memref.isWhole_whole _).read_unread _
            iexact HSQ
          isplitl [Hg]; · iexact Hg
          isplitl [Hq0]; · iexact Hq0
          iexact Hh0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        iexists _; iexact H4
  · by_cases hK3 : t.val % 4 = 3
    · rw [show (dats m 0 c).leavesExact 4 t = owns (c : Thread nD τ) (ms0_4 t) fullShare ((dats m 0 c).after 4 t) from by
        unfold Dat.leavesExact; rw [liveAt0_4 t ((hcondK3 t).mpr hK3)], after0_4]
      by_cases hM : t.val % 64 < 4
      ·
        have hz : t.val ≠ 0 := by omega
        ·
          rw [PhiS_castSucc m c t, PhiS_pos m c _ _ hz]
          iintro ⟨⟨⟨HSA, ⟨%wc, %hwc, HSW⟩, HSQ⟩, Hg, Hq0, Hh0⟩, ⟨%W, -, HW⟩, ⟨%d0, H0⟩, ⟨%d1, H1⟩, ⟨%d2, H2⟩, ⟨%d3, H3⟩, ⟨%d4, H4⟩⟩
          have hV : wblk (qAt c (V m c main_arg1) t) (sAt (iblk m c 1 t) t) (sAt (iblk m c 2 t) t) = wSpec m c t := by
            unfold wSpec; rw [rep_of_m0 t hM]; rfl
          have hAcc : k0_pay3 (wblk (qAt c (V m c main_arg1) t) (sAt (iblk m c 1 t) t) (sAt (iblk m c 2 t) t)) (iblk m c 0 t) (accAt m c (t.val - 1) (Nat.lt_of_le_of_lt (Nat.sub_le _ _) t.isLt)) = accAt m c t.val t.isLt :=
            (congrArg (fun w => k0_pay3 w (iblk m c 0 t) (accAt m c (t.val - 1) (Nat.lt_of_le_of_lt (Nat.sub_le _ _) t.isLt))) hV).trans (accAt_step m c t hK0).symm
          iapply ((runC c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) (fun h => hK0 ((hcondK0 t).mp h)) ((hcondM0 t).mpr hM) ((hcondK3 t).mpr hK3) (iblk m c 0 t) (iblk m c 1 t) (iblk m c 2 t) (iblk m c 3 t) (accAt m c (t.val - 1) (Nat.lt_of_le_of_lt (Nat.sub_le _ _) t.isLt)) wc (V m c main_arg1)).2.2.2 _ W _)
          isplitl [H0]; · iexact H0
          isplitl [H1]; · iexact H1
          isplitl [H2]; · iexact H2
          isplitl [H3]; · iexact H3
          isplitl [H4]; · iexact H4
          isplitl [HSA]; · iexact HSA
          isplitl [HSW]; · iexact HSW
          isplitl [HSQ]; · iexact HSQ
          isplitl [Hq0]; · iexact Hq0
          isplitl [Hh0]; · iexact Hh0
          isplitl [HW]; · iexact HW
          iintro ⟨H0, H1, H2, H3, ⟨%fo, H4⟩, ⟨%fa, HA⟩, HWc, HSQ, Hq0, Hh0, ⟨%W', HW'⟩⟩
          isplitl [HA HWc HSQ Hg Hq0 Hh0]
          · isplitl [HA HWc HSQ]
            · isplitl [HA]
              · unfold owns; iexists _; isplitr; swap; · iexact HA
                ipureintro
                exact (accC c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) (fun h => hK0 ((hcondK0 t).mp h)) ((hcondM0 t).mpr hM) ((hcondK3 t).mpr hK3) (iblk m c 0 t) (iblk m c 1 t) (iblk m c 2 t) (iblk m c 3 t) (accAt m c (t.val - 1) (Nat.lt_of_le_of_lt (Nat.sub_le _ _) t.isLt)) wc (V m c main_arg1) fa).trans hAcc
              isplitl [HWc]
              · iexists (scW.view.read (Elt F) (scW.view.writes (Elt F) ((Memref.isWhole_whole _ : scW.IsWhole).unread wc) (runC c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) (fun h => hK0 ((hcondK0 t).mp h)) ((hcondM0 t).mpr hM) ((hcondK3 t).mpr hK3) (iblk m c 0 t) (iblk m c 1 t) (iblk m c 2 t) (iblk m c 3 t) (accAt m c (t.val - 1) (Nat.lt_of_le_of_lt (Nat.sub_le _ _) t.isLt)) wc (V m c main_arg1)).2.2.1)); isplitr
                · ipureintro
                  rw [cacheC c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) (fun h => hK0 ((hcondK0 t).mp h)) ((hcondM0 t).mpr hM) ((hcondK3 t).mpr hK3) (iblk m c 0 t) (iblk m c 1 t) (iblk m c 2 t) (iblk m c 3 t) (accAt m c (t.val - 1) (Nat.lt_of_le_of_lt (Nat.sub_le _ _) t.isLt)) wc (V m c main_arg1)]
                  exact winv_fill m c scW.view _ t hM (by omega) wc hwc ((Memref.isWhole_whole _).read_unread _)
                unfold owns; iexists _; isplitr; swap; · iexact HWc
                ipureintro; rfl
              iexact HSQ
            isplitl [Hg]; · iexact Hg
            isplitl [Hq0]; · iexact Hq0
            iexact Hh0
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          unfold owns; iexists _; isplitr; swap; · iexact H4
          ipureintro
          exact (outC c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) (fun h => hK0 ((hcondK0 t).mp h)) ((hcondM0 t).mpr hM) ((hcondK3 t).mpr hK3) (iblk m c 0 t) (iblk m c 1 t) (iblk m c 2 t) (iblk m c 3 t) (accAt m c (t.val - 1) (Nat.lt_of_le_of_lt (Nat.sub_le _ _) t.isLt)) wc (V m c main_arg1) fo).trans (congrArg (fun a => k0_pay4 a (iblk m c 3 t)) hAcc)
      ·
        have hz : t.val ≠ 0 := by omega
        ·
          rw [PhiS_castSucc m c t, PhiS_pos m c _ _ hz]
          iintro ⟨⟨⟨HSA, ⟨%wc, %hwc, HSW⟩, HSQ⟩, Hg, Hq0, Hh0⟩, ⟨%W, -, HW⟩, ⟨%d0, H0⟩, ⟨%d1, H1⟩, ⟨%d2, H2⟩, ⟨%d3, H3⟩, ⟨%d4, H4⟩⟩
          have hV : View.ld wc (boxR t) = wSpec m c t := winv_use m c t (by omega) wc hwc
          have hAcc : k0_pay3 (View.ld wc (boxR t)) (iblk m c 0 t) (accAt m c (t.val - 1) (Nat.lt_of_le_of_lt (Nat.sub_le _ _) t.isLt)) = accAt m c t.val t.isLt :=
            (congrArg (fun w => k0_pay3 w (iblk m c 0 t) (accAt m c (t.val - 1) (Nat.lt_of_le_of_lt (Nat.sub_le _ _) t.isLt))) hV).trans (accAt_step m c t hK0).symm
          iapply ((runG c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) (fun h => hK0 ((hcondK0 t).mp h)) (fun h => hM ((hcondM0 t).mp h)) ((hcondK3 t).mpr hK3) (iblk m c 0 t) (iblk m c 1 t) (iblk m c 2 t) (iblk m c 3 t) (accAt m c (t.val - 1) (Nat.lt_of_le_of_lt (Nat.sub_le _ _) t.isLt)) wc (V m c main_arg1)).2.2.2 _ W _)
          isplitl [H0]; · iexact H0
          isplitl [H1]; · iexact H1
          isplitl [H2]; · iexact H2
          isplitl [H3]; · iexact H3
          isplitl [H4]; · iexact H4
          isplitl [HSA]; · iexact HSA
          isplitl [HSW]; · iexact HSW
          isplitl [HSQ]; · iexact HSQ
          isplitl [Hq0]; · iexact Hq0
          isplitl [Hh0]; · iexact Hh0
          isplitl [HW]; · iexact HW
          iintro ⟨H0, H1, H2, H3, ⟨%fo, H4⟩, ⟨%fa, HA⟩, HWc, HSQ, Hq0, Hh0, ⟨%W', HW'⟩⟩
          isplitl [HA HWc HSQ Hg Hq0 Hh0]
          · isplitl [HA HWc HSQ]
            · isplitl [HA]
              · unfold owns; iexists _; isplitr; swap; · iexact HA
                ipureintro
                exact (accG c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) (fun h => hK0 ((hcondK0 t).mp h)) (fun h => hM ((hcondM0 t).mp h)) ((hcondK3 t).mpr hK3) (iblk m c 0 t) (iblk m c 1 t) (iblk m c 2 t) (iblk m c 3 t) (accAt m c (t.val - 1) (Nat.lt_of_le_of_lt (Nat.sub_le _ _) t.isLt)) wc (V m c main_arg1) fa).trans hAcc
              isplitl [HWc]
              · iexists wc; isplitr
                · ipureintro; exact winv_keep m c t (by omega) wc hwc
                unfold owns; iexists _; isplitr; swap; · iexact HWc
                ipureintro; exact (Memref.isWhole_whole _).read_unread _
              iexact HSQ
            isplitl [Hg]; · iexact Hg
            isplitl [Hq0]; · iexact Hq0
            iexact Hh0
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          unfold owns; iexists _; isplitr; swap; · iexact H4
          ipureintro
          exact (outG c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) (fun h => hK0 ((hcondK0 t).mp h)) (fun h => hM ((hcondM0 t).mp h)) ((hcondK3 t).mpr hK3) (iblk m c 0 t) (iblk m c 1 t) (iblk m c 2 t) (iblk m c 3 t) (accAt m c (t.val - 1) (Nat.lt_of_le_of_lt (Nat.sub_le _ _) t.isLt)) wc (V m c main_arg1) fo).trans (congrArg (fun a => k0_pay4 a (iblk m c 3 t)) hAcc)
    · rw [Dat.leavesExact_idle (dats m 0 c) 4 t (idleAt0_4 t (fun h => hK3 ((hcondK3 t).mp h))) (noFlush0_4 t (fun h => hK3 ((hcondK3 t).mp h)))]
      by_cases hM : t.val % 64 < 4
      ·
        have hz : t.val ≠ 0 := by omega
        ·
          rw [PhiS_castSucc m c t, PhiS_pos m c _ _ hz]
          iintro ⟨⟨⟨HSA, ⟨%wc, %hwc, HSW⟩, HSQ⟩, Hg, Hq0, Hh0⟩, ⟨%W, -, HW⟩, ⟨%d0, H0⟩, ⟨%d1, H1⟩, ⟨%d2, H2⟩, ⟨%d3, H3⟩, ⟨%d4, H4⟩⟩
          have hV : wblk (qAt c (V m c main_arg1) t) (sAt (iblk m c 1 t) t) (sAt (iblk m c 2 t) t) = wSpec m c t := by
            unfold wSpec; rw [rep_of_m0 t hM]; rfl
          have hAcc : k0_pay3 (wblk (qAt c (V m c main_arg1) t) (sAt (iblk m c 1 t) t) (sAt (iblk m c 2 t) t)) (iblk m c 0 t) (accAt m c (t.val - 1) (Nat.lt_of_le_of_lt (Nat.sub_le _ _) t.isLt)) = accAt m c t.val t.isLt :=
            (congrArg (fun w => k0_pay3 w (iblk m c 0 t) (accAt m c (t.val - 1) (Nat.lt_of_le_of_lt (Nat.sub_le _ _) t.isLt))) hV).trans (accAt_step m c t hK0).symm
          iapply ((runB c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) (fun h => hK0 ((hcondK0 t).mp h)) ((hcondM0 t).mpr hM) (fun h => hK3 ((hcondK3 t).mp h)) (iblk m c 0 t) (iblk m c 1 t) (iblk m c 2 t) (iblk m c 3 t) (accAt m c (t.val - 1) (Nat.lt_of_le_of_lt (Nat.sub_le _ _) t.isLt)) wc (V m c main_arg1)).2.2.2 _ W _)
          isplitl [H0]; · iexact H0
          isplitl [H1]; · iexact H1
          isplitl [H2]; · iexact H2
          isplitl [H3]; · iexact H3
          isplitl [H4]; · iexact H4
          isplitl [HSA]; · iexact HSA
          isplitl [HSW]; · iexact HSW
          isplitl [HSQ]; · iexact HSQ
          isplitl [Hq0]; · iexact Hq0
          isplitl [Hh0]; · iexact Hh0
          isplitl [HW]; · iexact HW
          iintro ⟨H0, H1, H2, H3, H4, ⟨%fa, HA⟩, HWc, HSQ, Hq0, Hh0, ⟨%W', HW'⟩⟩
          isplitl [HA HWc HSQ Hg Hq0 Hh0]
          · isplitl [HA HWc HSQ]
            · isplitl [HA]
              · unfold owns; iexists _; isplitr; swap; · iexact HA
                ipureintro
                exact (accB c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) (fun h => hK0 ((hcondK0 t).mp h)) ((hcondM0 t).mpr hM) (fun h => hK3 ((hcondK3 t).mp h)) (iblk m c 0 t) (iblk m c 1 t) (iblk m c 2 t) (iblk m c 3 t) (accAt m c (t.val - 1) (Nat.lt_of_le_of_lt (Nat.sub_le _ _) t.isLt)) wc (V m c main_arg1) fa).trans hAcc
              isplitl [HWc]
              · iexists (scW.view.read (Elt F) (scW.view.writes (Elt F) ((Memref.isWhole_whole _ : scW.IsWhole).unread wc) (runB c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) (fun h => hK0 ((hcondK0 t).mp h)) ((hcondM0 t).mpr hM) (fun h => hK3 ((hcondK3 t).mp h)) (iblk m c 0 t) (iblk m c 1 t) (iblk m c 2 t) (iblk m c 3 t) (accAt m c (t.val - 1) (Nat.lt_of_le_of_lt (Nat.sub_le _ _) t.isLt)) wc (V m c main_arg1)).2.2.1)); isplitr
                · ipureintro
                  rw [cacheB c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) (fun h => hK0 ((hcondK0 t).mp h)) ((hcondM0 t).mpr hM) (fun h => hK3 ((hcondK3 t).mp h)) (iblk m c 0 t) (iblk m c 1 t) (iblk m c 2 t) (iblk m c 3 t) (accAt m c (t.val - 1) (Nat.lt_of_le_of_lt (Nat.sub_le _ _) t.isLt)) wc (V m c main_arg1)]
                  exact winv_fill m c scW.view _ t hM (by omega) wc hwc ((Memref.isWhole_whole _).read_unread _)
                unfold owns; iexists _; isplitr; swap; · iexact HWc
                ipureintro; rfl
              iexact HSQ
            isplitl [Hg]; · iexact Hg
            isplitl [Hq0]; · iexact Hq0
            iexact Hh0
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          iexists _; iexact H4
      ·
        have hz : t.val ≠ 0 := by omega
        ·
          rw [PhiS_castSucc m c t, PhiS_pos m c _ _ hz]
          iintro ⟨⟨⟨HSA, ⟨%wc, %hwc, HSW⟩, HSQ⟩, Hg, Hq0, Hh0⟩, ⟨%W, -, HW⟩, ⟨%d0, H0⟩, ⟨%d1, H1⟩, ⟨%d2, H2⟩, ⟨%d3, H3⟩, ⟨%d4, H4⟩⟩
          have hV : View.ld wc (boxR t) = wSpec m c t := winv_use m c t (by omega) wc hwc
          have hAcc : k0_pay3 (View.ld wc (boxR t)) (iblk m c 0 t) (accAt m c (t.val - 1) (Nat.lt_of_le_of_lt (Nat.sub_le _ _) t.isLt)) = accAt m c t.val t.isLt :=
            (congrArg (fun w => k0_pay3 w (iblk m c 0 t) (accAt m c (t.val - 1) (Nat.lt_of_le_of_lt (Nat.sub_le _ _) t.isLt))) hV).trans (accAt_step m c t hK0).symm
          iapply ((runE c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) (fun h => hK0 ((hcondK0 t).mp h)) (fun h => hM ((hcondM0 t).mp h)) (fun h => hK3 ((hcondK3 t).mp h)) (iblk m c 0 t) (iblk m c 1 t) (iblk m c 2 t) (iblk m c 3 t) (accAt m c (t.val - 1) (Nat.lt_of_le_of_lt (Nat.sub_le _ _) t.isLt)) wc (V m c main_arg1)).2.2.2 _ W _)
          isplitl [H0]; · iexact H0
          isplitl [H1]; · iexact H1
          isplitl [H2]; · iexact H2
          isplitl [H3]; · iexact H3
          isplitl [H4]; · iexact H4
          isplitl [HSA]; · iexact HSA
          isplitl [HSW]; · iexact HSW
          isplitl [HSQ]; · iexact HSQ
          isplitl [Hq0]; · iexact Hq0
          isplitl [Hh0]; · iexact Hh0
          isplitl [HW]; · iexact HW
          iintro ⟨H0, H1, H2, H3, H4, ⟨%fa, HA⟩, HWc, HSQ, Hq0, Hh0, ⟨%W', HW'⟩⟩
          isplitl [HA HWc HSQ Hg Hq0 Hh0]
          · isplitl [HA HWc HSQ]
            · isplitl [HA]
              · unfold owns; iexists _; isplitr; swap; · iexact HA
                ipureintro
                exact (accE c t (ms0_0 t) (hs0_0 t) (ms0_1 t) (hs0_1 t) (ms0_2 t) (hs0_2 t) (ms0_3 t) (hs0_3 t) (ms0_4 t) (hs0_4 t) scAcc (Memref.isWhole_whole _) scW (Memref.isWhole_whole _) scQ (Memref.isWhole_whole _) (fun h => hK0 ((hcondK0 t).mp h)) (fun h => hM ((hcondM0 t).mp h)) (fun h => hK3 ((hcondK3 t).mp h)) (iblk m c 0 t) (iblk m c 1 t) (iblk m c 2 t) (iblk m c 3 t) (accAt m c (t.val - 1) (Nat.lt_of_le_of_lt (Nat.sub_le _ _) t.isLt)) wc (V m c main_arg1) fa).trans hAcc
              isplitl [HWc]
              · iexists wc; isplitr
                · ipureintro; exact winv_keep m c t (by omega) wc hwc
                unfold owns; iexists _; isplitr; swap; · iexact HWc
                ipureintro; exact (Memref.isWhole_whole _).read_unread _
              iexact HSQ
            isplitl [Hg]; · iexact Hg
            isplitl [Hq0]; · iexact Hq0
            iexact Hh0
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's back: the scratch contents are forgotten. -/
theorem hout (c : Dev nD) : (dats m 0 c).Φ (Fin.last cfg0.N) ⊢ Pipeline.ΦD osem0 spec0 H0 (V m) c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiD0_eq]
  iintro ⟨⟨HSA, ⟨%wc, -, HSW⟩, HSQ⟩, Hg, Hq0, Hh0⟩
  isplitl [HSA HSW HSQ]
  · isplitl [HSA]; · iexists _; iexact HSA
    isplitl [HSW]; · iexists _; iexact HSW
    iexact HSQ
  isplitl [Hg]; · iexact Hg
  isplitl [Hq0]; · iexact Hq0
  iexact Hh0

/-! ## The run and the frame -/

set_option backward.isDefEq.respectTransparency.types false in
/-- Every weakly fair execution of @main terminates, and every final state has each array of the
    region at what the proof data says and every other unscoped buffer as the last host line leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_dma_around cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := hin m) (hout := hout m)

/-- The frame: the program runs to the end and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.ReadsIdeal.lean ====
/-
  The blocks of a point and the host reshapes, read at an index.

  Point t has k = t % 4, m = (t / 4) % 16, n = t / 64. The activation block of the point is rows
  `512 m …` and columns `1024 k …` of the activations laid out as 8192 rows (row `2048 a + r` for
  batch `a`, row `r`); the scale, zero-point and bias blocks are columns `2048 n …` of their arrays; the
  copied packed words are rows `128 k …`, columns `2048 n …` of the packed weights, and the eight
  scale rows of the weight block are rows `8 k …` of the scale block. After the region the 8192-row
  result is laid out back as `4 × 2048` rows.
-/
import proofs.«405182_j16458314678409_3_alg».proof.Proof.PointIdeal
import Idealize.ShloMosaic.Lib.Pipeline.Value
import Idealize.ShloMosaic.Lib.ValueIdx
import Idealize.ShloMosaic.Lib.StableHlo.Run

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]
variable (m : (ℓ : Loc nD τ sig) → Buf (Elt F) ℓ) (c : Dev nD)

/-- The grid has 128 points. -/
theorem t_lt (t : Fin cfg0.N) : t.val < 128 := lt_of_lt_of_eq t.isLt (show cfg0.N = 128 from N_0)

/-! ## The windows' blocks -/

/-- The block index of each window at point `t`: the activation window moves with `m` and `k`, the
    scale, zero-point and bias windows with `n` alone. -/
theorem idx0_0_0 : ∀ t : Fin cfg0.N, win0_0.index t (0 : Fin 2) = t.val / 4 % 16 :=
  (by decide +kernel : ∀ t : Fin grid0.N, win0_0.index t (0 : Fin 2) = t.val / 4 % 16)
theorem idx0_0_1 : ∀ t : Fin cfg0.N, win0_0.index t (1 : Fin 2) = t.val % 4 :=
  (by decide +kernel : ∀ t : Fin grid0.N, win0_0.index t (1 : Fin 2) = t.val % 4)
theorem idx0_1_0 : ∀ t : Fin cfg0.N, win0_1.index t (0 : Fin 2) = 0 :=
  (by decide +kernel : ∀ t : Fin grid0.N, win0_1.index t (0 : Fin 2) = 0)
theorem idx0_1_1 : ∀ t : Fin cfg0.N, win0_1.index t (1 : Fin 2) = t.val / 64 :=
  (by decide +kernel : ∀ t : Fin grid0.N, win0_1.index t (1 : Fin 2) = t.val / 64)
theorem idx0_2_0 : ∀ t : Fin cfg0.N, win0_2.index t (0 : Fin 2) = 0 :=
  (by decide +kernel : ∀ t : Fin grid0.N, win0_2.index t (0 : Fin 2) = 0)
theorem idx0_2_1 : ∀ t : Fin cfg0.N, win0_2.index t (1 : Fin 2) = t.val / 64 :=
  (by decide +kernel : ∀ t : Fin grid0.N, win0_2.index t (1 : Fin 2) = t.val / 64)
theorem idx0_3_0 : ∀ t : Fin cfg0.N, win0_3.index t (0 : Fin 2) = 0 :=
  (by decide +kernel : ∀ t : Fin grid0.N, win0_3.index t (0 : Fin 2) = 0)
theorem idx0_3_1 : ∀ t : Fin cfg0.N, win0_3.index t (1 : Fin 2) = t.val / 64 :=
  (by decide +kernel : ∀ t : Fin grid0.N, win0_3.index t (1 : Fin 2) = t.val / 64)

theorem xb_apply (t : Fin cfg0.N) (r : Fin 512) (j : Fin 1024) :
    xb m c t (ix2 r j)
      = (V m c main_v0 : S8192x4096.Idx → Elt F .f32)
          (ix2 (⟨(t.val / 4 % 16) * 512 + r.val, by have := t_lt t; omega⟩ : Fin 8192) (⟨(t.val % 4) * 1024 + j.val, by omega⟩ : Fin 4096)) := by
  show (V m c main_v0 : S8192x4096.Idx → Elt F .f32) ((win0_0.rect t).emb (ix2 r j)) = _
  refine congrArg (V m c main_v0 : S8192x4096.Idx → Elt F .f32) (funext fun a => Fin.ext ?_)
  rw [Rect.emb_apply]
  match a with
  | ⟨0, _⟩ =>
    show win0_0.index t (0 : Fin 2) * 512 + 1 * r.val = (t.val / 4 % 16) * 512 + r.val
    rw [idx0_0_0 t]; omega
  | ⟨1, _⟩ =>
    show win0_0.index t (1 : Fin 2) * 1024 + 1 * j.val = (t.val % 4) * 1024 + j.val
    rw [idx0_0_1 t]; omega

theorem sb_apply (t : Fin cfg0.N) (g : Fin 32) (col : Fin 2048) :
    sb m c t (ix2 g col)
      = (V m c main_arg2 : S32x4096.Idx → Elt F .f32) (ix2 g (⟨(t.val / 64) * 2048 + col.val, by have := t_lt t; omega⟩ : Fin 4096)) := by
  show (V m c main_arg2 : S32x4096.Idx → Elt F .f32) ((win0_1.rect t).emb (ix2 g col)) = _
  refine congrArg (V m c main_arg2 : S32x4096.Idx → Elt F .f32) (funext fun a => Fin.ext ?_)
  rw [Rect.emb_apply]
  match a with
  | ⟨0, _⟩ =>
    show win0_1.index t (0 : Fin 2) * 32 + 1 * g.val = g.val
    rw [idx0_1_0 t]; omega
  | ⟨1, _⟩ =>
    show win0_1.index t (1 : Fin 2) * 2048 + 1 * col.val = (t.val / 64) * 2048 + col.val
    rw [idx0_1_1 t]; omega

theorem zb_apply (t : Fin cfg0.N) (g : Fin 32) (col : Fin 2048) :
    zb m c t (ix2 g col)
      = (V m c main_arg3 : S32x4096.Idx → Elt F .f32) (ix2 g (⟨(t.val / 64) * 2048 + col.val, by have := t_lt t; omega⟩ : Fin 4096)) := by
  show (V m c main_arg3 : S32x4096.Idx → Elt F .f32) ((win0_2.rect t).emb (ix2 g col)) = _
  refine congrArg (V m c main_arg3 : S32x4096.Idx → Elt F .f32) (funext fun a => Fin.ext ?_)
  rw [Rect.emb_apply]
  match a with
  | ⟨0, _⟩ =>
    show win0_2.index t (0 : Fin 2) * 32 + 1 * g.val = g.val
    rw [idx0_2_0 t]; omega
  | ⟨1, _⟩ =>
    show win0_2.index t (1 : Fin 2) * 2048 + 1 * col.val = (t.val / 64) * 2048 + col.val
    rw [idx0_2_1 t]; omega

theorem bb_apply (t : Fin cfg0.N) (col : Fin 2048) :
    bb m c t (ix2 (0 : Fin 1) col)
      = (V m c main_v1 : S1x4096.Idx → Elt F .f32) (ix2 (0 : Fin 1) (⟨(t.val / 64) * 2048 + col.val, by have := t_lt t; omega⟩ : Fin 4096)) := by
  show (V m c main_v1 : S1x4096.Idx → Elt F .f32) ((win0_3.rect t).emb (ix2 (0 : Fin 1) col)) = _
  refine congrArg (V m c main_v1 : S1x4096.Idx → Elt F .f32) (funext fun a => Fin.ext ?_)
  rw [Rect.emb_apply]
  match a with
  | ⟨0, _⟩ =>
    show win0_3.index t (0 : Fin 2) * 1 + 1 * 0 = 0
    rw [idx0_3_0 t]
  | ⟨1, _⟩ =>
    show win0_3.index t (1 : Fin 2) * 2048 + 1 * col.val = (t.val / 64) * 2048 + col.val
    rw [idx0_3_1 t]; omega

/-! ## The copied words and the scale rows of a weight block -/

theorem qAt_apply (fh : HbBuf0 (F := F) c hbQ) (t : Fin cfg0.N) (p : Fin 128) (col : Fin 2048) :
    qAt c fh t (ix2 p col)
      = (fh : S512x4096.Idx → Elt F .i32)
          (ix2 (⟨(t.val % 4) * 128 + p.val, by omega⟩ : Fin 512) (⟨(t.val / 64) * 2048 + col.val, by have := t_lt t; omega⟩ : Fin 4096)) := by
  unfold qAt
  show (fh : S512x4096.Idx → Elt F .i32)
      ((Rect.unit (s := S512x4096) (k0_off1 (grid0.coords t)) S128x2048.size (off1_inb t)).emb (ix2 p col)) = _
  refine congrArg (fh : S512x4096.Idx → Elt F .i32) (funext fun a => Fin.ext ?_)
  rw [Rect.emb_apply]
  show k0_off1 (grid0.coords t) a + 1 * ((ix2 p col) a).val = _
  rw [off1_eq t]
  match a with
  | ⟨0, _⟩ => show (t.val % 4) * 128 + 1 * p.val = (t.val % 4) * 128 + p.val; omega
  | ⟨1, _⟩ => show (t.val / 64) * 2048 + 1 * col.val = (t.val / 64) * 2048 + col.val; omega

theorem sAt_apply (x : Vec F S32x2048 .f32) (t : Fin cfg0.N) (g : Fin 8) (col : Fin 2048) :
    sAt x t (ix2 g col) = x (ix2 (⟨(t.val % 4) * 8 + g.val, by omega⟩ : Fin 32) col) := by
  unfold sAt
  show x ((rows8 t).idx (ix2 g col)) = _
  refine congrArg x (funext fun a => Fin.ext ?_)
  show k0_off2 (grid0.coords t) a + 1 * ((ix2 g col) a).val = _
  rw [off2_eq t]
  match a with
  | ⟨0, _⟩ => show (t.val % 4) * 8 + 1 * g.val = (t.val % 4) * 8 + g.val; omega
  | ⟨1, _⟩ => show 0 + 1 * col.val = col.val; omega

/-! ## The host reshapes around the region -/

/-- Before the region the activations are laid out as 8192 rows: a reshape of the argument. -/
theorem V_main_v0_eq :
    (V m c main_v0 : S8192x4096.Idx → Elt F .f32)
      = shapeCast S8192x4096 (m ((c : Thread nD τ).loc main_arg0) : S4x2048x4096.Idx → Elt F .f32)
          shapeCasts_S4x2048x4096_S8192x4096 := by
  dsimp only [V, V0]
  simp only [hostOps0, List.flatten_cons, List.flatten_nil, List.append_nil, List.cons_append, List.nil_append]
  after_results
  rfl

/-- Before the region the bias is laid out as one row: a reshape of the argument. -/
theorem V_main_v1_eq :
    (V m c main_v1 : S1x4096.Idx → Elt F .f32)
      = shapeCast S1x4096 (m ((c : Thread nD τ).loc main_arg4) : S4096.Idx → Elt F .f32) shapeCasts_S4096_S1x4096 := by
  dsimp only [V, V0]
  simp only [hostOps0, List.flatten_cons, List.flatten_nil, List.append_nil, List.cons_append, List.nil_append]
  after_results
  rfl

/-- The activations as the region finds them: 8192 rows, row `2048 a + r` from batch `a`, row `r`. -/
theorem V_main_v0_apply (R : Fin 8192) (i : Fin 4096) :
    (V m c main_v0 : S8192x4096.Idx → Elt F .f32) (ix2 R i)
      = (m ((c : Thread nD τ).loc main_arg0) : S4x2048x4096.Idx → Elt F .f32)
          (ix3 (⟨R.val / 2048, by omega⟩ : Fin 4) (⟨R.val % 2048, Nat.mod_lt _ (by norm_num)⟩ : Fin 2048) i) := by
  have hR := R.isLt
  have hi := i.isLt
  rw [V_main_v0_eq]
  refine shapeCast_apply _ _ _ _ ?_
  show (S4x2048x4096.rowMajor (ix3 (⟨R.val / 2048, by omega⟩ : Fin 4) (⟨R.val % 2048, Nat.mod_lt _ (by norm_num)⟩ : Fin 2048) i)).val
    = (S8192x4096.rowMajor (ix2 R i)).val
  rw [Shape.rowMajor_val_three, Shape.rowMajor_val_two]
  show (R.val / 2048 * 2048 + R.val % 2048) * 4096 + i.val = R.val * 4096 + i.val
  omega

/-- The bias as the region finds it: one row. -/
theorem V_main_v1_apply (o : Fin 4096) :
    (V m c main_v1 : S1x4096.Idx → Elt F .f32) (ix2 (0 : Fin 1) o)
      = (m ((c : Thread nD τ).loc main_arg4) : S4096.Idx → Elt F .f32) (ix1 o) := by
  rw [V_main_v1_eq]
  refine shapeCast_apply _ _ _ _ ?_
  show (S4096.rowMajor (ix1 o)).val = (S1x4096.rowMajor (ix2 (0 : Fin 1) o)).val
  rw [Shape.rowMajor_val_one, Shape.rowMajor_val_two]
  show o.val = 0 * 4096 + o.val
  omega

/-- After the region the result is laid out back as `4 × 2048` rows: a reshape of the region's output array. -/
theorem tail_main_v3_eq (dats : (p : Fin 1) → (c : Dev nD) → Dat τ (Elt F) Unit ℕ (Pipeline.UD sig nD τ) ℕ (cfgs p) c) :
    (Pipeline.afterTail₀ cfgs dats 0 (V0 m) [hostOps1] c main_v3 : S4x2048x4096.Idx → Elt F .f32)
      = shapeCast S4x2048x4096 ((dats 0 c).arrAt 4 cfg0.N : S8192x4096.Idx → Elt F .f32)
          shapeCasts_S8192x4096_S4x2048x4096 := by
  unfold Pipeline.afterTail₀
  simp only [hostOps1, List.flatten_cons, List.flatten_nil, List.append_nil, List.cons_append, List.nil_append]
  after_results
  have e := Pipeline.withArrays_arr spec0 launch0.win.arr_inj c (V0 m c) (fun w => (dats 0 c).arrAt w cfg0.N) 4
  rw [← e]
  rfl

/-- The result after the last host line: `[a, r, o]` is row `2048 a + r` of what the region left in its
    output array. -/
theorem tail_main_v3_apply (dats : (p : Fin 1) → (c : Dev nD) → Dat τ (Elt F) Unit ℕ (Pipeline.UD sig nD τ) ℕ (cfgs p) c)
    (a : Fin 4) (r : Fin 2048) (o : Fin 4096) :
    (Pipeline.afterTail₀ cfgs dats 0 (V0 m) [hostOps1] c main_v3 : S4x2048x4096.Idx → Elt F .f32) (ix3 a r o)
      = ((dats 0 c).arrAt 4 cfg0.N : S8192x4096.Idx → Elt F .f32) (ix2 (⟨a.val * 2048 + r.val, by omega⟩ : Fin 8192) o) := by
  rw [tail_main_v3_eq]
  refine shapeCast_apply _ _ _ _ ?_
  show (S8192x4096.rowMajor (ix2 (⟨a.val * 2048 + r.val, by omega⟩ : Fin 8192) o)).val
    = (S4x2048x4096.rowMajor (ix3 a r o)).val
  rw [Shape.rowMajor_val_two, Shape.rowMajor_val_three]
  show (a.val * 2048 + r.val) * 4096 + o.val = (a.val * 2048 + r.val) * 4096 + o.val
  rfl

end Cert.KernelIdeal.Hand

end
-- ==== Proof.Spec.lean ====
/-
  The mathematics both programs compute, stated once with no program in sight.

  A packed word `q[p, o]` holds eight 4-bit fields. Input feature `i` of output feature `o` is field
  `i % 8` of word `q[i / 8, o]`: the word shifted right (arithmetically) by `4 · (i % 8)` and masked
  to its low four bits, a number in `0 … 15`. Features come in groups of 128 that share a scale and
  a zero point: the weight is `field · scale[i / 128, o] − zero[i / 128, o]`. The layer's output at
  batch `a`, row `r`, output feature `o` is the dot product of row `x[a, r, ·]` with column `o` of
  that weight matrix, plus `bias[o]`.

  Everything is over the extended reals, where a float is the number it denotes and a change of
  float format is the identity. Addition there is a commutative monoid (with `⊤ + ⊥ = ⊥`), so a sum
  over the 4096 input features may be taken in four runs of 1024 and added up in order without any
  finiteness assumption: `sum_four_runs`.
-/
import Idealize.ShloMosaic.PureOps.Ideal
import Idealize.ShloMosaic.Lib.ValueIdx

noncomputable section

namespace Cert.QLin

open Idealize.ShloMosaic Idealize.ShloMosaic.ValueIdx

/-- The packed weight words, `512 × 4096`. -/
abbrev Words := (⟨2, ![512, 4096]⟩ : Shape).Idx → BitVec 32
/-- A per-group table (scales, zero points), `32 × 4096`. -/
abbrev Groups := (⟨2, ![32, 4096]⟩ : Shape).Idx → EReal
/-- The activations, `4 × 2048 × 4096`. -/
abbrev Acts := (⟨3, ![4, 2048, 4096]⟩ : Shape).Idx → EReal
/-- The bias, `4096`. -/
abbrev Bias := (⟨1, ![4096]⟩ : Shape).Idx → EReal

/-- The word that holds input feature `i`. -/
abbrev wordRow (i : Fin 4096) : Fin 512 := ⟨i.val / 8, by omega⟩
/-- The group input feature `i` belongs to. -/
abbrev groupRow (i : Fin 4096) : Fin 32 := ⟨i.val / 128, by omega⟩

/-- How far the word is shifted to bring field `j` to the bottom: `j · 4`, computed in 32-bit words. -/
def shiftOf (j : Nat) : BitVec 32 := IntOp.muli (BitVec.ofNat 32 j) 4#32

/-- Field `i % 8` of word `q[i / 8, o]`. -/
def field (q : Words) (i o : Fin 4096) : BitVec 32 :=
  IntOp.andi (IntOp.shrsi .vector (q (ix2 (wordRow i) o)) (shiftOf (i.val % 8))) 15#32

/-- The dequantized weight: the field as a number, times its group's scale, less its group's zero point. -/
def weight (q : Words) (s z : Groups) (i o : Fin 4096) : EReal :=
  (FloatOps.sitofp (F := Ideal) .f32 (field q i o) : EReal) * s (ix2 (groupRow i) o) - z (ix2 (groupRow i) o)

/-- The output at `[a, r, o]`: the row of `x` against the weight column, plus the bias. -/
def outAt (x : Acts) (q : Words) (s z : Groups) (b : Bias) (a : Fin 4) (r : Fin 2048) (o : Fin 4096) : EReal :=
  (∑ i : Fin 4096, x (ix3 a r i) * weight q s z i o) + b (ix1 o)

/-- The whole output array. -/
def out (x : Acts) (q : Words) (s z : Groups) (b : Bias) : Acts :=
  fun j => outAt x q s z b (j 0) (j 1) (j 2)

/-- Input feature number `k · 1024 + j`: the `j`-th of the `k`-th run of 1024. -/
abbrev feat (k : Fin 4) (j : Fin 1024) : Fin 4096 := ⟨k.val * 1024 + j.val, by omega⟩

/-- The 4096 input features as four runs of 1024. -/
def featEquiv : Fin 4 × Fin 1024 ≃ Fin 4096 where
  toFun p := feat p.1 p.2
  invFun i := (⟨i.val / 1024, by omega⟩, ⟨i.val % 1024, Nat.mod_lt _ (by norm_num)⟩)
  left_inv p := by
    obtain ⟨⟨k, hk⟩, ⟨j, hj⟩⟩ := p
    simp only [feat, Prod.mk.injEq, Fin.mk.injEq]
    constructor <;> omega
  right_inv i := by
    apply Fin.ext
    simp only [feat]
    omega

/-- A sum over the 4096 input features is the sum of its four runs of 1024, added up from zero in
    order — the order in which a tiled accumulation visits them. -/
theorem sum_four_runs (f : Fin 4096 → EReal) :
    ∑ i : Fin 4096, f i
      = (((0 + ∑ j : Fin 1024, f (feat 0 j)) + ∑ j : Fin 1024, f (feat 1 j)) + ∑ j : Fin 1024, f (feat 2 j))
          + ∑ j : Fin 1024, f (feat 3 j) := by
  rw [← Equiv.sum_comp featEquiv f, Fintype.sum_prod_type, Fin.sum_univ_four, zero_add]
  rfl

end Cert.QLin

end
-- ==== Proof.PayIdeal.lean ====
/-
  The body's arithmetic over the extended reals, read at an index.

  Over the extended reals a float is the number it denotes, a change of float format is the
  identity, and the matrix unit's product into a zero accumulator is the plain sum of products.
  So: a group of a weight block is "field times scale minus zero point" entry by entry
  (`grp_apply`); one accumulation step adds to the accumulator the dot product of a row of the
  activation block with a column of the weight block (`accStep_apply`); the final store adds the
  bias row (`addBias_apply`); and the reset value is zero (`zeroBlock_apply`).
-/
import proofs.«405182_j16458314678409_3_alg».proof.Proof.GroupsIdeal
import proofs.«405182_j16458314678409_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen

/-- Row `rr` of group `g` comes from packed-word row `16 g + rr / 8` of the block. -/
abbrev wordRowOf (g : Fin 8) (rr : Fin 128) : Fin 128 := ⟨g.val * 16 + rr.val / 8, by omega⟩

/-! ## The layout steps of a group, read at an index

Group `g` takes sixteen rows of packed words starting at row `c = 16 g`, spreads each over its eight
fields (`[16, 2048] → [16, 1, 2048] → [16, 8, 2048]`), shifts and masks, and lays the result out as
128 rows (`[16, 8, 2048] → [128, 2048]`, row `rr = 8 p + j`); the scale and zero-point rows `g` are
cut out and repeated down the 128 rows. -/

/-- A `[16, 8, 2048]` array laid out as 128 rows: row `rr` is entry `[rr / 8, rr % 8, ·]`. -/
theorem unpack_apply {α : Type} (x : S16x8x2048.Idx → α) (rr : Fin 128) (col : Fin 2048) :
    shapeCast S128x2048 x shapeCasts_S16x8x2048_S128x2048 (ix2 rr col)
      = x (ix3 (⟨rr.val / 8, by omega⟩ : Fin 16) (⟨rr.val % 8, by omega⟩ : Fin 8) col) := by
  have hr := rr.isLt
  have hcol := col.isLt
  refine shapeCast_apply x _ _ _ ?_
  rw [Shape.rowMajor_val_three, Shape.rowMajor_val_two]
  show (rr.val / 8 * 8 + rr.val % 8) * 2048 + col.val = rr.val * 2048 + col.val
  omega

/-- Sixteen rows cut out at row `c` and spread over eight fields: entry `[p, j, col]` is the word at
    `[c + p, col]`, whatever `j`. -/
theorem spread_apply {α : Type} (c : Nat) (hc : c + 16 ≤ 128) (hs : S128x2048.Slices ![c, 0] S16x2048)
    (q : S128x2048.Idx → α) (p : Fin 16) (j : Fin 8) (col : Fin 2048) :
    broadcastTo S16x8x2048 (shapeCast S16x1x2048 (extractStridedSlice S16x2048 ![c, 0] q hs) shapeCasts_S16x2048_S16x1x2048) broadcasts_S16x1x2048_S16x8x2048 (ix3 p j col)
      = q (ix2 (⟨c + p.val, by omega⟩ : Fin 128) col) := by
  have hcol := col.isLt
  refine (broadcastTo_apply _ _ (ix3 p j col) (ix3 p (0 : Fin 1) col) fun a => ?_).trans ?_
  · match a with
    | ⟨0, _⟩ => show p.val = if (16 : Nat) = 1 then 0 else p.val; rw [if_neg (by decide)]
    | ⟨1, _⟩ => show 0 = if (1 : Nat) = 1 then 0 else j.val; rw [if_pos rfl]
    | ⟨2, _⟩ => show col.val = if (2048 : Nat) = 1 then 0 else col.val; rw [if_neg (by decide)]
  refine (shapeCast_apply _ _ (ix3 p (0 : Fin 1) col) (ix2 p col) ?_).trans ?_
  · rw [Shape.rowMajor_val_two, Shape.rowMajor_val_three]
    show p.val * 2048 + col.val = (p.val * 1 + 0) * 2048 + col.val
    omega
  exact extractStridedSlice_apply _ q hs (ix2 p col) _ fun a => match a with
    | ⟨0, _⟩ => rfl
    | ⟨1, _⟩ => by show col.val = 0 + col.val; omega

/-- The shift amounts: entry `[p, j, col]` is `4 j`, computed in 32-bit words. -/
theorem shifts_apply (p : Fin 16) (j : Fin 8) (col : Fin 2048) :
    k0_pay5 (ix3 p j col) = Cert.QLin.shiftOf j.val := by
  unfold k0_pay5 Cert.QLin.shiftOf
  show IntOp.muli (iota .tc S16x8x2048 32 [1] iota_S16x8x2048_d1_w32 (ix3 p j col)) 4#32 = _
  rw [iota_single_apply]

/-- Row `g` of an eight-row table cut out and repeated down 128 rows: entry `[rr, col]` is `[g, col]`. -/
theorem row_apply {α : Type} (g : Nat) (hg : g < 8) (hz : S8x2048.Slices ![g, 0] S1x2048)
    (t : S8x2048.Idx → α) (rr : Fin 128) (col : Fin 2048) :
    broadcastTo S128x2048 (extractStridedSlice S1x2048 ![g, 0] t hz) broadcasts_S1x2048_S128x2048 (ix2 rr col) = t (ix2 (⟨g, hg⟩ : Fin 8) col) := by
  refine (broadcastTo_apply _ _ (ix2 rr col) (ix2 (0 : Fin 1) col) fun a => ?_).trans ?_
  · match a with
    | ⟨0, _⟩ => show 0 = if (1 : Nat) = 1 then 0 else rr.val; rw [if_pos rfl]
    | ⟨1, _⟩ => show col.val = if (2048 : Nat) = 1 then 0 else col.val; rw [if_neg (by decide)]
  exact extractStridedSlice_apply _ t hz (ix2 (0 : Fin 1) col) _ fun a => match a with
    | ⟨0, _⟩ => rfl
    | ⟨1, _⟩ => by show col.val = 0 + col.val; omega

/-- The integer fields of the group that starts at word row `c`: entry `[rr, col]` is field `rr % 8` of
    the word at `[c + rr / 8, col]`. -/
theorem fields_apply (c : Nat) (hc : c + 16 ≤ 128) (hs : S128x2048.Slices ![c, 0] S16x2048)
    (q : IVec S128x2048 32) (rr : Fin 128) (col : Fin 2048) :
    shapeCast S128x2048 (andi (shrsi (broadcastTo S16x8x2048 (shapeCast S16x1x2048 (extractStridedSlice S16x2048 ![c, 0] q hs) shapeCasts_S16x2048_S16x1x2048) broadcasts_S16x1x2048_S16x8x2048) k0_pay5) (broadcast S16x8x2048 15#32)) shapeCasts_S16x8x2048_S128x2048 (ix2 rr col)
      = IntOp.andi (IntOp.shrsi .vector (q (ix2 (⟨c + rr.val / 8, by omega⟩ : Fin 128) col))
          (Cert.QLin.shiftOf (rr.val % 8))) 15#32 := by
  rw [unpack_apply]
  show IntOp.andi (IntOp.shrsi .vector
      ((broadcastTo S16x8x2048 (shapeCast S16x1x2048 (extractStridedSlice S16x2048 ![c, 0] q hs) shapeCasts_S16x2048_S16x1x2048) broadcasts_S16x1x2048_S16x8x2048) (ix3 (⟨rr.val / 8, by omega⟩ : Fin 16) (⟨rr.val % 8, by omega⟩ : Fin 8) col))
      (k0_pay5 (ix3 (⟨rr.val / 8, by omega⟩ : Fin 16) (⟨rr.val % 8, by omega⟩ : Fin 8) col))) 15#32 = _
  rw [spread_apply c hc hs, shifts_apply]

/-- The whole computation of the group that starts at word row `c` and uses table row `g`. -/
theorem group_apply (c g : Nat) (hc : c + 16 ≤ 128) (hg : g < 8) (hs : S128x2048.Slices ![c, 0] S16x2048)
    (hz : S8x2048.Slices ![g, 0] S1x2048) (q : IVec S128x2048 32) (s z : FVec Ideal S8x2048 .f32)
    (rr : Fin 128) (col : Fin 2048) :
    shapeCast S128x2048 (truncf .bf16 (subf (mulf (sitofp (F := Ideal) .f32 (shapeCast S128x2048 (andi (shrsi (broadcastTo S16x8x2048 (shapeCast S16x1x2048 (extractStridedSlice S16x2048 ![c, 0] q hs) shapeCasts_S16x2048_S16x1x2048) broadcasts_S16x1x2048_S16x8x2048) k0_pay5) (broadcast S16x8x2048 15#32)) shapeCasts_S16x8x2048_S128x2048))
        (broadcastTo S128x2048 (extractStridedSlice S1x2048 ![g, 0] s hz) broadcasts_S1x2048_S128x2048)) (broadcastTo S128x2048 (extractStridedSlice S1x2048 ![g, 0] z hz) broadcasts_S1x2048_S128x2048)) bitsLt_bf16_f32) shapeCasts_S128x2048_S128x2048 (ix2 rr col)
      = (FloatOps.sitofp (F := Ideal) .f32
            (IntOp.andi (IntOp.shrsi .vector (q (ix2 (⟨c + rr.val / 8, by omega⟩ : Fin 128) col))
              (Cert.QLin.shiftOf (rr.val % 8))) 15#32) : EReal)
          * s (ix2 (⟨g, hg⟩ : Fin 8) col) - z (ix2 (⟨g, hg⟩ : Fin 8) col) := by
  rw [shapeCast_self, truncf_apply, subf_apply, mulf_apply, sitofp_apply, row_apply g hg hz s, row_apply g hg hz z,
    fields_apply c hc hs]

/-- A group of a weight block, entry by entry: the 4-bit field as a number, times the group's scale,
    less the group's zero point. -/
theorem grp_apply (g : Fin 8) (q : Vec Ideal S128x2048 .i32) (s z : Vec Ideal S8x2048 .f32) (rr : Fin 128) (col : Fin 2048) :
    grp (F := Ideal) g q s z (ix2 rr col)
      = (FloatOps.sitofp (F := Ideal) .f32
            (IntOp.andi (IntOp.shrsi .vector (q (ix2 (wordRowOf g rr) col)) (Cert.QLin.shiftOf (rr.val % 8))) 15#32) : EReal)
          * s (ix2 g col) - z (ix2 g col) := by
  match g with
  | ⟨0, _⟩ => exact group_apply 0 0 (by omega) (by omega) slices_S128x2048_o0_0_S16x2048 slices_S8x2048_o0_0_S1x2048 q s z rr col
  | ⟨1, _⟩ => exact group_apply 16 1 (by omega) (by omega) slices_S128x2048_o16_0_S16x2048 slices_S8x2048_o1_0_S1x2048 q s z rr col
  | ⟨2, _⟩ => exact group_apply 32 2 (by omega) (by omega) slices_S128x2048_o32_0_S16x2048 slices_S8x2048_o2_0_S1x2048 q s z rr col
  | ⟨3, _⟩ => exact group_apply 48 3 (by omega) (by omega) slices_S128x2048_o48_0_S16x2048 slices_S8x2048_o3_0_S1x2048 q s z rr col
  | ⟨4, _⟩ => exact group_apply 64 4 (by omega) (by omega) slices_S128x2048_o64_0_S16x2048 slices_S8x2048_o4_0_S1x2048 q s z rr col
  | ⟨5, _⟩ => exact group_apply 80 5 (by omega) (by omega) slices_S128x2048_o80_0_S16x2048 slices_S8x2048_o5_0_S1x2048 q s z rr col
  | ⟨6, _⟩ => exact group_apply 96 6 (by omega) (by omega) slices_S128x2048_o96_0_S16x2048 slices_S8x2048_o6_0_S1x2048 q s z rr col
  | ⟨7, _⟩ => exact group_apply 112 7 (by omega) (by omega) slices_S128x2048_o112_0_S16x2048 slices_S8x2048_o7_0_S1x2048 q s z rr col

/-! ## The matrix product's operand indices, axis by axis

The product contracts axis 1 of the activation block with axis 0 of the weight block; the output's
row indexes the activation block's axis 0 and the output's column the weight block's axis 1. -/

/-- The left operand's row is the output's row. -/
theorem dot_lhs_0 (i : S512x2048.Idx) (q : dot_S512x1024_S1024x2048_S512x2048_1_0_0_1_n_n.contr.Idx) :
    (dot_S512x1024_S1024x2048_S512x2048_1_0_0_1_n_n.lhsIdx i q 0).val = (i 0).val := by
  unfold DotDims.lhsIdx
  rw [dif_neg (show ¬(0 : Fin S512x1024.rank) ∈ dot_S512x1024_S1024x2048_S512x2048_1_0_0_1_n_n.lhsBatch by decide),
    dif_pos (show (0 : Fin S512x1024.rank) ∈ dot_S512x1024_S1024x2048_S512x2048_1_0_0_1_n_n.lhsNonContracting by decide)]
  rfl

/-- The left operand's column is the contraction position. -/
theorem dot_lhs_1 (i : S512x2048.Idx) (q : dot_S512x1024_S1024x2048_S512x2048_1_0_0_1_n_n.contr.Idx) :
    (dot_S512x1024_S1024x2048_S512x2048_1_0_0_1_n_n.lhsIdx i q 1).val = (q ⟨0, by decide⟩).val :=
  dot_S512x1024_S1024x2048_S512x2048_1_0_0_1_n_n.lhsIdx_val_of_single rfl i q

/-- The right operand's row is the contraction position. -/
theorem dot_rhs_0 (i : S512x2048.Idx) (q : dot_S512x1024_S1024x2048_S512x2048_1_0_0_1_n_n.contr.Idx) :
    (dot_S512x1024_S1024x2048_S512x2048_1_0_0_1_n_n.rhsIdx i q 0).val = (q ⟨0, by decide⟩).val :=
  dot_S512x1024_S1024x2048_S512x2048_1_0_0_1_n_n.rhsIdx_val_of_single rfl i q

/-- The right operand's column is the output's column. -/
theorem dot_rhs_1 (i : S512x2048.Idx) (q : dot_S512x1024_S1024x2048_S512x2048_1_0_0_1_n_n.contr.Idx) :
    (dot_S512x1024_S1024x2048_S512x2048_1_0_0_1_n_n.rhsIdx i q 1).val = (i 1).val := by
  unfold DotDims.rhsIdx
  rw [dif_neg (show ¬(1 : Fin S1024x2048.rank) ∈ dot_S512x1024_S1024x2048_S512x2048_1_0_0_1_n_n.rhsBatch by decide),
    dif_pos (show (1 : Fin S1024x2048.rank) ∈ dot_S512x1024_S1024x2048_S512x2048_1_0_0_1_n_n.rhsNonContracting by decide)]
  rfl

/-- One accumulation step: the accumulator plus the dot product of row `r` of the activation block
    with column `col` of the weight block. -/
theorem accStep_apply (w : Vec Ideal S1024x2048 .bf16) (x : Vec Ideal S512x1024 .f32) (a : Vec Ideal S512x2048 .f32)
    (r : Fin 512) (col : Fin 2048) :
    k0_pay3 (F := Ideal) w x a (ix2 r col) = a (ix2 r col) + ∑ j : Fin 1024, x (ix2 r j) * w (ix2 j col) := by
  unfold k0_pay3
  rw [shapeCast_self, shapeCast_self, addf_apply]
  simp only [matmul]
  rw [Ideal.matmul_constant_zero_apply,
    ← Equiv.sum_comp (contrEquiv1 dot_S512x1024_S1024x2048_S512x2048_1_0_0_1_n_n 1024 rfl rfl).symm]
  refine congrArg (a (ix2 r col) + ·) (Finset.sum_congr rfl fun k _ => ?_)
  have hk := contrEquiv1_symm_val dot_S512x1024_S1024x2048_S512x2048_1_0_0_1_n_n 1024 rfl rfl k
  have el : dot_S512x1024_S1024x2048_S512x2048_1_0_0_1_n_n.lhsIdx (ix2 r col) ((contrEquiv1 dot_S512x1024_S1024x2048_S512x2048_1_0_0_1_n_n 1024 rfl rfl).symm k) = ix2 r k :=
    funext fun d => Fin.ext (by
      match d with
      | ⟨0, _⟩ => exact dot_lhs_0 _ _
      | ⟨1, _⟩ => exact (dot_lhs_1 _ _).trans hk)
  have er : dot_S512x1024_S1024x2048_S512x2048_1_0_0_1_n_n.rhsIdx (ix2 r col) ((contrEquiv1 dot_S512x1024_S1024x2048_S512x2048_1_0_0_1_n_n 1024 rfl rfl).symm k) = ix2 k col :=
    funext fun d => Fin.ext (by
      match d with
      | ⟨0, _⟩ => exact (dot_rhs_0 _ _).trans hk
      | ⟨1, _⟩ => exact dot_rhs_1 _ _)
  rw [el, er, truncf_apply]

/-- The final store: the accumulator plus the bias row. -/
theorem addBias_apply (a : Vec Ideal S512x2048 .f32) (b : Vec Ideal S1x2048 .f32) (r : Fin 512) (col : Fin 2048) :
    k0_pay4 (F := Ideal) a b (ix2 r col) = a (ix2 r col) + b (ix2 (0 : Fin 1) col) := by
  unfold k0_pay4
  rw [shapeCast_self, addf_apply]
  refine congrArg (a (ix2 r col) + ·) ?_
  exact broadcastTo_apply b broadcasts_S1x2048_S512x2048 (ix2 r col) (ix2 (0 : Fin 1) col) (fun d => match d with
    | ⟨0, _⟩ => by show 0 = if (1 : Nat) = 1 then 0 else r.val; rw [if_pos rfl]
    | ⟨1, _⟩ => by show col.val = if (2048 : Nat) = 1 then 0 else col.val; rw [if_neg (by decide)])

/-- The reset value is zero. -/
theorem zeroBlock_apply (r : Fin 512) (col : Fin 2048) : k0_pay1 (F := Ideal) (ix2 r col) = (0 : EReal) := by
  unfold k0_pay1
  rw [shapeCast_self]
  exact Ideal.ofBits_zero_f32

end Cert.KernelIdeal.Hand

end
-- ==== Proof.WeightIdeal.lean ====
/-
  Over the extended reals the weight block (n, k) is the specification's weight matrix on rows
  `1024 k …` and columns `2048 n …`.

  Row `r` of the block is input feature `i = 1024 k + r`. Its group in the block is `r / 128`, which is
  group `i / 128 = 8 k + r / 128` of the scale and zero-point tables; its packed word is row
  `16 (r / 128) + (r % 128) / 8` of the copied words, which is row `i / 8` of the packed weights; its
  field number is `(r % 128) % 8 = i % 8`.
-/
import proofs.«405182_j16458314678409_3_alg».proof.Proof.ReadsIdeal
import proofs.«405182_j16458314678409_3_alg».proof.Proof.PayIdeal
import proofs.«405182_j16458314678409_3_alg».proof.Proof.InvIdeal

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (c : Dev nD)

/-- The argument arrays of core `c`, by their literal types. -/
abbrev argX : Cert.QLin.Acts := (m ((c : Thread nD τ).loc main_arg0) : S4x2048x4096.Idx → EReal)
abbrev argQ : Cert.QLin.Words := (m ((c : Thread nD τ).loc main_arg1) : S512x4096.Idx → BitVec 32)
abbrev argS : Cert.QLin.Groups := (m ((c : Thread nD τ).loc main_arg2) : S32x4096.Idx → EReal)
abbrev argZ : Cert.QLin.Groups := (m ((c : Thread nD τ).loc main_arg3) : S32x4096.Idx → EReal)
abbrev argB : Cert.QLin.Bias := (m ((c : Thread nD τ).loc main_arg4) : S4096.Idx → EReal)

/-- The weight block computed at any point `t'`, entry by entry: rows `1024 k …`, columns `2048 n …` of the
    specification's weight matrix, with `k = t' % 4` and `n = t' / 64`. -/
theorem wAt_apply (t' : Fin cfg0.N) (r : Fin 1024) (col : Fin 2048) :
    wAt (F := Ideal) m c t' (ix2 r col)
      = Cert.QLin.weight (argQ m c) (argS m c) (argZ m c)
          (⟨(t'.val % 4) * 1024 + r.val, by omega⟩ : Fin 4096) (⟨(t'.val / 64) * 2048 + col.val, by have := pt_lt t'; omega⟩ : Fin 4096) := by
  have ht := pt_lt t'
  have hr := r.isLt
  have hc := col.isLt
  unfold wAt
  show grp (⟨r.val / 128, by omega⟩ : Fin 8) (qAt c (qarr m c) t') (sAt (sb m c t') t') (sAt (zb m c t') t')
      (ix2 (⟨r.val % 128, Nat.mod_lt _ (by norm_num)⟩ : Fin 128) col) = _
  rw [grp_apply, qAt_apply, sAt_apply, sAt_apply, sb_apply, zb_apply, V_main_arg2, V_main_arg3,
    show qarr m c = m ((c : Thread nD τ).loc main_arg1) from V_main_arg1 m c]
  unfold Cert.QLin.weight Cert.QLin.field
  -- the packed word: row `128 k + 16 (r / 128) + (r % 128) / 8` is row `(1024 k + r) / 8`
  have hw : (⟨t'.val % 4 * 128
        + (wordRowOf (⟨r.val / 128, by omega⟩ : Fin 8) (⟨r.val % 128, Nat.mod_lt _ (by norm_num)⟩ : Fin 128)).val,
        by show t'.val % 4 * 128 + (r.val / 128 * 16 + r.val % 128 / 8) < 512; omega⟩ : Fin 512)
      = Cert.QLin.wordRow ⟨t'.val % 4 * 1024 + r.val, by omega⟩ :=
    Fin.ext (by show t'.val % 4 * 128 + (r.val / 128 * 16 + r.val % 128 / 8) = (t'.val % 4 * 1024 + r.val) / 8; omega)
  -- the field number: `(r % 128) % 8` is `(1024 k + r) % 8`
  have hs : Cert.QLin.shiftOf ((⟨r.val % 128, Nat.mod_lt _ (by norm_num)⟩ : Fin 128).val % 8)
      = Cert.QLin.shiftOf ((⟨t'.val % 4 * 1024 + r.val, by omega⟩ : Fin 4096).val % 8) :=
    congrArg Cert.QLin.shiftOf (by show r.val % 128 % 8 = (t'.val % 4 * 1024 + r.val) % 8; omega)
  -- the group: row `8 k + r / 128` of the tables is row `(1024 k + r) / 128`
  have hg : (⟨t'.val % 4 * 8 + (⟨r.val / 128, by omega⟩ : Fin 8).val,
        by show t'.val % 4 * 8 + r.val / 128 < 32; omega⟩ : Fin 32)
      = Cert.QLin.groupRow ⟨t'.val % 4 * 1024 + r.val, by omega⟩ :=
    Fin.ext (by show t'.val % 4 * 8 + r.val / 128 = (t'.val % 4 * 1024 + r.val) / 128; omega)
  rw [hw, hs, hg]

/-- The specified weight block of point `t`, entry by entry. -/
theorem wSpec_apply (t : Fin cfg0.N) (r : Fin 1024) (col : Fin 2048) :
    wSpec (F := Ideal) m c t (ix2 r col)
      = Cert.QLin.weight (argQ m c) (argS m c) (argZ m c)
          (⟨(t.val % 4) * 1024 + r.val, by omega⟩ : Fin 4096) (⟨(t.val / 64) * 2048 + col.val, by have := pt_lt t; omega⟩ : Fin 4096) := by
  have ht := pt_lt t
  have hr := r.isLt
  have hc := col.isLt
  -- the representative of `t` has the same `k` and the same `n`
  have h4 : (rep t).val % 4 = t.val % 4 := by
    show (t.val / 64 * 64 + t.val % 4) % 4 = t.val % 4
    omega
  have h64 : (rep t).val / 64 = t.val / 64 := by
    show (t.val / 64 * 64 + t.val % 4) / 64 = t.val / 64
    omega
  have hi : (⟨(rep t).val % 4 * 1024 + r.val, by omega⟩ : Fin 4096) = ⟨t.val % 4 * 1024 + r.val, by omega⟩ :=
    Fin.ext (by show (rep t).val % 4 * 1024 + r.val = t.val % 4 * 1024 + r.val; omega)
  have ho : (⟨(rep t).val / 64 * 2048 + col.val, by have := pt_lt (rep t); omega⟩ : Fin 4096)
      = ⟨t.val / 64 * 2048 + col.val, by omega⟩ :=
    Fin.ext (by show (rep t).val / 64 * 2048 + col.val = t.val / 64 * 2048 + col.val; omega)
  unfold wSpec
  rw [wAt_apply, hi, ho]

end Cert.KernelIdeal.Hand

end
-- ==== Proof.AccIdeal.lean ====
/-
  Over the extended reals the accumulator after a point with k = 3 is the whole dot product, and the
  output block is that plus the bias.

  The four points (n, m, 0 … 3) add, in order and starting from zero, the products of the four runs of
  1024 input features; a sum over the 4096 features is the sum of its four runs added up in that
  order.
-/
import proofs.«405182_j16458314678409_3_alg».proof.Proof.WeightIdeal

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (c : Dev nD)

/-- The reshaped activations as the region finds them. -/
abbrev X2 : S8192x4096.Idx → EReal := (V m c main_v0 : S8192x4096.Idx → EReal)

/-- One accumulation step at a point with `k = t' % 4`, `m = t' / 4 % 16 = M`, `n = t' / 64 = N`: the
    accumulator gains the products of run `k` of the input features, row `512 M + r` of the activations
    against column `2048 N + col` of the weights. -/
theorem point_apply (t' : Fin cfg0.N) (k : Fin 4) (M N : Nat) (hM : M < 16) (hN : N < 2)
    (hk : t'.val % 4 = k.val) (hm : t'.val / 4 % 16 = M) (hn : t'.val / 64 = N)
    (a : Vec Ideal S512x2048 .f32) (r : Fin 512) (col : Fin 2048) :
    k0_pay3 (F := Ideal) (wSpec m c t') (xb m c t') a (ix2 r col)
      = a (ix2 r col) + ∑ j : Fin 1024,
          X2 m c (ix2 (⟨M * 512 + r.val, by omega⟩ : Fin 8192) (Cert.QLin.feat k j))
            * Cert.QLin.weight (argQ m c) (argS m c) (argZ m c) (Cert.QLin.feat k j) (⟨N * 2048 + col.val, by omega⟩ : Fin 4096) := by
  subst hm hn
  rw [accStep_apply]
  refine congrArg (a (ix2 r col) + ·) (Finset.sum_congr rfl fun j _ => ?_)
  have hj : (⟨t'.val % 4 * 1024 + j.val, by omega⟩ : Fin 4096) = Cert.QLin.feat k j :=
    Fin.ext (by show t'.val % 4 * 1024 + j.val = k.val * 1024 + j.val; rw [hk])
  rw [xb_apply, wSpec_apply, hj]

/-- A point with `k ≠ 0` adds its run to the accumulator of the point before. -/
theorem step_apply (t' : Fin cfg0.N) (hk0 : t'.val % 4 ≠ 0) (k : Fin 4) (M N : Nat) (hM : M < 16) (hN : N < 2)
    (hk : t'.val % 4 = k.val) (hm : t'.val / 4 % 16 = M) (hn : t'.val / 64 = N) (r : Fin 512) (col : Fin 2048) :
    accAt (F := Ideal) m c t'.val t'.isLt (ix2 r col)
      = accAt (F := Ideal) m c (prev t').val (prev t').isLt (ix2 r col) + ∑ j : Fin 1024,
          X2 m c (ix2 (⟨M * 512 + r.val, by omega⟩ : Fin 8192) (Cert.QLin.feat k j))
            * Cert.QLin.weight (argQ m c) (argS m c) (argZ m c) (Cert.QLin.feat k j) (⟨N * 2048 + col.val, by omega⟩ : Fin 4096) := by
  rw [accAt_step m c t' hk0]
  exact point_apply m c t' k M N hM hN hk hm hn _ r col

/-- A point with `k = 0` starts from zero. -/
theorem reset_apply (t' : Fin cfg0.N) (hk0 : t'.val % 4 = 0) (k : Fin 4) (M N : Nat) (hM : M < 16) (hN : N < 2)
    (hk : t'.val % 4 = k.val) (hm : t'.val / 4 % 16 = M) (hn : t'.val / 64 = N) (r : Fin 512) (col : Fin 2048) :
    accAt (F := Ideal) m c t'.val t'.isLt (ix2 r col)
      = 0 + ∑ j : Fin 1024,
          X2 m c (ix2 (⟨M * 512 + r.val, by omega⟩ : Fin 8192) (Cert.QLin.feat k j))
            * Cert.QLin.weight (argQ m c) (argS m c) (argZ m c) (Cert.QLin.feat k j) (⟨N * 2048 + col.val, by omega⟩ : Fin 4096) := by
  rw [accAt_reset m c t' hk0, point_apply m c t' k M N hM hN hk hm hn, zeroBlock_apply]

/-- The accumulator after a point with k = 3: row `512 m + r` of the activations against column
    `2048 n + col` of the weights. -/
theorem accAt_last (t : Fin cfg0.N) (hk : t.val % 4 = 3) (r : Fin 512) (col : Fin 2048) :
    accAt (F := Ideal) m c t.val t.isLt (ix2 r col)
      = ∑ i : Fin 4096, X2 m c (ix2 (⟨(t.val / 4 % 16) * 512 + r.val, by have := pt_lt t; omega⟩ : Fin 8192) i)
          * Cert.QLin.weight (argQ m c) (argS m c) (argZ m c) i (⟨(t.val / 64) * 2048 + col.val, by have := pt_lt t; omega⟩ : Fin 4096) := by
  have ht := pt_lt t
  have hM : t.val / 4 % 16 < 16 := by omega
  have hN : t.val / 64 < 2 := by omega
  -- the four points `t - 3 … t` have `k = 0 … 3`, the same `m` and the same `n`
  rw [step_apply m c t (by omega) 3 (t.val / 4 % 16) (t.val / 64) hM hN (by show t.val % 4 = 3; exact hk) rfl rfl,
    step_apply m c (prev t) (by show (t.val - 1) % 4 ≠ 0; omega) 2 (t.val / 4 % 16) (t.val / 64) hM hN
      (by show (t.val - 1) % 4 = 2; omega) (by show (t.val - 1) / 4 % 16 = t.val / 4 % 16; omega)
      (by show (t.val - 1) / 64 = t.val / 64; omega),
    step_apply m c (prev (prev t)) (by show (t.val - 1 - 1) % 4 ≠ 0; omega) 1 (t.val / 4 % 16) (t.val / 64) hM hN
      (by show (t.val - 1 - 1) % 4 = 1; omega) (by show (t.val - 1 - 1) / 4 % 16 = t.val / 4 % 16; omega)
      (by show (t.val - 1 - 1) / 64 = t.val / 64; omega),
    reset_apply m c (prev (prev (prev t))) (by show (t.val - 1 - 1 - 1) % 4 = 0; omega) 0 (t.val / 4 % 16) (t.val / 64) hM hN
      (by show (t.val - 1 - 1 - 1) % 4 = 0; omega) (by show (t.val - 1 - 1 - 1) / 4 % 16 = t.val / 4 % 16; omega)
      (by show (t.val - 1 - 1 - 1) / 64 = t.val / 64; omega),
    Cert.QLin.sum_four_runs (fun i => X2 m c (ix2 (⟨(t.val / 4 % 16) * 512 + r.val, by omega⟩ : Fin 8192) i)
      * Cert.QLin.weight (argQ m c) (argS m c) (argZ m c) i (⟨(t.val / 64) * 2048 + col.val, by omega⟩ : Fin 4096))]

/-- The output block stored at a point with k = 3. -/
theorem outAt_apply (t : Fin cfg0.N) (hk : t.val % 4 = 3) (r : Fin 512) (col : Fin 2048) :
    outAt (F := Ideal) m c t (ix2 r col)
      = (∑ i : Fin 4096, X2 m c (ix2 (⟨(t.val / 4 % 16) * 512 + r.val, by have := pt_lt t; omega⟩ : Fin 8192) i)
          * Cert.QLin.weight (argQ m c) (argS m c) (argZ m c) i (⟨(t.val / 64) * 2048 + col.val, by have := pt_lt t; omega⟩ : Fin 4096))
        + argB m c (ix1 (⟨(t.val / 64) * 2048 + col.val, by have := pt_lt t; omega⟩ : Fin 4096)) := by
  unfold outAt
  rw [addBias_apply, accAt_last m c t hk, bb_apply, V_main_v1_apply]

end Cert.KernelIdeal.Hand

end
-- ==== Proof.ValueIdeal.lean ====
/-
  What the idealized kernel's run leaves in its result, as a function of the arguments.

  The region's output array is 8192 rows by 4096 columns; row `R` is batch `R / 2048`, row `R % 2048`
  of the activations. The output window's block at point t is rows `512 m …`, columns `2048 n …`,
  and it is written back at the points with k = 3, where it holds the accumulator plus the bias: the
  whole dot product plus the bias, by the two preceding modules. Every index (R, o) lies in the block
  of the point with n = o / 2048, m = R / 512, k = 3, so the array ends holding that function
  everywhere, and the last host line lays it out as the specification's output.
-/
import proofs.«405182_j16458314678409_3_alg».proof.Proof.BodyIdeal
import proofs.«405182_j16458314678409_3_alg».proof.Proof.AccIdeal

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (c : Dev nD)

variable (ρ : Dev nD → PrngReg)

/-- The region's output array after the run: at row `R`, column `o`, the specification's output at batch
    `R / 2048`, row `R % 2048`. -/
def result2 (c : Dev nD) : Buf (Elt Ideal) ((c : Thread nD τ).loc main_v2) :=
  (fun j => Cert.QLin.outAt (argX m c) (argQ m c) (argS m c) (argZ m c) (argB m c)
      (⟨(j 0).val / 2048, by have := idx2_lt0 j; omega⟩ : Fin 4) (⟨(j 0).val % 2048, Nat.mod_lt _ (by norm_num)⟩ : Fin 2048)
      (⟨(j 1).val, idx2_lt1 j⟩ : Fin 4096) : S8192x4096.Idx → EReal)

/-- The output window's block index at a point: (m, n). -/
theorem idx4 : ∀ t : Fin cfg0.N, win0_4.index t (0 : Fin 2) = t.val / 4 % 16 ∧ win0_4.index t (1 : Fin 2) = t.val / 64 :=
  (by decide +kernel : ∀ t : Fin grid0.N, win0_4.index t (0 : Fin 2) = t.val / 4 % 16 ∧ win0_4.index t (1 : Fin 2) = t.val / 64)

/-- What a point with k = 3 writes back is its block of `result2`. -/
theorem flushed_eq (t : Fin cfg0.N) (hf : (cfg0.win 4).flush t = true) :
    (dats m 0 c).flushed 4 t = ((cfg0.win 4).blk t).view.read (Elt Ideal) (result2 m c) := by
  have hk : t.val % 4 = 3 := (flush0_4 t).mp hf
  have hN := pt_lt t
  obtain ⟨e0, e1⟩ := idx4 t
  show (cfg0.win 4).cut (grid0.coords t) ((dats m 0 c).after 4 t) = _
  rw [after0_4]
  funext j
  obtain ⟨r, col, rfl⟩ : ∃ (r : Fin 512) (col : Fin 2048), j = ix2 r col := ⟨j 0, j 1, eq_ix2 j⟩
  show outAt m c t (ix2 r col) = result2 m c (((cfg0.win 4).blk t).view.emb (ix2 r col))
  have hemb : ((cfg0.win 4).blk t).view.emb (ix2 r col)
      = (ix2 (⟨(t.val / 4 % 16) * 512 + r.val, by omega⟩ : Fin 8192) (⟨(t.val / 64) * 2048 + col.val, by omega⟩ : Fin 4096) : S8192x4096.Idx) := by
    funext a; apply Fin.ext
    match a with
    | ⟨0, _⟩ => show win0_4.index t (0 : Fin 2) * 512 + 1 * r.val = (t.val / 4 % 16) * 512 + r.val; rw [e0]; omega
    | ⟨1, _⟩ => show win0_4.index t (1 : Fin 2) * 2048 + 1 * col.val = (t.val / 64) * 2048 + col.val; rw [e1]; omega
  rw [hemb, outAt_apply m c t hk r col]
  unfold result2 Cert.QLin.outAt
  congr 1
  refine Finset.sum_congr rfl fun i _ => ?_
  congr 1
  rw [show X2 m c = (V m c main_v0 : S8192x4096.Idx → EReal) from rfl, V_main_v0_apply]

/-- Every index of the output array lies in the block of a point that writes it back. -/
theorem covered (i : S8192x4096.Idx) :
    ∃ t : Fin cfg0.N, (cfg0.win 4).flush t = true ∧ i ∈ ((cfg0.win 4).blk t).view.set := by
  have h0 : (i 0).val < 8192 := idx2_lt0 i
  have h1 : (i 1).val < 4096 := idx2_lt1 i
  let t : Fin cfg0.N := ⟨(i 1).val / 2048 * 64 + (i 0).val / 512 * 4 + 3, by show _ < grid0.N; rw [N_0]; omega⟩
  have ht : t.val = (i 1).val / 2048 * 64 + (i 0).val / 512 * 4 + 3 := rfl
  obtain ⟨e0, e1⟩ := idx4 t
  refine ⟨t, (flush0_4 t).mpr (by omega), ?_⟩
  show i ∈ ((View.whole main_v2).slice (win0_4.rect t)).set
  rw [View.set_slice_whole, Rect.mem_set_unit]
  intro a
  match a with
  | ⟨0, _⟩ =>
    show win0_4.index t (0 : Fin 2) * 512 ≤ (i 0).val ∧ (i 0).val < win0_4.index t (0 : Fin 2) * 512 + 512
    rw [e0]; omega
  | ⟨1, _⟩ =>
    show win0_4.index t (1 : Fin 2) * 2048 ≤ (i 1).val ∧ (i 1).val < win0_4.index t (1 : Fin 2) * 2048 + 2048
    rw [e1]; omega

/-- The output array after the run. -/
theorem final4 : (dats m 0 c).arrAt 4 cfg0.N = result2 m c :=
  (dats m 0 c).arrAt_eq_of_cover 4 (result2 m c) (flushed_eq m c) covered

/-- The program's result after the last host line is the specification's output of the arguments. -/
theorem result_eq :
    (Pipeline.afterTail₀ cfgs (dats m) 0 (V0 m) [hostOps1] c main_v3 : S4x2048x4096.Idx → EReal)
      = Cert.QLin.out (argX m c) (argQ m c) (argS m c) (argZ m c) (argB m c) := by
  funext j
  obtain ⟨a, r, o, rfl⟩ : ∃ (a : Fin 4) (r : Fin 2048) (o : Fin 4096), j = ix3 a r o := ⟨j 0, j 1, j 2, eq_ix3 j⟩
  rw [tail_main_v3_apply m c (dats m) a r o, final4 m c]
  unfold result2 Cert.QLin.out
  show Cert.QLin.outAt _ _ _ _ _ (⟨(a.val * 2048 + r.val) / 2048, _⟩ : Fin 4) (⟨(a.val * 2048 + r.val) % 2048, _⟩ : Fin 2048) (⟨o.val, _⟩ : Fin 4096)
      = Cert.QLin.outAt _ _ _ _ _ a r o
  congr 1 <;> apply Fin.ext <;> simp only [] <;> omega

/-- The run of the idealized kernel's program: it ends with its result at the specification's output of
    its arguments, and the arguments unchanged. -/
theorem kernel_run : θ_run defs (onTc (τ := τ) (main (F := Ideal))) ⟨m, fun _ => 0, ρ⟩ fun r => ∀ c : Dev nD,
      r.2.mem ((c.tc : Thread nD τ).loc main_v3) = Cert.QLin.out (argX m c) (argQ m c) (argS m c) (argZ m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v3 (Pipeline.mem_restRefs_of main_v3 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      (((h c).2 main_arg4 (Pipeline.mem_restRefs_of main_arg4 (by decide) (by decide))).trans (W_main_arg4 m (dats m) c))⟩)
    (run_main m ρ)

end Cert.KernelIdeal.Hand

end
-- ==== Proof.RefValue.lean ====
/-
  The reference computes `Cert.QLin.out`: read off the generated run of its host operations, one
  operation at a time, at an index.
-/
import proofs.«405182_j16458314678409_3_alg».proof.Proof.Gen.ReferenceIdeal.Read
import proofs.«405182_j16458314678409_3_alg».proof.Proof.Spec
import Idealize.ShloMosaic.Lib.KernelVsHost

noncomputable section

namespace Cert.ReferenceIdeal.RefValue

open Idealize.ShloMosaic Idealize.ShloMosaic.ValueIdx Cert.ReferenceIdeal Cert.ReferenceIdeal.Gen
open Cert.ReferenceIdeal.Read Cert.QLin

/-! ## Where row `k` of a 4096-row array sits before the reshape

The reference builds its 4096 × 4096 arrays by reshaping a `512 × 8 × 4096` array (row `k = p · 8 + j`)
and two `32 × 128 × 4096` arrays (row `k = g · 128 + r`). Row-major order keeps the last axis, so entry
`[k, o]` comes from `[k / 8, k % 8, o]`, respectively from `[k / 128, k % 128, o]`. -/

/-- The field number of input feature `k` inside its word. -/
abbrev fieldNo (k : Fin 4096) : Fin 8 := ⟨k.val % 8, Nat.mod_lt _ (by norm_num)⟩

/-- The place of input feature `k` inside its group. -/
abbrev inGroup (k : Fin 4096) : Fin 128 := ⟨k.val % 128, Nat.mod_lt _ (by norm_num)⟩

/-- Entry `[k, o]` of the reshaped field array is entry `[k / 8, k % 8, o]` of the unreshaped one. -/
theorem idx_v10 (k o : Fin 4096) : idx_main_v10 (ix2 k o) = ix3 (wordRow k) (fieldNo k) o := by
  have hk := k.isLt
  have ho := o.isLt
  funext a
  match a with
  | ⟨0, _⟩ => exact Fin.ext (by show (k.val * 4096 + o.val) / 32768 = k.val / 8; omega)
  | ⟨1, _⟩ => exact Fin.ext (by show (k.val * 4096 + o.val) / 4096 % 8 = k.val % 8; omega)
  | ⟨2, _⟩ => exact Fin.ext (by show (k.val * 4096 + o.val) % 4096 = o.val; omega)

/-- Entry `[k, o]` of the reshaped scale array is entry `[k / 128, k % 128, o]` of the unreshaped one. -/
theorem idx_v13 (k o : Fin 4096) : idx_main_v13 (ix2 k o) = ix3 (groupRow k) (inGroup k) o := by
  have hk := k.isLt
  have ho := o.isLt
  funext a
  match a with
  | ⟨0, _⟩ => exact Fin.ext (by show (k.val * 4096 + o.val) / 524288 = k.val / 128; omega)
  | ⟨1, _⟩ => exact Fin.ext (by show (k.val * 4096 + o.val) / 4096 % 128 = k.val % 128; omega)
  | ⟨2, _⟩ => exact Fin.ext (by show (k.val * 4096 + o.val) % 4096 = o.val; omega)

/-- The same for the reshaped zero-point array. -/
theorem idx_v15 (k o : Fin 4096) : idx_main_v15 (ix2 k o) = ix3 (groupRow k) (inGroup k) o := by
  have hk := k.isLt
  have ho := o.isLt
  funext a
  match a with
  | ⟨0, _⟩ => exact Fin.ext (by show (k.val * 4096 + o.val) / 524288 = k.val / 128; omega)
  | ⟨1, _⟩ => exact Fin.ext (by show (k.val * 4096 + o.val) / 4096 % 128 = k.val % 128; omega)
  | ⟨2, _⟩ => exact Fin.ext (by show (k.val * 4096 + o.val) % 4096 = o.val; omega)

/-! ## Broadcasts forget the axes they add -/

/-- The word array broadcast along the field axis: entry `[p, j, o]` is word `[p, o]`. -/
theorem idx_words (p : Fin 512) (j : Fin 8) (o : Fin 4096) :
    idx_main_v3 (idx_main_v5 (ix3 p j o)) = ix2 p o := by
  funext a
  match a with
  | ⟨0, _⟩ => rfl
  | ⟨1, _⟩ => rfl

/-- The shift amounts broadcast along the word and output axes: entry `[p, j, o]` is amount `j`. -/
theorem idx_shifts (p : Fin 512) (j : Fin 8) (o : Fin 4096) :
    idx_main_v4 (idx_main_v6 (ix3 p j o)) = ix1 j := by
  funext a
  match a with
  | ⟨0, _⟩ => rfl

/-- The scale table broadcast along the in-group axis: entry `[g, r, o]` is scale `[g, o]`. -/
theorem idx_scales (g : Fin 32) (r : Fin 128) (o : Fin 4096) : idx_main_v12 (ix3 g r o) = ix2 g o := by
  funext a
  match a with
  | ⟨0, _⟩ => rfl
  | ⟨1, _⟩ => rfl

/-- The zero-point table broadcast along the in-group axis: entry `[g, r, o]` is zero point `[g, o]`. -/
theorem idx_zeros (g : Fin 32) (r : Fin 128) (o : Fin 4096) : idx_main_v14 (ix3 g r o) = ix2 g o := by
  funext a
  match a with
  | ⟨0, _⟩ => rfl
  | ⟨1, _⟩ => rfl

/-- The bias broadcast along batch and row: entry `[a, r, o]` is `bias[o]`. -/
theorem idx_bias (a : Fin 4) (r : Fin 2048) (o : Fin 4096) :
    idx_main_v19 (idx_main_v20 (ix3 a r o)) = ix1 o := by
  funext d
  match d with
  | ⟨0, _⟩ => rfl

/-- The contraction reads the activations at `[a, r, k]`. -/
theorem idx_lhs (a : Fin 4) (r : Fin 2048) (o k : Fin 4096) : lidx_main_v18 (ix3 a r o) k = ix3 a r k := by
  funext d
  match d with
  | ⟨0, _⟩ => rfl
  | ⟨1, _⟩ => rfl
  | ⟨2, _⟩ => rfl

/-- The contraction reads the weights at `[k, o]`. -/
theorem idx_rhs (a : Fin 4) (r : Fin 2048) (o k : Fin 4096) : ridx_main_v18 (ix3 a r o) k = ix2 k o := by
  funext d
  match d with
  | ⟨0, _⟩ => rfl
  | ⟨1, _⟩ => rfl

/-! ## The weight matrix -/

/-- Entry `[k, o]` of the reference's integer field array is field `k % 8` of word `[k / 8, o]`. The
    reference shifts on the host and the specification on the vector unit; on 32-bit words the two
    arithmetic shifts are the same function. -/
theorem fieldArray_apply (x1 : (⟨S512x4096, .i32⟩ : BufTy).Contents (Elt Ideal)) (k o : Fin 4096) :
    val_main_v10 (F := Ideal) x1 (ix2 k o) = field x1 k o := by
  rw [val_main_v10_apply, idx_v10, val_main_v9_apply, val_main_v7_apply, val_main_v5_apply, val_main_v3_apply,
    idx_words, val_main_v6_apply, val_main_v4_apply, idx_shifts, val_main_v2_apply, val_main_v0_apply,
    val_main_v1_apply, val_main_c_apply, val_main_v8_apply, val_main_c_0_apply,
    shrsi_unit .host .vector]
  rfl

/-- Entry `[k, o]` of the reference's dequantized array is the specification's weight. -/
theorem weightArray_apply (x1 : (⟨S512x4096, .i32⟩ : BufTy).Contents (Elt Ideal))
    (x2 x3 : (⟨S32x4096, .f32⟩ : BufTy).Contents (Elt Ideal)) (k o : Fin 4096) :
    val_main_v17 (F := Ideal) x1 x2 x3 (ix2 k o) = weight x1 x2 x3 k o := by
  rw [val_main_v17_apply, val_main_v16_apply, val_main_v11_apply, fieldArray_apply, val_main_v13_apply, idx_v13,
    val_main_v12_apply, idx_scales, val_main_v15_apply, idx_v15, val_main_v14_apply, idx_zeros]
  rfl

/-! ## The output -/

/-- The reference's result at `[a, r, o]`. -/
theorem result_apply (x0 : (⟨S4x2048x4096, .f32⟩ : BufTy).Contents (Elt Ideal))
    (x1 : (⟨S512x4096, .i32⟩ : BufTy).Contents (Elt Ideal)) (x2 x3 : (⟨S32x4096, .f32⟩ : BufTy).Contents (Elt Ideal))
    (x4 : (⟨S4096, .f32⟩ : BufTy).Contents (Elt Ideal)) (a : Fin 4) (r : Fin 2048) (o : Fin 4096) :
    val_main_v21 (F := Ideal) x0 x1 x2 x3 x4 (ix3 a r o) = outAt x0 x1 x2 x3 x4 a r o := by
  have hs : ∑ k : Fin 4096, x0 (lidx_main_v18 (ix3 a r o) k)
        * val_main_v17 (F := Ideal) x1 x2 x3 (ridx_main_v18 (ix3 a r o) k)
      = ∑ k : Fin 4096, x0 (ix3 a r k) * weight x1 x2 x3 k o :=
    Finset.sum_congr rfl fun k _ => by rw [idx_lhs, idx_rhs, weightArray_apply]
  rw [val_main_v21_apply, val_main_v18_apply, val_main_v20_apply, val_main_v19_apply, idx_bias, hs]
  rfl

/-- The reference's result is the specification's output array. -/
theorem result_eq (x0 : (⟨S4x2048x4096, .f32⟩ : BufTy).Contents (Elt Ideal))
    (x1 : (⟨S512x4096, .i32⟩ : BufTy).Contents (Elt Ideal)) (x2 x3 : (⟨S32x4096, .f32⟩ : BufTy).Contents (Elt Ideal))
    (x4 : (⟨S4096, .f32⟩ : BufTy).Contents (Elt Ideal)) :
    Cert.ReferenceIdeal.Read.val_main_v21 (F := Ideal) x0 x1 x2 x3 x4 = Cert.QLin.out x0 x1 x2 x3 x4 := by
  funext i
  obtain ⟨a, r, o, rfl⟩ : ∃ a r o, i = ix3 a r o := ⟨i 0, i 1, i 2, eq_ix3 i⟩
  exact result_apply x0 x1 x2 x3 x4 a r o

end Cert.ReferenceIdeal.RefValue

end
-- ==== Proof.lean ====
/-
  A 4-bit-quantized linear layer: `x · W + bias` with `W[i, o] = field(i, o) · scale[i / 128, o] − zero[i / 128, o]`,
  the fields packed eight to a 32-bit word along the input features.

  The kernel tiles the product over a grid (n, m, k) = (2, 16, 4): column half n of the 4096 output
  features, row block m of the 8192 rows, run k of 1024 input features. At the points with m = 0 it
  copies the packed words of block (n, k) out of HBM, dequantizes them into a cache that the later row
  blocks reuse, and at every point it adds the product of the activation block with the cached weight
  block to an accumulator, which it resets at k = 0 and stores, plus the bias, at k = 3. The reference
  dequantizes the whole matrix and takes one product.

  Over the extended reals both are `Cert.QLin.out`: a float is the number it denotes, a change of
  float format is the identity, the matrix unit's product into a zero accumulator is the plain sum of
  products, and a sum over the 4096 input features is the sum of its four runs of 1024 added in order
  (addition of extended reals is associative and commutative, so no finiteness is needed; the
  precondition is not used). The frames: each program runs to the end without a fault and leaves its
  arguments as they were — for the kernel at both float instances by one argument generic in the
  instance, for the reference by its run. The idealization rewrote nothing, so `preserves` is trivial.
-/
import proofs.«405182_j16458314678409_3_alg».proof.Defs
import proofs.«405182_j16458314678409_3_alg».proof.Proof.Gen.Kernel
import proofs.«405182_j16458314678409_3_alg».proof.Proof.Gen.KernelIdeal
import proofs.«405182_j16458314678409_3_alg».proof.Proof.Gen.ReferenceIdeal
import proofs.«405182_j16458314678409_3_alg».proof.Proof.Gen.Pre_finite_inputs
import proofs.«405182_j16458314678409_3_alg».proof.Proof.Gen.ReferenceIdeal.Run
import proofs.«405182_j16458314678409_3_alg».proof.Proof.BodyBits
import proofs.«405182_j16458314678409_3_alg».proof.Proof.ValueIdeal
import proofs.«405182_j16458314678409_3_alg».proof.Proof.RefValue

noncomputable section

namespace Cert.Proof

open Idealize.ShloMosaic Idealize.SL.Sem

/-- The kernel as printed runs to the end and leaves its arguments unchanged. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization is the program's own text read over the extended reals. -/
theorem preserves : Cert.preserves_Kernel_KernelIdeal := trivial

/-- From memories that agree on the arguments both programs end with `Cert.QLin.out` of the arguments. -/
theorem algebraic : Cert.algebraic_KernelIdeal_ReferenceIdeal := by
  intro m ρ m' ρ' _ hagree
  refine ⟨_, Cert.KernelIdeal.Hand.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v21_eq _ _ _ _ _).trans (Cert.ReferenceIdeal.RefValue.result_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
